-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩
abbrev S1x640000 : Shape := ⟨2, ![1, 640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 1 := constantI S_ 1 1#1
  let main_v36 : IVec S_ 1 := (fun x v => Host.reduce IntOp.andi x v reducesTo_S2x640000_S_d0_1 h_S_) main_v35 main_c_13
  let main_v37 : IVec S_ 1 := andi main_v33 main_v36
  let main_v38 : IVec S1x640000 32 := (extractStridedSlice S1x640000 ![0, 0] · slices_S2x640000_S1x640000_0_0) main_arg1
  let main_v39 : IVec S640000 32 := shapeCast S640000 main_v38 shapeCasts_S1x640000_S640000
  let main_c_14 : IVec S_ 32 := constantI S_ 32 10000#32
  let main_v40 : IVec S640000 32 := broadcastInDim S640000 ![] bcast_S_S640000 main_c_14
  let main_v41 : IVec S640000 1 := cmpi .slt main_v39 main_v40
  let main_c_15 : IVec S_ 1 := constantI S_ 1 1#1
  let main_v42 : IVec S_ 1 := (fun x v => Host.reduce IntOp.andi x v reducesTo_S640000_S_d0 h_S_) main_v41 main_c_15
  let main_v43 : IVec S_ 1 := andi main_v37 main_v42
  main_v43

def fn_part1 {F : FTy → Type} [FloatOps F] (main_arg1 : IVec S2x640000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : IVec S640000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S10240x10240 : Shape := ⟨2, ![10240, 10240]⟩
abbrev S640000x1 : Shape := ⟨2, ![640000, 1]⟩
abbrev S640000x2 : Shape := ⟨2, ![640000, 2]⟩
abbrev S10240x128 : Shape := ⟨2, ![10240, 128]⟩
abbrev S1 : Shape := ⟨1, ![1]⟩
abbrev S1x128 : Shape := ⟨2, ![1, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 81
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .f32⟩
  | .hbm, ⟨17, _⟩ => ⟨S640000, .f32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S10240x10240, .f32⟩
  | .hbm, ⟨22, _⟩ => ⟨S640000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x1, .i32⟩
  | .hbm, ⟨39, _⟩ => ⟨S640000x2, .i32⟩
  | .hbm, ⟨40, _⟩ => ⟨S10240x10240, .f32⟩
  | .hbm, ⟨41, _⟩ => ⟨S_, .f32⟩
  | .hbm, ⟨42, _⟩ => ⟨S10240x10240, .f32⟩
  | .hbm, ⟨43, _⟩ => ⟨S640000, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .i32⟩
  | .hbm, ⟨60, _⟩ => ⟨S640000x2, .i32⟩
  | .hbm, ⟨61, _⟩ => ⟨S10240x10240, .f32⟩
  | .hbm, ⟨62, _⟩ => ⟨S10240x10240, .bf16⟩
  | .hbm, ⟨63, _⟩ => ⟨S10240x10240, .bf16⟩
  | .hbm, ⟨64, _⟩ => ⟨S_, .f32⟩
  | .hbm, ⟨65, _⟩ => ⟨S10240x128, .f32⟩
  | .hbm, ⟨66, _⟩ => ⟨S_, .i32⟩
  | .hbm, ⟨67, _⟩ => ⟨S1, .i32⟩
  | .hbm, ⟨68, _⟩ => ⟨S10240x128, .f32⟩
  | .hbm, ⟨69, _⟩ => ⟨S10240x128, .bf16⟩
  | .hbm, ⟨70, _⟩ => ⟨S128x128, .f32⟩
  | .hbm, ⟨71, _⟩ => ⟨S128x128, .bf16⟩
  | .hbm, ⟨72, _⟩ => ⟨S128x128, .f32⟩
  | .hbm, ⟨73, _⟩ => ⟨S128x128, .bf16⟩
  | .hbm, ⟨74, _⟩ => ⟨S128x128, .f32⟩
  | .hbm, ⟨75, _⟩ => ⟨S128x128, .bf16⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S10240x128, .f32⟩
  | .hbm, ⟨80, _⟩ => ⟨S10000x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_c_12 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg1 : BitVec 32 := BitVec.ofNat 32 (i 1).val
  let c4_i32 : BitVec 32 := 4#32
  let v33 : BitVec 1 := Scalar.cmpi .eq arg1 c4_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10240x10240 : S_.BroadcastsInDim S10240x10240 (![] : Fin 0 → Fin S10240x10240.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x128_S1024x128 : S1x128.Broadcasts S1024x128
  slices_S10240x128_S10000x128_0_0 : S10240x128.Slices ![0, 0] S10000x128
  scatter_S10240x10240_S640000x2_S640000_n_01_01_1_wf : ScatterDims.WF S10240x10240 S640000x2 S640000 [] [0, 1] [0, 1] 1
  scatter_S10240x128_S1_S10000x128_01_n_0_0_wf : ScatterDims.WF S10240x128 S1 S10000x128 [0, 1] [] [0] 0
  dot_S2048x128_S128x128_S2048x128_1_0_0_1_n_n_wf : DotDims.WF S2048x128 S128x128 S2048x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S10240x10240.size a
  hwx0_0 : ∀ i : grid0.Coords, EltTy.bits .bf16 = 32 ∨ (Rect.block (s := S10240x10240) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S10240x10240.size a
  hwx0_1 : ∀ i : grid0.Coords, EltTy.bits .bf16 = 32 ∨ (Rect.block (s := S10240x10240) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S10240x128.size a
  hwx0_2 : ∀ i : grid0.Coords, EltTy.bits .bf16 = 32 ∨ (Rect.block (s := S10240x128) S2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S10240x128.size a
  hwx0_3 : ∀ i : grid0.Coords, EltTy.bits .bf16 = 32 ∨ (Rect.block (s := S10240x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x128.size a ≤ S10240x128.size a
  hwx0_10 : ∀ i : grid0.Coords, EltTy.bits .f32 = 32 ∨ (Rect.block (s := S10240x128) S1024x128.size (cc0_transform_10 i) (hinb0_10 i)).WholeWords (EltTy.packing .f32)

variable [Facts₀]

def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v40) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v55) S1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S128x128, .f32⟩
  | .hbm, ⟨23, _⟩ => ⟨S640000x128, .f32⟩
  | .hbm, ⟨24, _⟩ => ⟨S1x128, .f32⟩
  | .hbm, ⟨25, _⟩ => ⟨S640000x128, .f32⟩
  | .hbm, ⟨26, _⟩ => ⟨S640000x128, .f32⟩
  | .hbm, ⟨27, _⟩ => ⟨S128x128, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S640000x1, .i1⟩
  | .hbm, ⟨36, _⟩ => ⟨S640000x128, .i1⟩
  | .hbm, ⟨37, _⟩ => ⟨S640000x128, .f32⟩
  | .hbm, ⟨38, _⟩ => ⟨S_, .f32⟩
  | .hbm, ⟨39, _⟩ => ⟨S10000x128, .f32⟩
  | .hbm, ⟨40, _⟩ => ⟨S640000x1, .i32⟩
  | .hbm, ⟨41, _⟩ => ⟨S10000x128, .f32⟩
  | .hbm, ⟨42, _⟩ => ⟨S128x128, .f32⟩
  | .hbm, ⟨43, _⟩ => ⟨S10000x128, .f32⟩
  | .hbm, ⟨44, _⟩ => ⟨S1x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S10000x128, .f32⟩
  | .hbm, ⟨50, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  dot_S640000x128_S128x128_S640000x128_1_0_0_1_n_n_wf : DotDims.WF S640000x128 S128x128 S640000x128 [1] [0] [0] [1] [] []
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.K.Cond.lean ====
/-
  The one pipelined call of the program runs its body at the 50 points of a 10 x 5 grid, row tile
  i = t / 5 and column tile k = t % 5. The body branches twice on k alone: on k = 0 (it then clears
  the accumulator) and on k = 4 (it then finishes the row tile and stores the output block). This
  module states the two conditions as the body computes them, decides over the grid at which
  points each holds (k = 0 exactly at t % 5 = 0, k = 4 exactly at t % 5 = 4), records where the
  output window is idle and where it is written back, names the staging memrefs the body is
  called with, and shows that each input window's buffer holds its block of the array at every
  point, fetched there or not.
-/
import proofs.«424744_j9517647528114_2_alg».proof.Proof.Gen.Kernel.Launch
import proofs.«424744_j9517647528114_2_alg».proof.Proof.Gen.Kernel.Skeleton
import proofs.«424744_j9517647528114_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched its block index has not moved since the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved since the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched its block index has not moved since the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is
    not fetched its block index has not moved since the point before, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is
    not fetched its block index has not moved since the point before, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is
    not fetched its block index has not moved since the point before, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is
    not fetched its block index has not moved since the point before, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: where it is
    not fetched its block index has not moved since the point before, and the body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not: where it is
    not fetched its block index has not moved since the point before, and the body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not: where it is
    not fetched its block index has not moved since the point before, and the body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first condition (column tile k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 5): decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-- The second condition (column tile k = 4), as the body computes it from the grid coordinates. -/
abbrev cond0_1 (i : grid0.Coords) : Prop := k0_cond2 i = 1#1
/-- It holds exactly at the points ≡ 4 (mod 5): decided over the grid. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl

/-- Where k = 0 (and k ≠ 4) the body stores nothing into the output window: it is idle there, -/
theorem idleAt0_10_A : ∀ t : Fin cfg0.N, cond0_0 (grid0.coords t) → ¬cond0_1 (grid0.coords t) → cfg0.idle 10 (grid0.coords t) = true := by decide +kernel
/-- and its block is not written back there. -/
theorem noFlush0_10_A : ∀ t : Fin cfg0.N, cond0_0 (grid0.coords t) → ¬cond0_1 (grid0.coords t) → (cfg0.win 10).flush t = false := by decide +kernel
/-- Where 0 < k < 4 likewise: idle, -/
theorem idleAt0_10_B : ∀ t : Fin cfg0.N, ¬cond0_0 (grid0.coords t) → ¬cond0_1 (grid0.coords t) → cfg0.idle 10 (grid0.coords t) = true := by decide +kernel
/-- and not written back. -/
theorem noFlush0_10_B : ∀ t : Fin cfg0.N, ¬cond0_0 (grid0.coords t) → ¬cond0_1 (grid0.coords t) → (cfg0.win 10).flush t = false := by decide +kernel
/-- Where k = 4 the body stores the output block: the window is live. -/
theorem liveAt0_10_C : ∀ t : Fin cfg0.N, ¬cond0_0 (grid0.coords t) → cond0_1 (grid0.coords t) → cfg0.idle 10 (grid0.coords t) = false := by decide +kernel

/-! ## The memrefs the body is called with -/

/-- One staging buffer of the output window, through which its contents are stated (the choice does not matter). -/
abbrev VO0_10 : View sig .tc .vmem S1024x128 .f32 := (Memref.whole cc0_stg10_0 : Memref sig .tc .vmem S1024x128 .f32).view
/-- Window 0's current staging memref at point `t`, as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
/-- Window 5's current staging memref at point `t`, as the pipeline passes it, and its wholeness. -/
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
/-- Window 6's current staging memref at point `t`, as the pipeline passes it, and its wholeness. -/
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
/-- Window 7's current staging memref at point `t`, as the pipeline passes it, and its wholeness. -/
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- Window 8's current staging memref at point `t`, as the pipeline passes it, and its wholeness. -/
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- Window 9's current staging memref at point `t`, as the pipeline passes it, and its wholeness. -/
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
/-- Window 10's current staging memref at point `t`, as the pipeline passes it, and its wholeness. -/
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The accumulator: a whole scoped buffer of the kernel's own, passed beside the windows. -/
abbrev scM0_0 : Memref sig .tc .vmem S1024x128 .f32 := Memref.whole cc0_scratch0
/-- The accumulator as a view: what it holds between points is stated through it. -/
abbrev VS0_0 : View sig .tc .vmem S1024x128 .f32 := scM0_0.view

/-- What the launch hands the region, with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body where the column tile is the first of its row (k = 0): the accumulator is cleared, then this
  tile's contribution A_d[i,0] (X_0 W_d^T + b_d) + A_c[i,0] (X_0 W_c^T + b_c) is added to it. The output window
  is not touched. What the accumulator ends with is recorded as the list of stores made into it.
-/
import proofs.«424744_j9517647528114_2_alg».proof.Proof.K.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- THE BODY WHERE k = 0. On whole staging memrefs — the ten inputs' at their contents `x·`, the output's at contents
    `xi10` that it does not touch, the accumulator at anything — the body runs to a continuation that holds the inputs'
    and the output's as they were and the accumulator with its stores written, as pieces (last first): the zero fill,
    then the zero fill plus this column tile's contribution. The pieces are found by running the body; the output's
    list is empty (nothing is stored into it here). -/
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) :
    Σ' (L10 : List (View.Piece (Elt F) S1024x128 .f32)), { LS0 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.RunB.lean ====
/-
  The kernel body at an inner column tile (0 < k < 4): the accumulator, carried from the point before, gets this
  tile's contribution A_d[i,k] (X_k W_d^T + b_d) + A_c[i,k] (X_k W_c^T + b_c) added. The output window is not touched.
-/
import proofs.«424744_j9517647528114_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- THE BODY WHERE 0 < k < 4. As where k = 0, but the accumulator comes in at the contents `xs0` the point before left
    and is not cleared: its one store writes `xs0` plus this column tile's contribution. -/
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    Σ' (L10 : List (View.Piece (Elt F) S1024x128 .f32)), { LS0 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.Kernel.Hand

end
-- ==== Proof.K.RunC.lean ====
/-
  The kernel body at the last column tile of a row (k = 4): the accumulator gets this tile's contribution, and the
  row tile is finished: out = max(acc + X_i W_s^T + b_s, 0) is stored into the output window's staging buffer.
-/
import proofs.«424744_j9517647528114_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- THE BODY WHERE k = 4. The accumulator comes in at `xs0` and is stored once more with this column tile's
    contribution added; then the row tile is finished — the self term and its bias added, the rectifier applied — and
    stored into the output's staging memref, which comes in at anything and leaves with that store written. -/
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    Σ' (L10 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.Kernel.Hand

end
-- ==== Proof.K.Body.lean ====
/-
  What the pipelined call's body leaves, point by point. At each of the 50 grid points the body is in one of three
  cases of the column tile k = t % 5: k = 0 (clear the accumulator, then accumulate), 0 < k < 4 (accumulate),
  k = 4 (accumulate, finish the row tile, store the output block). From the runs of the three cases this module
  reads off what the accumulator and the output block hold after every point (`outsAt0`, by recursion on the point:
  the accumulator is carried from one point to the next within a row tile), states the proof data of the pipeline
  (`dat0`: the input windows keep their blocks, the output window holds the finished row tile after the points with
  k = 4, the accumulator's contents ride in the invariant), and proves the body obligation at every point.
-/
import proofs.«424744_j9517647528114_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body stores nothing into the output window where k = 0: no pieces. A placeholder that nothing consults, since at
    these points the window is neither written back nor read at the next point. -/
def out0_A_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) : Vec F S1024x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- The body's stores into the accumulator where k = 0 are each of the whole buffer, so its pieces cover it. -/
theorem scover0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S1024x128.size (by sl_kernel_rfl) y

/-- What the body leaves in the accumulator where k = 0: its pieces read back. -/
def sout0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- The body stores nothing into the output window where 0 < k < 4: no pieces. A placeholder that nothing consults, since at
    these points the window is neither written back nor read at the next point. -/
def out0_B_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- The body's stores into the accumulator where 0 < k < 4 are each of the whole buffer, so its pieces cover it. -/
theorem scover0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S1024x128.size (by sl_kernel_rfl) y

/-- What the body leaves in the accumulator where 0 < k < 4: its pieces read back. -/
def sout0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- The body's one store into the output window where k = 4 is of the whole block, so its pieces cover it. -/
theorem cover0_C_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S1024x128.size (by sl_kernel_rfl) y

/-- What the body leaves in the output window's staging buffer where k = 4: its pieces read back. -/
def out0_C_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- The body's stores into the accumulator where k = 4 are each of the whole buffer, so its pieces cover it. -/
theorem scover0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S1024x128.size (by sl_kernel_rfl) y

/-- What the body leaves in the accumulator where k = 4: its pieces read back. -/
def sout0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output window and the accumulator hold after each point -/

/-- THE ACCUMULATION. What the output's staging buffer and the accumulator hold after the body at position `n`: the case
    the closed forms select at `n` (k = 0, 0 < k < 4, k = 4), run at the point's memrefs and input blocks, the accumulator
    coming in — but where k = 0 — at what this leaves at `n - 1`. No point has k = 0 and k = 4 at once. -/
def outsAt0 (c : Dev nD) : (n : ℕ) → n < cfg0.N → Vec F S1024x128 .f32 × Vec F S1024x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 5 = 0 then
      if h1 : (n + 1) % 5 = 4 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 5 = 4 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)

/-- `outsAt0` at a point with k = 0. -/
theorem outsAt0_A (c : Dev nD) (t : Fin cfg0.N) (h0 : t.val % 5 = 0) (h1 : ¬t.val % 5 = 4) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

/-- `outsAt0` at a point with 0 < k < 4: over what the point before left. -/
theorem outsAt0_B (c : Dev nD) (t : Fin cfg0.N) (h0 : ¬t.val % 5 = 0) (h1 : ¬t.val % 5 = 4) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 4: over what the point before left. -/
theorem outsAt0_C (c : Dev nD) (t : Fin cfg0.N) (h0 : ¬t.val % 5 = 0) (h1 : t.val % 5 = 4) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulator at
    anything); afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt0`; the invariant `PhiS`; nothing owed. The padded
    feature matrix is read through two windows (its 2048-row column-tile blocks and its 1024-row row-tile blocks),
    each holding half of the array's share; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]

theorem q0_2 (c : Dev nD) : (dat0 V c).q 2 = fullShare.left := by dsimp only [dat0]
theorem q0_3 (c : Dev nD) : (dat0 V c).q 3 = fullShare.right := by dsimp only [dat0]
theorem q0_full (c : Dev nD) (w : Fin cfg0.W) (h2 : w ≠ 2) (h3 : w ≠ 3) : (dat0 V c).q w = fullShare := by
  dsimp only [dat0]
  match w, h2, h3 with
  | ⟨0, _⟩, _, _ => rfl
  | ⟨1, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨9, _⟩, _, _ => rfl
  | ⟨10, _⟩, _, _ => rfl
  | ⟨2, _⟩, h2, _ => exact absurd rfl h2
  | ⟨3, _⟩, _, h3 => exact absurd rfl h3

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point. The inputs' memrefs hold their blocks; the closed forms say which of k = 0, 0 < k < 4, k = 4
    the point is in, and that case's run applies. The invariant hands the body the accumulator at what the point before
    left (at anything at the very first point) and takes it back at this point's contents; where k ≠ 4 the output's
    buffer is handed back as it came; where k = 4 it is left at the finished row tile. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val % 5 = 0
  · by_cases h1 : t.val % 5 = 4
    · exfalso; omega
    · rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 5 = 4
    · rw [show (dat0 V c).leavesExact 10 t = owns (c : Thread nD τ) (ms0_10 t) fullShare ((dat0 V c).after 10 t) from by
        unfold Dat.leavesExact; rw [liveAt0_10_C t (fun h => h0 ((hcond0_0 t).mp h)) ((hcond0_1 t).mpr h1)], after0_10]
      rw [outsAt0_C V c t h0 h1]
      unfold out0_C_10 sout0_C_0; (try dsimp only)
      have hz : t.val ≠ 0 := by omega
      rw [PhiS_castSucc V c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _)
    · rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.Vals.lean ====
/-
  The contents of the TensorCore's buffers between the stretches of host operations that precede the kernel
  region: the launch memory, then each stretch's operations applied in order. The region is entered at the last.
-/
import proofs.«424744_j9517647528114_2_alg».proof.Proof.Gen.Kernel.Launch
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After the first stretch (the two rows of edge end points, the type test, the constant vectors). -/
abbrev W1 (c : Dev nD) : Valuation τ sig (Elt F) := StableHlo.after hostOps0 (W0 m c)
/-- After the selection of the first type's unit weights. -/
abbrev W2 (c : Dev nD) : Valuation τ sig (Elt F) := StableHlo.after hostOps0_1 (W1 m c)
/-- After the first adjacency array's accumulation. -/
abbrev W3 (c : Dev nD) : Valuation τ sig (Elt F) := StableHlo.after hostOps0_2 (W2 m c)
/-- After the selection of the second type's unit weights. -/
abbrev W4 (c : Dev nD) : Valuation τ sig (Elt F) := StableHlo.after hostOps0_3 (W3 m c)
/-- After the second adjacency array, the padded features, the transposed weights and the bias rows:
    the contents the region is entered at. -/
abbrev W5 (c : Dev nD) : Valuation τ sig (Elt F) := StableHlo.after hostOps0_4 (W4 m c)
/-- The same read at a TensorCore reference. -/
abbrev V5 (c : Dev nD) (b : Ref sig .tc) : Buf (Elt F) ((c : Thread nD τ).loc b) := W5 m c (Proc.devRef .tc b)

end Cert.Kernel.Hand

end
-- ==== Proof.K.Share.lean ====
/-
  The kernel region's arrays among the core's unscoped buffers, when two windows read ONE array.

  Windows 2 and 3 of the call both read the padded feature array (a block of 2048 rows at the column tile, a block
  of 1024 rows at the row tile). The pipeline's proof data hold a window's array at a share of its own: here the
  left half of the full share for window 2, the right half for window 3, the full share for every other window.
  The core's unscoped buffers hold each DISTINCT buffer once, whole: the ten buffers behind the eleven windows.
  Entry splits the shared buffer's full share in two; exit joins the halves again (both at the same contents).
-/
import proofs.«424744_j9517647528114_2_alg».proof.Proof.Gen.Kernel.Launch
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

/-! ## The windows and the buffers behind them -/

/-- The windows other than the two that read the feature array. -/
abbrev others : Finset (Fin 11) := (Finset.univ.erase 3).erase 2

theorem mem_others {w : Fin 11} (h : w ∈ others) : w ≠ 2 ∧ w ≠ 3 :=
  ⟨(Finset.mem_erase.mp h).1, (Finset.mem_erase.mp (Finset.mem_erase.mp h).2).1⟩

/-- The eleven windows: the two readers of the feature array, and the others. -/
theorem univ_eq : (Finset.univ : Finset (Fin 11)) = insert 2 (insert 3 others) := by decide
theorem two_not_mem : (2 : Fin 11) ∉ insert 3 others := by decide
theorem three_not_mem : (3 : Fin 11) ∉ others := by decide

/-- Windows 2 and 3 name one buffer; -/
theorem arrRef_three : Pipeline.arrRef spec0 3 = Pipeline.arrRef spec0 2 := rfl
/-- so the buffers behind the arrays are window 2's and the others', -/
theorem image_eq : Finset.univ.image (Pipeline.arrRef spec0)
    = insert (Pipeline.arrRef spec0 2) (others.image (Pipeline.arrRef spec0)) := by decide
/-- the former not among the latter, -/
theorem arrRef_two_not_mem : Pipeline.arrRef spec0 2 ∉ others.image (Pipeline.arrRef spec0) := by decide
/-- which are pairwise distinct. -/
theorem arrRef_injOn : Set.InjOn (Pipeline.arrRef spec0) (others : Set (Fin 11)) :=
  have h : ∀ a ∈ others, ∀ b ∈ others, Pipeline.arrRef spec0 a = Pipeline.arrRef spec0 b → a = b := by decide
  fun a ha b hb e => h a (Finset.mem_coe.mp ha) b (Finset.mem_coe.mp hb) e

/-- The buffers behind the arrays: window 2's, and one per other window. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc (Pipeline.arrRef spec0 2)) ↦{fullShare} V (Pipeline.arrRef spec0 2))
        ∗ bigSep others fun w => (((c : Thread nD τ).loc (Pipeline.arrRef spec0 w)) ↦{fullShare} V (Pipeline.arrRef spec0 w))) := by
  unfold Pipeline.arrBufs
  rw [image_eq, bigSep_insert arrRef_two_not_mem, bigSep_image_of_injOn arrRef_injOn]
  rfl

section Share

variable {c : Dev nD} (dat : Dat τ (Elt F) Unit ℕ (UR sig nD τ) ℕ cfg0 c)

/-- A window's array, a whole buffer, as the buffer behind it. -/
theorem arr_term (Fw : (w : Fin cfg0.W) → Buf (Elt F) ((cfg0.win w).arr.view.loc (c : Thread nD τ))) (w : Fin 11) :
    ((cfg0.win w).arr.view.loc (c : Thread nD τ) ↦[(cfg0.win w).arr.view.set]{dat.share w} Fw w : sProp 𝕄)
      = (((c : Thread nD τ).loc (Pipeline.arrRef spec0 w)) ↦{dat.share w} Fw w) := by
  rw [(arr_whole0 w).set_eq_univ]

/-- The arrays as the buffers behind them, each at its window's share: the two readers' first. -/
theorem arrays_eq_bufs (Fw : (w : Fin cfg0.W) → Buf (Elt F) ((cfg0.win w).arr.view.loc (c : Thread nD τ))) :
    (dat.arrays Fw : sProp 𝕄)
      = iprop((((c : Thread nD τ).loc (Pipeline.arrRef spec0 2)) ↦{dat.share 2} Fw 2)
        ∗ (((c : Thread nD τ).loc (Pipeline.arrRef spec0 3)) ↦{dat.share 3} Fw 3)
        ∗ bigSep others fun w : Fin 11 => (((c : Thread nD τ).loc (Pipeline.arrRef spec0 w)) ↦{dat.share w} Fw w)) := by
  unfold Dat.arrays
  refine (bigSep_congr fun w _ => arr_term dat Fw w).trans ?_
  rw [univ_eq, bigSep_insert two_not_mem, bigSep_insert three_not_mem]
  rfl

variable (hq2 : dat.q 2 = fullShare.left) (hq3 : dat.q 3 = fullShare.right) (hq : ∀ w, w ≠ 2 → w ≠ 3 → dat.q w = fullShare)

include hq2 in
theorem share_two : dat.share 2 = fullShare.left := by
  unfold Dat.share; rw [show (cfg0.win 2).isOut = false from rfl]; exact hq2
include hq3 in
theorem share_three : dat.share 3 = fullShare.right := by
  unfold Dat.share; rw [show (cfg0.win 3).isOut = false from rfl]; exact hq3
include hq in
theorem share_others (w : Fin 11) (h2 : w ≠ 2) (h3 : w ≠ 3) : dat.share w = fullShare := by
  unfold Dat.share; split
  · rfl
  · exact hq w h2 h3

include hq2 hq3 hq in
/-- ENTRY: the core's unscoped buffers at contents V are the region's arrays at the same contents — the shared
    buffer's full share split between its two windows — and the unscoped rest. -/
theorem arrays_of_held (V : (b : Ref sig .tc) → Buf (Elt F) ((c : Thread nD τ).loc b))
    (Fw : (w : Fin cfg0.W) → Buf (Elt F) ((cfg0.win w).arr.view.loc (c : Thread nD τ)))
    (hF : ∀ w, Fw w = V (Pipeline.arrRef spec0 w)) :
    (unscopedBufs c V : sProp 𝕄) ⊢ iprop(dat.arrays Fw ∗ Pipeline.unscopedRest spec0 c V) := by
  rw [show (unscopedBufs c V : sProp 𝕄) = iprop(Pipeline.arrBufs spec0 c V ∗ Pipeline.unscopedRest spec0 c V)
    from Pipeline.unscopedBufs_split₀ cfgs 0 winFacts₀0.arr_unscoped c V]
  refine sep_mono ?_ .rfl
  have hothers : (bigSep others fun w : Fin 11 => (((c : Thread nD τ).loc (Pipeline.arrRef spec0 w)) ↦{dat.share w} Fw w) : sProp 𝕄)
      = bigSep others fun w => (((c : Thread nD τ).loc (Pipeline.arrRef spec0 w)) ↦{fullShare} V (Pipeline.arrRef spec0 w)) :=
    bigSep_congr fun w hw => by rw [share_others dat hq w (mem_others hw).1 (mem_others hw).2, hF w]
  rw [arrBufs_eq, arrays_eq_bufs, hothers, share_two dat hq2, share_three dat hq3, hF 2, hF 3, arrRef_three]
  iintro ⟨H2, Hr⟩
  ihave H2 := (pointsTo_share (PosShare.mem_left_op_right fullShare)).1 $$ H2
  icases H2 with ⟨H2, H3⟩
  isplitl [H2]; · iexact H2
  isplitl [H3]; · iexact H3
  iexact Hr

include hq2 hq3 hq in
/-- EXIT: the region's arrays at contents Fw — the two halves of the shared buffer joined — and the unscoped rest at V
    are the core's unscoped buffers at any V' that has the arrays at Fw and agrees with V off them. -/
theorem held_of_arrays (V V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V b) :
    iprop(dat.arrays Fw ∗ Pipeline.unscopedRest spec0 c V) ⊢ (unscopedBufs c V' : sProp 𝕄) := by
  rw [show (unscopedBufs c V' : sProp 𝕄) = iprop(Pipeline.arrBufs spec0 c V' ∗ Pipeline.unscopedRest spec0 c V')
    from Pipeline.unscopedBufs_split₀ cfgs 0 winFacts₀0.arr_unscoped c V']
  refine sep_mono ?_ (Entails.of_eq ?_)
  · have hothers : (bigSep others fun w : Fin 11 => (((c : Thread nD τ).loc (Pipeline.arrRef spec0 w)) ↦{dat.share w} Fw w) : sProp 𝕄)
        = bigSep others fun w => (((c : Thread nD τ).loc (Pipeline.arrRef spec0 w)) ↦{fullShare} V' (Pipeline.arrRef spec0 w)) :=
      bigSep_congr fun w hw => by rw [share_others dat hq w (mem_others hw).1 (mem_others hw).2, hF w]
    rw [arrBufs_eq, arrays_eq_bufs, hothers, share_two dat hq2, share_three dat hq3, hF 2, hF 3, arrRef_three]
    iintro ⟨H2, H3, Hr⟩
    ihave H2 := (pointsTo_share (PosShare.mem_left_op_right fullShare)).2 $$ [H2 H3]
    · isplitl [H2] <;> iassumption
    isplitl [H2]; · iexact H2
    iexact Hr
  · unfold Pipeline.unscopedRest
    exact bigSep_congr fun b hb => by rw [hrest b (Finset.mem_sdiff.mp hb).2]

end Share

end Cert.Kernel.Hand

end
-- ==== Proof.K.Exit.lean ====
/-
  The contents of the TensorCore's buffers when the kernel region is left, and after the one host operation that
  follows it. The region reads ten arrays and writes one, the padded output: at its exit every buffer holds what it
  held at entry except the padded output, which holds what the pipeline's write-backs have made of it. The host
  operation after the region slices the first 10000 rows of the padded output into the result.
-/
import proofs.«424744_j9517647528114_2_alg».proof.Proof.Gen.Kernel.Launch
import proofs.«424744_j9517647528114_2_alg».proof.Proof.K.Vals
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)
  (dat : (c : Dev nD) → Dat τ (Elt F) Unit ℕ (UR sig nD τ) ℕ cfg0 c)

/-- Core `c`'s buffers at the region's exit: the padded output at what the pipeline leaves in it (every written-back
    block folded into the array), every other buffer as the region was entered. -/
def W6 (c : Dev nD) : Valuation τ sig (Elt F) :=
  Function.update (W5 m c) (Proc.devRef .tc main_v55) ((dat c).arrAt 10 cfg0.N)
/-- The same read at a TensorCore reference. -/
abbrev V6 (c : Dev nD) (b : Ref sig .tc) : Buf (Elt F) ((c : Thread nD τ).loc b) := W6 m dat c (Proc.devRef .tc b)
/-- After the slice of the padded output into the result: the contents @main returns with. -/
abbrev W7 (c : Dev nD) : Valuation τ sig (Elt F) := StableHlo.after hostOps1 (W6 m dat c)

/-- At the region's exit the padded output holds what the pipeline leaves, -/
theorem W6_v55 (c : Dev nD) : W6 m dat c (Proc.devRef .tc main_v55) = (dat c).arrAt 10 cfg0.N := by
  unfold W6; exact Function.update_self _ _ _
/-- and every other buffer what it held at entry. -/
theorem W6_of_ne (c : Dev nD) (b : Ref sig .tc) (hb : b ≠ main_v55) :
    W6 m dat c (Proc.devRef .tc b) = W5 m c (Proc.devRef .tc b) := by
  unfold W6; exact Function.update_of_ne (StableHlo.devRef_ne_of_ne hb) _ _

end Cert.Kernel.Hand

end
-- ==== Proof.K.Args.lean ====
/-
  What the run of @main leaves in the argument arrays and in the result. No host operation writes an argument array
  and the kernel region writes the padded output only, so every argument reaches the end as launched; the result is
  the first 10000 rows of the padded output as the region leaves it.
-/
import proofs.«424744_j9517647528114_2_alg».proof.Proof.K.Exit
import Idealize.ShloMosaic.Lib.Pipeline.Frame
import Idealize.ShloMosaic.Lib.StableHlo.Run

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the host stretches write -/

/-- No operation of `hostOps0` allocates a buffer. -/
theorem hostOps0_fresh : (hostOps0 : List (HloOp τ sig (Elt F))).Forall fun op => op.fresh = ∅ := by
  simp only [List.Forall]; repeat' constructor
/-- The references written by the first stretch (the edge end points, the type test, the constant vectors). -/
abbrev hostOps0_W : List (Ref sig .tc) := [main_v0, main_v1, main_v2, main_v3, main_c, main_v4, main_v5, main_cst, main_v6, main_cst_0, main_v7, main_cst_1, main_v8]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_1` allocates a buffer. -/
theorem hostOps0_1_fresh : (hostOps0_1 : List (HloOp τ sig (Elt F))).Forall fun op => op.fresh = ∅ := by
  simp only [List.Forall]; repeat' constructor
/-- The references written by the selection of the first type's unit weights. -/
abbrev hostOps0_1_W : List (Ref sig .tc) := [main_v9]
theorem hostOps0_1_writes : (hostOps0_1 : List (HloOp τ sig (Elt F))).Forall fun op => op.writes ⊆ (hostOps0_1_W.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_2` allocates a buffer. -/
theorem hostOps0_2_fresh : (hostOps0_2 : List (HloOp τ sig (Elt F))).Forall fun op => op.fresh = ∅ := by
  simp only [List.Forall]; repeat' constructor
/-- The references written by the first adjacency array's accumulation. -/
abbrev hostOps0_2_W : List (Ref sig .tc) := [main_c_2, main_v10, main_v11, main_c_3, main_v12, main_v13, main_v14, main_c_4, main_v15, main_v16, main_c_5, main_v17, main_v18, main_v19, main_v20, main_v21, main_v22, main_v23, main_cst_6, main_v24]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_3` allocates a buffer. -/
theorem hostOps0_3_fresh : (hostOps0_3 : List (HloOp τ sig (Elt F))).Forall fun op => op.fresh = ∅ := by
  simp only [List.Forall]; repeat' constructor
/-- The references written by the selection of the second type's unit weights. -/
abbrev hostOps0_3_W : List (Ref sig .tc) := [main_v25]
theorem hostOps0_3_writes : (hostOps0_3 : List (HloOp τ sig (Elt F))).Forall fun op => op.writes ⊆ (hostOps0_3_W.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_4` allocates a buffer. -/
theorem hostOps0_4_fresh : (hostOps0_4 : List (HloOp τ sig (Elt F))).Forall fun op => op.fresh = ∅ := by
  simp only [List.Forall]; repeat' constructor
/-- The references written by the second adjacency array, the padded features, the transposed weights and the bias rows. -/
abbrev hostOps0_4_W : List (Ref sig .tc) := [main_c_7, main_v26, main_v27, main_c_8, main_v28, main_v29, main_v30, main_c_9, main_v31, main_v32, main_c_10, main_v33, main_v34, main_v35, main_v36, main_v37, main_v38, main_v39, main_v40, main_v41, main_cst_11, main_v42, main_c_12, main_v43, main_v44, main_v45, main_v46, main_v47, main_v48, main_v49, main_v50, main_v51, main_v52, main_v53, main_v54]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references written by the slice of the padded output into the result. -/
abbrev hostOps1_W : List (Ref sig .tc) := [main_v56]
theorem hostOps1_writes : (hostOps1 : List (HloOp τ sig (Elt F))).Forall fun op => op.writes ⊆ (hostOps1_W.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each stretch leaves unchanged -/

variable (m : (ℓ : Loc nD τ sig) → Buf (Elt F) ℓ)
  (dat : (c : Dev nD) → Dat τ (Elt F) Unit ℕ (UR sig nD τ) ℕ cfg0 c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W5_of (c : Dev nD) (r : Ref sig .tc) (h : r ∉ hostOps0_4_W) : W5 m c (Proc.devRef .tc r) = W4 m c (Proc.devRef .tc r) :=
  StableHlo.after_of_writes_sub hostOps0_4 _ hostOps0_4_writes h
theorem W7_of (c : Dev nD) (r : Ref sig .tc) (h : r ∉ hostOps1_W) : W7 m dat c (Proc.devRef .tc r) = W6 m dat c (Proc.devRef .tc r) :=
  StableHlo.after_of_writes_sub hostOps1 _ hostOps1_writes h

/-! ## No stretch writes an argument, nor does the region -/

/-- `main_arg0` reaches the end as launched. -/
theorem W7_main_arg0 (c : Dev nD) : W7 m dat c (Proc.devRef .tc main_arg0) = m ((c : Thread nD τ).loc main_arg0) :=
  (W7_of m dat c main_arg0 (by decide)).trans <| (W6_of_ne m dat c main_arg0 (by decide)).trans <| (W5_of m c main_arg0 (by decide)).trans <|
    (W4_of m c main_arg0 (by decide)).trans <| (W3_of m c main_arg0 (by decide)).trans <| (W2_of m c main_arg0 (by decide)).trans <|
    (W1_of m c main_arg0 (by decide)).trans rfl
/-- `main_arg1` reaches the end as launched. -/
theorem W7_main_arg1 (c : Dev nD) : W7 m dat c (Proc.devRef .tc main_arg1) = m ((c : Thread nD τ).loc main_arg1) :=
  (W7_of m dat c main_arg1 (by decide)).trans <| (W6_of_ne m dat c main_arg1 (by decide)).trans <| (W5_of m c main_arg1 (by decide)).trans <|
    (W4_of m c main_arg1 (by decide)).trans <| (W3_of m c main_arg1 (by decide)).trans <| (W2_of m c main_arg1 (by decide)).trans <|
    (W1_of m c main_arg1 (by decide)).trans rfl
/-- `main_arg2` reaches the end as launched. -/
theorem W7_main_arg2 (c : Dev nD) : W7 m dat c (Proc.devRef .tc main_arg2) = m ((c : Thread nD τ).loc main_arg2) :=
  (W7_of m dat c main_arg2 (by decide)).trans <| (W6_of_ne m dat c main_arg2 (by decide)).trans <| (W5_of m c main_arg2 (by decide)).trans <|
    (W4_of m c main_arg2 (by decide)).trans <| (W3_of m c main_arg2 (by decide)).trans <| (W2_of m c main_arg2 (by decide)).trans <|
    (W1_of m c main_arg2 (by decide)).trans rfl
/-- `main_arg3` reaches the end as launched. -/
theorem W7_main_arg3 (c : Dev nD) : W7 m dat c (Proc.devRef .tc main_arg3) = m ((c : Thread nD τ).loc main_arg3) :=
  (W7_of m dat c main_arg3 (by decide)).trans <| (W6_of_ne m dat c main_arg3 (by decide)).trans <| (W5_of m c main_arg3 (by decide)).trans <|
    (W4_of m c main_arg3 (by decide)).trans <| (W3_of m c main_arg3 (by decide)).trans <| (W2_of m c main_arg3 (by decide)).trans <|
    (W1_of m c main_arg3 (by decide)).trans rfl
/-- `main_arg4` reaches the end as launched. -/
theorem W7_main_arg4 (c : Dev nD) : W7 m dat c (Proc.devRef .tc main_arg4) = m ((c : Thread nD τ).loc main_arg4) :=
  (W7_of m dat c main_arg4 (by decide)).trans <| (W6_of_ne m dat c main_arg4 (by decide)).trans <| (W5_of m c main_arg4 (by decide)).trans <|
    (W4_of m c main_arg4 (by decide)).trans <| (W3_of m c main_arg4 (by decide)).trans <| (W2_of m c main_arg4 (by decide)).trans <|
    (W1_of m c main_arg4 (by decide)).trans rfl
/-- `main_arg5` reaches the end as launched. -/
theorem W7_main_arg5 (c : Dev nD) : W7 m dat c (Proc.devRef .tc main_arg5) = m ((c : Thread nD τ).loc main_arg5) :=
  (W7_of m dat c main_arg5 (by decide)).trans <| (W6_of_ne m dat c main_arg5 (by decide)).trans <| (W5_of m c main_arg5 (by decide)).trans <|
    (W4_of m c main_arg5 (by decide)).trans <| (W3_of m c main_arg5 (by decide)).trans <| (W2_of m c main_arg5 (by decide)).trans <|
    (W1_of m c main_arg5 (by decide)).trans rfl
/-- `main_arg6` reaches the end as launched. -/
theorem W7_main_arg6 (c : Dev nD) : W7 m dat c (Proc.devRef .tc main_arg6) = m ((c : Thread nD τ).loc main_arg6) :=
  (W7_of m dat c main_arg6 (by decide)).trans <| (W6_of_ne m dat c main_arg6 (by decide)).trans <| (W5_of m c main_arg6 (by decide)).trans <|
    (W4_of m c main_arg6 (by decide)).trans <| (W3_of m c main_arg6 (by decide)).trans <| (W2_of m c main_arg6 (by decide)).trans <|
    (W1_of m c main_arg6 (by decide)).trans rfl
/-- `main_arg7` reaches the end as launched. -/
theorem W7_main_arg7 (c : Dev nD) : W7 m dat c (Proc.devRef .tc main_arg7) = m ((c : Thread nD τ).loc main_arg7) :=
  (W7_of m dat c main_arg7 (by decide)).trans <| (W6_of_ne m dat c main_arg7 (by decide)).trans <| (W5_of m c main_arg7 (by decide)).trans <|
    (W4_of m c main_arg7 (by decide)).trans <| (W3_of m c main_arg7 (by decide)).trans <| (W2_of m c main_arg7 (by decide)).trans <|
    (W1_of m c main_arg7 (by decide)).trans rfl
/-- `main_arg8` reaches the end as launched. -/
theorem W7_main_arg8 (c : Dev nD) : W7 m dat c (Proc.devRef .tc main_arg8) = m ((c : Thread nD τ).loc main_arg8) :=
  (W7_of m dat c main_arg8 (by decide)).trans <| (W6_of_ne m dat c main_arg8 (by decide)).trans <| (W5_of m c main_arg8 (by decide)).trans <|
    (W4_of m c main_arg8 (by decide)).trans <| (W3_of m c main_arg8 (by decide)).trans <| (W2_of m c main_arg8 (by decide)).trans <|
    (W1_of m c main_arg8 (by decide)).trans rfl

/-! ## The result -/

/-- The result is the first 10000 rows of the padded output as the region leaves it. -/
theorem W7_main_v56 (c : Dev nD) : W7 m dat c (Proc.devRef .tc main_v56)
    = ((extractStridedSlice S10000x128 ![0, 0] · slices_S10240x128_S10000x128_0_0) : (⟨S10240x128, .f32⟩ : BufTy).Contents (Elt F) → (⟨S10000x128, .f32⟩ : BufTy).Contents (Elt F))
        ((dat c).arrAt 10 cfg0.N) := by
  show StableHlo.after hostOps1 (W6 m dat c) (Proc.devRef .tc main_v56) = _
  unfold hostOps1
  after_results
  rw [W6_v55]

end Cert.Kernel.Hand

end
-- ==== Proof.K.Run.lean ====
/-
  THE RUN of the whole program on a TensorCore, from the launch to the return, as seven segments: five stretches of
  host operations (the edge end points and type tests; the two selections of unit weights; the two adjacency arrays by
  scatter-add; the padded features, transposed weights and bias rows), the one pipelined kernel region, and the slice
  of the padded output into the result. Between two segments the core holds every unscoped buffer whole at a known
  valuation: the launch memory, then each host stretch's operations applied, then — across the region — the padded
  output replaced by what the pipeline's write-backs leave in it. The region is stated over ANY proof data of the
  pipeline that reads its arrays off the entry valuation, holds the twice-windowed feature array at half shares and
  every other array whole, owes nothing, and satisfies the body obligation with an invariant that takes in and gives
  back what the launch hands a region. The conclusion: every weakly fair execution terminates, nothing faulting, and
  every unscoped buffer ends at the last valuation; in particular the nine argument arrays end as launched.
-/
import proofs.«424744_j9517647528114_2_alg».proof.Proof.Gen.Kernel.Launch
import proofs.«424744_j9517647528114_2_alg».proof.Proof.Gen.Kernel.Skeleton
import proofs.«424744_j9517647528114_2_alg».proof.Proof.Gen.Kernel.Points
import proofs.«424744_j9517647528114_2_alg».proof.Proof.K.Vals
import proofs.«424744_j9517647528114_2_alg».proof.Proof.K.Share
import proofs.«424744_j9517647528114_2_alg».proof.Proof.K.Exit
import proofs.«424744_j9517647528114_2_alg».proof.Proof.K.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)
  (dat : (c : Dev nD) → Dat τ (Elt F) Unit ℕ (UR sig nD τ) ℕ cfg0 c)
  (hA : ∀ c w, (dat c).A w = V5 m c (Pipeline.arrRef spec0 w))
  (hq2 : ∀ c, (dat c).q 2 = fullShare.left) (hq3 : ∀ c, (dat c).q 3 = fullShare.right)
  (hq : ∀ c w, w ≠ 2 → w ≠ 3 → (dat c).q w = fullShare)
  (howed : ∀ c t, (dat c).owed t = 0)
  (hrec : ∀ c, (dat c).recorded 0 = Set.univ)
  (hbody : ∀ c, BodyObligation (dat c) (defs₀ (F := F)) Variants.none () Set.univ)
  (hin : ∀ c, Pipeline.ΦA spec0 c ⊢ (dat c).Φ 0)
  (hout : ∀ c, (dat c).Φ (Fin.last cfg0.N) ⊢ Pipeline.ΦA spec0 c)

/-! ## The region's exit contents, array by array -/

include hA in
/-- An input window's array is never written: at the exit it holds what it held at entry. -/
theorem hF6_in (c : Dev nD) (w : Fin cfg0.W) (hw : (cfg0.win w).isOut = false) (hne : Pipeline.arrRef spec0 w ≠ main_v55) :
    (dat c).arrAt w cfg0.N = V6 m dat c (Pipeline.arrRef spec0 w) :=
  (((dat c).arrAt_in w hw _).trans (hA c w)).trans (W6_of_ne m dat c _ hne).symm

set_option maxHeartbeats 4000000 in
include hA in
/-- At the region's exit each of its arrays holds what the pipeline leaves: the inputs what they held, the padded
    output its write-backs folded. -/
theorem hF6 (c : Dev nD) : ∀ w : Fin cfg0.W, (dat c).arrAt w cfg0.N = V6 m dat c (Pipeline.arrRef spec0 w)
  | ⟨0, _⟩ => hF6_in m dat hA c 0 rfl (by decide)
  | ⟨1, _⟩ => hF6_in m dat hA c 1 rfl (by decide)
  | ⟨2, _⟩ => hF6_in m dat hA c 2 rfl (by decide)
  | ⟨3, _⟩ => hF6_in m dat hA c 3 rfl (by decide)
  | ⟨4, _⟩ => hF6_in m dat hA c 4 rfl (by decide)
  | ⟨5, _⟩ => hF6_in m dat hA c 5 rfl (by decide)
  | ⟨6, _⟩ => hF6_in m dat hA c 6 rfl (by decide)
  | ⟨7, _⟩ => hF6_in m dat hA c 7 rfl (by decide)
  | ⟨8, _⟩ => hF6_in m dat hA c 8 rfl (by decide)
  | ⟨9, _⟩ => hF6_in m dat hA c 9 rfl (by decide)
  | ⟨10, _⟩ => (W6_v55 m dat c).symm

/-- Every buffer that is no array of the region holds at the exit what it held at entry. -/
theorem hrest6 (c : Dev nD) : ∀ b, b ∉ Finset.univ.image (Pipeline.arrRef spec0) → V6 m dat c b = V5 m c b :=
  fun b hb => W6_of_ne m dat c b fun e => hb (e ▸ Finset.mem_image.mpr ⟨10, Finset.mem_univ _, rfl⟩)

/-! ## The proof data family and the thread state -/

/-- The prefetched tables' admissible contents: the pipeline has no table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment: its operations over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last valuation, the generator
    register at some state. -/
abbrev Tₙ (c : Dev nD) : sProp 𝕄 := iprop(StableHlo.held (c : Thread nD τ) (Pipeline.ucRefs τ sig) (W7 m dat c) ∗ ∃ r, prngReg c r)

/-- The proof data owe nothing, -/
theorem owed_pdats (c : Dev nD) (t : Fin (cfg0.N + 1)) (h : ∀ c t, (dat c).owed t = 0) : (pdats dat 0 c).owed t = 0 := h c t
/-- and bound the recorded pairs by nothing at the first point. -/
theorem rec_pdats (c : Dev nD) (h : ∀ c, (dat c).recorded 0 = Set.univ) : (pdats dat 0 c).recorded 0 = Set.univ := h c

/-! ## The kernel region as a segment -/

set_option backward.isDefEq.respectTransparency.types false in
include hA hq2 hq3 hq howed hrec hbody hin hout in
/-- THE REGION over the thread state: entered from every unscoped buffer at the entry valuation, left at the exit
    valuation. At entry the region's arrays are split out of the unscoped buffers (the twice-windowed array's share in
    two halves); at exit they are put back at what the pipeline leaves. The generator register goes into the invariant
    and comes out; nothing is owed; the kernel has no semaphore of its own. -/
def reg0 : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W5 m c) ∗ R c)
  post c := iprop(StableHlo.held (c : Thread nD τ) (Pipeline.ucRefs τ sig) (W6 m dat c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := arrays_of_held (pdats dat 0 c) (hq2 c) (hq3 c) (hq c) (V5 m c) ((pdats dat 0 c).arrAt · 0) (fun w => hA c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_pdats dat c _ howed]
      icases HO with ⟨%W, HO⟩; iexists W; isplitr
      · ipureintro; exact fun x _ => Or.inl ((rec_pdats dat c hrec).symm ▸ Set.mem_univ x)
      iexact HO
    isplitl [Hp]; · iexact Hp
    iexact Hrest
  hin c := by
    refine (?_ : _ ⊢ (Pipeline.ΦA spec0 c : sProp 𝕄)).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := held_of_arrays (pdats dat 0 c) (hq2 c) (hq3 c) (hq c) (V5 m c) (V6 m dat c) ((pdats dat 0 c).arrAt · cfg0.N)
      (hF6 m dat hA c) (hrest6 m dat c)
    rw [Pipeline.unscopedBufs_held] at hjoin
    unfold Pipeline.Dat.owesAt Pipeline.owesWithin
    rw [owed_pdats dat c _ howed]
    iintro ⟨Ha, HO, HY, Hrest⟩
    imodintro
    isplitl [Ha Hrest]
    · iapply hjoin
      isplitl [Ha]; · iexact Ha
      iexact Hrest
    isplitl [HY]; · iexact HY
    icases HO with ⟨%W, -, HO⟩; iexists W; iexact HO

/-! ## @main as segments, and the launch -/

include hA hq2 hq3 hq howed hrec hbody hin hout in
/-- @main's seven segments in order. -/
abbrev segs : List (Pipeline.Seg (pcfgs (F := F)) adm (pdats dat) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m dat hA hq2 hq3 hq howed hrec hbody hin hout),
    .host (hseg hostOps1 hostOps1_sub hostOps1_fresh (W6 m dat)) ]

include hA hq2 hq3 hq howed hrec hbody hin hout in
/-- @main IS the run of the segments. -/
theorem main_run (c : Dev nD) : main (F := F) c = Pipeline.Seg.run (segs m dat hA hq2 hq3 hq howed hrec hbody hin hout) := (main_chain c).trans (by chain_rfl)

set_option backward.isDefEq.respectTransparency.types false in
include hA hq2 hq3 hq howed hrec hbody hin hout in
/-- THE RUN: from any memory with zero counters, every weakly fair execution of @main on the TensorCore terminates,
    nothing faulting, and every final state has every unscoped buffer at the last valuation. -/
theorem run_main : θ_run defs (onTc (τ := τ) (main (F := F))) ⟨m, fun _ => 0, ρ⟩
    (fun r => ∀ c : Dev nD, ∀ b ∈ Pipeline.ucRefs τ sig, r.2.mem ((c : Thread nD τ).1, b) = W7 m dat c b) :=
  Pipeline.θ_run_regions_kit (pcfgs (F := F)) adm (pdats dat) () cellOf_inj emb₁ defs₀ 𝒱₀ L lv m ρ main (segs m dat hA hq2 hq3 hq howed hrec hbody hin hout)
    (fun c Q => by rw [main_run m dat hA hq2 hq3 hq howed hrec hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m dat c) ∗ R c) : sProp 𝕄)
        ⊢ iprop(Tₙ m dat c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m dat c b)
    (hfin := fun c s' => by
      iintro ⟨⟨Hh, -⟩, HSI⟩
      unfold StableHlo.held
      imodintro
      iapply (pointsTo_read_all (Pipeline.ucRefs τ sig) (fun b => (((c : Thread nD τ)).1, b)) (W7 m dat c) s')
      isplitl [Hh] <;> iassumption)
    (hQ := fun s h => h)

include hA hq2 hq3 hq howed hrec hbody hin hout in
/-- THE FRAME: the program runs to the end, faults nowhere, and leaves each of its nine argument arrays as launched
    (no host stretch writes an argument, and the region's only written array is the padded output). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W7_main_arg0 m dat c),
     (h c _ (mem_uc main_arg1 (by decide))).trans (W7_main_arg1 m dat c),
     (h c _ (mem_uc main_arg2 (by decide))).trans (W7_main_arg2 m dat c),
     (h c _ (mem_uc main_arg3 (by decide))).trans (W7_main_arg3 m dat c),
     (h c _ (mem_uc main_arg4 (by decide))).trans (W7_main_arg4 m dat c),
     (h c _ (mem_uc main_arg5 (by decide))).trans (W7_main_arg5 m dat c),
     (h c _ (mem_uc main_arg6 (by decide))).trans (W7_main_arg6 m dat c),
     (h c _ (mem_uc main_arg7 (by decide))).trans (W7_main_arg7 m dat c),
     (h c _ (mem_uc main_arg8 (by decide))).trans (W7_main_arg8 m dat c)⟩)
    (run_main m ρ dat hA hq2 hq3 hq howed hrec hbody hin hout)

end Run

end Cert.Kernel.Hand

end
-- ==== Proof.K.Frame.lean ====
/-
  The run of the whole program at the kernel body's own proof data. The pipeline's data are read off the valuation at
  which the region is entered (the launch memory with the five host stretches applied): the input windows keep their
  blocks, the output window holds the finished row tiles, the accumulator rides in the invariant, the twice-windowed
  feature array is held at half shares. With the body obligation proved for these data, the run of the seven segments
  gives: the program terminates, faults nowhere, leaves every unscoped buffer at the last valuation — the result being
  the first 10000 rows of what the pipeline's write-backs leave in the padded output — and the nine arguments as launched.
-/
import proofs.«424744_j9517647528114_2_alg».proof.Proof.K.Body
import proofs.«424744_j9517647528114_2_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

set_option maxHeartbeats 4000000 in
/-- THE RUN at the body's proof data: every weakly fair execution of @main terminates, nothing faulting, and every
    unscoped buffer ends at the last valuation. -/
theorem run_val : θ_run defs (onTc (τ := τ) (main (F := F))) ⟨m, fun _ => 0, ρ⟩
    (fun r => ∀ c : Dev nD, ∀ b ∈ Pipeline.ucRefs τ sig, r.2.mem ((c : Thread nD τ).1, b) = W7 m (fun c => dat0 (V5 m) c) c b) :=
  run_main m ρ (fun c => dat0 (V5 m) c) (A_eq0 (V5 m)) (q0_2 (V5 m)) (q0_3 (V5 m)) (q0_full (V5 m)) (fun _ _ => rfl) (fun _ => rfl) (body_obligation0 (V5 m)) (hin0 (V5 m)) (hout0 (V5 m))

set_option maxHeartbeats 4000000 in
/-- THE FRAME: the program runs to the end, faults nowhere, and leaves its nine argument arrays as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame m ρ (fun c => dat0 (V5 m) c) (A_eq0 (V5 m)) (q0_2 (V5 m)) (q0_3 (V5 m)) (q0_full (V5 m)) (fun _ _ => rfl) (fun _ => rfl) (body_obligation0 (V5 m)) (hin0 (V5 m)) (hout0 (V5 m))

/-- Argument 0 ends as launched. -/
theorem W7v_main_arg0 (c : Dev nD) : W7 m (fun c => dat0 (V5 m) c) c (Proc.devRef .tc main_arg0) = m ((c : Thread nD τ).loc main_arg0) :=
  W7_main_arg0 m _ c
/-- Argument 1 ends as launched. -/
theorem W7v_main_arg1 (c : Dev nD) : W7 m (fun c => dat0 (V5 m) c) c (Proc.devRef .tc main_arg1) = m ((c : Thread nD τ).loc main_arg1) :=
  W7_main_arg1 m _ c
/-- Argument 2 ends as launched. -/
theorem W7v_main_arg2 (c : Dev nD) : W7 m (fun c => dat0 (V5 m) c) c (Proc.devRef .tc main_arg2) = m ((c : Thread nD τ).loc main_arg2) :=
  W7_main_arg2 m _ c
/-- Argument 3 ends as launched. -/
theorem W7v_main_arg3 (c : Dev nD) : W7 m (fun c => dat0 (V5 m) c) c (Proc.devRef .tc main_arg3) = m ((c : Thread nD τ).loc main_arg3) :=
  W7_main_arg3 m _ c
/-- Argument 4 ends as launched. -/
theorem W7v_main_arg4 (c : Dev nD) : W7 m (fun c => dat0 (V5 m) c) c (Proc.devRef .tc main_arg4) = m ((c : Thread nD τ).loc main_arg4) :=
  W7_main_arg4 m _ c
/-- Argument 5 ends as launched. -/
theorem W7v_main_arg5 (c : Dev nD) : W7 m (fun c => dat0 (V5 m) c) c (Proc.devRef .tc main_arg5) = m ((c : Thread nD τ).loc main_arg5) :=
  W7_main_arg5 m _ c
/-- Argument 6 ends as launched. -/
theorem W7v_main_arg6 (c : Dev nD) : W7 m (fun c => dat0 (V5 m) c) c (Proc.devRef .tc main_arg6) = m ((c : Thread nD τ).loc main_arg6) :=
  W7_main_arg6 m _ c
/-- Argument 7 ends as launched. -/
theorem W7v_main_arg7 (c : Dev nD) : W7 m (fun c => dat0 (V5 m) c) c (Proc.devRef .tc main_arg7) = m ((c : Thread nD τ).loc main_arg7) :=
  W7_main_arg7 m _ c
/-- Argument 8 ends as launched. -/
theorem W7v_main_arg8 (c : Dev nD) : W7 m (fun c => dat0 (V5 m) c) c (Proc.devRef .tc main_arg8) = m ((c : Thread nD τ).loc main_arg8) :=
  W7_main_arg8 m _ c

/-- The result: the first 10000 rows of what the pipeline's write-backs leave in the padded output. -/
theorem W7v_main_v56 (c : Dev nD) : W7 m (fun c => dat0 (V5 m) c) c (Proc.devRef .tc main_v56)
    = extractStridedSlice S10000x128 ![0, 0] ((dat0 (V5 m) c).arrAt 10 cfg0.N) slices_S10240x128_S10000x128_0_0 :=
  W7_main_v56 m _ c

end Cert.Kernel.Hand

end
-- ==== Proof.KI.Cond.lean ====
/-
  The one pipelined call of the program runs its body at the 50 points of a 10 x 5 grid, row tile
  i = t / 5 and column tile k = t % 5. The body branches twice on k alone: on k = 0 (it then clears
  the accumulator) and on k = 4 (it then finishes the row tile and stores the output block). This
  module states the two conditions as the body computes them, decides over the grid at which
  points each holds (k = 0 exactly at t % 5 = 0, k = 4 exactly at t % 5 = 4), records where the
  output window is idle and where it is written back, names the staging memrefs the body is
  called with, and shows that each input window's buffer holds its block of the array at every
  point, fetched there or not.
-/
import proofs.«424744_j9517647528114_2_alg».proof.Proof.Gen.KernelIdeal.Launch
import proofs.«424744_j9517647528114_2_alg».proof.Proof.Gen.KernelIdeal.Skeleton
import proofs.«424744_j9517647528114_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched its block index has not moved since the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched its block index has not moved since the point before, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched its block index has not moved since the point before, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is
    not fetched its block index has not moved since the point before, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is
    not fetched its block index has not moved since the point before, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is
    not fetched its block index has not moved since the point before, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is
    not fetched its block index has not moved since the point before, and the body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not: where it is
    not fetched its block index has not moved since the point before, and the body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not: where it is
    not fetched its block index has not moved since the point before, and the body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not: where it is
    not fetched its block index has not moved since the point before, and the body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The first condition (column tile k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 5): decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-- The second condition (column tile k = 4), as the body computes it from the grid coordinates. -/
abbrev cond0_1 (i : grid0.Coords) : Prop := k0_cond2 i = 1#1
/-- It holds exactly at the points ≡ 4 (mod 5): decided over the grid. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl

/-- Where k = 0 (and k ≠ 4) the body stores nothing into the output window: it is idle there, -/
theorem idleAt0_10_A : ∀ t : Fin cfg0.N, cond0_0 (grid0.coords t) → ¬cond0_1 (grid0.coords t) → cfg0.idle 10 (grid0.coords t) = true := by decide +kernel
/-- and its block is not written back there. -/
theorem noFlush0_10_A : ∀ t : Fin cfg0.N, cond0_0 (grid0.coords t) → ¬cond0_1 (grid0.coords t) → (cfg0.win 10).flush t = false := by decide +kernel
/-- Where 0 < k < 4 likewise: idle, -/
theorem idleAt0_10_B : ∀ t : Fin cfg0.N, ¬cond0_0 (grid0.coords t) → ¬cond0_1 (grid0.coords t) → cfg0.idle 10 (grid0.coords t) = true := by decide +kernel
/-- and not written back. -/
theorem noFlush0_10_B : ∀ t : Fin cfg0.N, ¬cond0_0 (grid0.coords t) → ¬cond0_1 (grid0.coords t) → (cfg0.win 10).flush t = false := by decide +kernel
/-- Where k = 4 the body stores the output block: the window is live. -/
theorem liveAt0_10_C : ∀ t : Fin cfg0.N, ¬cond0_0 (grid0.coords t) → cond0_1 (grid0.coords t) → cfg0.idle 10 (grid0.coords t) = false := by decide +kernel

/-! ## The memrefs the body is called with -/

/-- One staging buffer of the output window, through which its contents are stated (the choice does not matter). -/
abbrev VO0_10 : View sig .tc .vmem S1024x128 .f32 := (Memref.whole cc0_stg10_0 : Memref sig .tc .vmem S1024x128 .f32).view
/-- Window 0's current staging memref at point `t`, as the pipeline passes it, and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
/-- Window 1's current staging memref at point `t`, as the pipeline passes it, and its wholeness. -/
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
/-- Window 2's current staging memref at point `t`, as the pipeline passes it, and its wholeness. -/
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
/-- Window 3's current staging memref at point `t`, as the pipeline passes it, and its wholeness. -/
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
/-- Window 4's current staging memref at point `t`, as the pipeline passes it, and its wholeness. -/
abbrev ms0_4 (t : Fin cfg0.N) : Memref sig .tc .vmem S128x128 .bf16 := win0_4.stage (cfg0.slots t 4)
abbrev hs0_4 (t : Fin cfg0.N) : (ms0_4 t).IsWhole := hstage0_4 ((cfg0.slots t 4).cast nbuf0_4)
/-- Window 5's current staging memref at point `t`, as the pipeline passes it, and its wholeness. -/
abbrev ms0_5 (t : Fin cfg0.N) : Memref sig .tc .vmem S128x128 .bf16 := win0_5.stage (cfg0.slots t 5)
abbrev hs0_5 (t : Fin cfg0.N) : (ms0_5 t).IsWhole := hstage0_5 ((cfg0.slots t 5).cast nbuf0_5)
/-- Window 6's current staging memref at point `t`, as the pipeline passes it, and its wholeness. -/
abbrev ms0_6 (t : Fin cfg0.N) : Memref sig .tc .vmem S128x128 .bf16 := win0_6.stage (cfg0.slots t 6)
abbrev hs0_6 (t : Fin cfg0.N) : (ms0_6 t).IsWhole := hstage0_6 ((cfg0.slots t 6).cast nbuf0_6)
/-- Window 7's current staging memref at point `t`, as the pipeline passes it, and its wholeness. -/
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- Window 8's current staging memref at point `t`, as the pipeline passes it, and its wholeness. -/
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- Window 9's current staging memref at point `t`, as the pipeline passes it, and its wholeness. -/
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
/-- Window 10's current staging memref at point `t`, as the pipeline passes it, and its wholeness. -/
abbrev ms0_10 (t : Fin cfg0.N) : Memref sig .tc .vmem S1024x128 .f32 := win0_10.stage (cfg0.slots t 10)
abbrev hs0_10 (t : Fin cfg0.N) : (ms0_10 t).IsWhole := hstage0_10 ((cfg0.slots t 10).cast nbuf0_10)
/-- The accumulator: a whole scoped buffer of the kernel's own, passed beside the windows. -/
abbrev scM0_0 : Memref sig .tc .vmem S1024x128 .f32 := Memref.whole cc0_scratch0
/-- The accumulator as a view: what it holds between points is stated through it. -/
abbrev VS0_0 : View sig .tc .vmem S1024x128 .f32 := scM0_0.view

/-- What the launch hands the region, with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body where the column tile is the first of its row (k = 0): the accumulator is cleared, then this
  tile's contribution A_d[i,0] (X_0 W_d^T + b_d) + A_c[i,0] (X_0 W_c^T + b_c) is added to it. The output window
  is not touched. What the accumulator ends with is recorded as the list of stores made into it.
-/
import proofs.«424744_j9517647528114_2_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- THE BODY WHERE k = 0. On whole staging memrefs — the ten inputs' at their contents `x·`, the output's at contents
    `xi10` that it does not touch, the accumulator at anything — the body runs to a continuation that holds the inputs'
    and the output's as they were and the accumulator with its stores written, as pieces (last first): the zero fill,
    then the zero fill plus this column tile's contribution. The pieces are found by running the body; the output's
    list is empty (nothing is stored into it here). -/
noncomputable def kernelRun0_A (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) :
    Σ' (L10 : List (View.Piece (Elt F) S1024x128 .f32)), { LS0 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.RunB.lean ====
/-
  The kernel body at an inner column tile (0 < k < 4): the accumulator, carried from the point before, gets this
  tile's contribution A_d[i,k] (X_k W_d^T + b_d) + A_c[i,k] (X_k W_c^T + b_c) added. The output window is not touched.
-/
import proofs.«424744_j9517647528114_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- THE BODY WHERE 0 < k < 4. As where k = 0, but the accumulator comes in at the contents `xs0` the point before left
    and is not cleared: its one store writes `xs0` plus this column tile's contribution. -/
noncomputable def kernelRun0_B (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    Σ' (L10 : List (View.Piece (Elt F) S1024x128 .f32)), { LS0 : List (View.Piece (Elt F) S1024x128 .f32) //
      ∀ (xi10 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨[], ?_, fun xi10 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

end Cert.KernelIdeal.Hand

end
-- ==== Proof.KI.RunC.lean ====
/-
  The kernel body at the last column tile of a row (k = 4): the accumulator gets this tile's contribution, and the
  row tile is finished: out = max(acc + X_i W_s^T + b_s, 0) is stored into the output window's staging buffer.
-/
import proofs.«424744_j9517647528114_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- THE BODY WHERE k = 4. The accumulator comes in at `xs0` and is stored once more with this column tile's
    contribution added; then the row tile is finished — the self term and its bias added, the rectifier applied — and
    stored into the output's staging memref, which comes in at anything and leaves with that store written. -/
noncomputable def kernelRun0_C (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    Σ' (L10 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

end Cert.KernelIdeal.Hand

end
-- ==== Proof.KI.Body.lean ====
/-
  What the pipelined call's body leaves, point by point. At each of the 50 grid points the body is in one of three
  cases of the column tile k = t % 5: k = 0 (clear the accumulator, then accumulate), 0 < k < 4 (accumulate),
  k = 4 (accumulate, finish the row tile, store the output block). From the runs of the three cases this module
  reads off what the accumulator and the output block hold after every point (`outsAt0`, by recursion on the point:
  the accumulator is carried from one point to the next within a row tile), states the proof data of the pipeline
  (`dat0`: the input windows keep their blocks, the output window holds the finished row tile after the points with
  k = 4, the accumulator's contents ride in the invariant), and proves the body obligation at every point.
-/
import proofs.«424744_j9517647528114_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body stores nothing into the output window where k = 0: no pieces. A placeholder that nothing consults, since at
    these points the window is neither written back nor read at the next point. -/
def out0_A_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) : Vec F S1024x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).1)

/-- The body's stores into the accumulator where k = 0 are each of the whole buffer, so its pieces cover it. -/
theorem scover0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1 S1024x128.size (by sl_kernel_rfl) y

/-- What the body leaves in the accumulator where k = 0: its pieces read back. -/
def sout0_A_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9).2.1)

/-- The body stores nothing into the output window where 0 < k < 4: no pieces. A placeholder that nothing consults, since at
    these points the window is neither written back nor read at the next point. -/
def out0_B_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- The body's stores into the accumulator where 0 < k < 4 are each of the whole buffer, so its pieces cover it. -/
theorem scover0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S1024x128.size (by sl_kernel_rfl) y

/-- What the body leaves in the accumulator where 0 < k < 4: its pieces read back. -/
def sout0_B_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-- The body's one store into the output window where k = 4 is of the whole block, so its pieces cover it. -/
theorem cover0_C_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1 S1024x128.size (by sl_kernel_rfl) y

/-- What the body leaves in the output window's staging buffer where k = 4: its pieces read back. -/
def out0_C_10 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).1)

/-- The body's stores into the accumulator where k = 4 are each of the whole buffer, so its pieces cover it. -/
theorem scover0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1 S1024x128.size (by sl_kernel_rfl) y

/-- What the body leaves in the accumulator where k = 4: its pieces read back. -/
def sout0_C_0 (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0).2.1)

/-! ## What the output window and the accumulator hold after each point -/

/-- THE ACCUMULATION. What the output's staging buffer and the accumulator hold after the body at position `n`: the case
    the closed forms select at `n` (k = 0, 0 < k < 4, k = 4), run at the point's memrefs and input blocks, the accumulator
    coming in — but where k = 0 — at what this leaves at `n - 1`. No point has k = 0 and k = 4 at once. -/
def outsAt0 (c : Dev nD) : (n : ℕ) → n < cfg0.N → Vec F S1024x128 .f32 × Vec F S1024x128 .f32
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) (iblk0 V c 9 ⟨0, hn⟩))
  | n + 1, hn =>
    if h0 : (n + 1) % 5 = 0 then
      if h1 : (n + 1) % 5 = 4 then
        False.elim (by omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩))
    else
      if h1 : (n + 1) % 5 = 4 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (iblk0 V c 9 ⟨n + 1, hn⟩) (outsAt0 c n (Nat.lt_of_succ_lt hn)).2)

/-- `outsAt0` at a point with k = 0. -/
theorem outsAt0_A (c : Dev nD) (t : Fin cfg0.N) (h0 : t.val % 5 = 0) (h1 : ¬t.val % 5 = 4) :
    outsAt0 V c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) := by
  obtain ⟨n, hn⟩ := t
  cases n with
  | zero => exact rfl
  | succ n => exact (dif_pos h0).trans ((dif_neg h1).trans rfl)

/-- `outsAt0` at a point with 0 < k < 4: over what the point before left. -/
theorem outsAt0_B (c : Dev nD) (t : Fin cfg0.N) (h0 : ¬t.val % 5 = 0) (h1 : ¬t.val % 5 = 4) :
    outsAt0 V c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point with k = 4: over what the point before left. -/
theorem outsAt0_C (c : Dev nD) (t : Fin cfg0.N) (h0 : ¬t.val % 5 = 0) (h1 : t.val % 5 = 4) :
    outsAt0 V c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (the accumulator at
    anything); afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt0`; the invariant `PhiS`; nothing owed. The padded
    feature matrix is read through two windows (its 2048-row column-tile blocks and its 1024-row row-tile blocks),
    each holding half of the array's share; every other array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
  Φ t := PhiS V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]

theorem q0_2 (c : Dev nD) : (dat0 V c).q 2 = fullShare.left := by dsimp only [dat0]
theorem q0_3 (c : Dev nD) : (dat0 V c).q 3 = fullShare.right := by dsimp only [dat0]
theorem q0_full (c : Dev nD) (w : Fin cfg0.W) (h2 : w ≠ 2) (h3 : w ≠ 3) : (dat0 V c).q w = fullShare := by
  dsimp only [dat0]
  match w, h2, h3 with
  | ⟨0, _⟩, _, _ => rfl
  | ⟨1, _⟩, _, _ => rfl
  | ⟨4, _⟩, _, _ => rfl
  | ⟨5, _⟩, _, _ => rfl
  | ⟨6, _⟩, _, _ => rfl
  | ⟨7, _⟩, _, _ => rfl
  | ⟨8, _⟩, _, _ => rfl
  | ⟨9, _⟩, _, _ => rfl
  | ⟨10, _⟩, _, _ => rfl
  | ⟨2, _⟩, h2, _ => exact absurd rfl h2
  | ⟨3, _⟩, _, h3 => exact absurd rfl h3

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 8000000 in
/-- The body at any point. The inputs' memrefs hold their blocks; the closed forms say which of k = 0, 0 < k < 4, k = 4
    the point is in, and that case's run applies. The invariant hands the body the accumulator at what the point before
    left (at anything at the very first point) and takes it back at this point's contents; where k ≠ 4 the output's
    buffer is handed back as it came; where k = 4 it is left at the finished row tile. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  by_cases h0 : t.val % 5 = 0
  · by_cases h1 : t.val % 5 = 4
    · exfalso; omega
    · rw [Dat.leavesExact_idle (dat0 V c) 10 t (idleAt0_10_A t ((hcond0_0 t).mpr h0) (fun h => h1 ((hcond0_1 t).mp h))) (noFlush0_10_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · rw [PhiS_castSucc V c t, PhiS_pos V c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexists _; iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
  · by_cases h1 : t.val % 5 = 4
    · rw [show (dat0 V c).leavesExact 10 t = owns (c : Thread nD τ) (ms0_10 t) fullShare ((dat0 V c).after 10 t) from by
        unfold Dat.leavesExact; rw [liveAt0_10_C t (fun h => h0 ((hcond0_0 t).mp h)) ((hcond0_1 t).mpr h1)], after0_10]
      rw [outsAt0_C V c t h0 h1]
      unfold out0_C_10 sout0_C_0; (try dsimp only)
      have hz : t.val ≠ 0 := by omega
      rw [PhiS_castSucc V c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_C_10 c _ _ _ _ _ _ _ _ _ _ _ _ _ _ _ _ _ _ _ _ _ _ _ _ _ _ _ _ _ _ _ _ _ _ _ _ _ _)
    · rw [Dat.leavesExact_idle (dat0 V c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [outsAt0_B V c t h0 h1]
      unfold sout0_B_0; (try dsimp only)
      have hz : t.val ≠ 0 := by omega
      rw [PhiS_castSucc V c t, PhiS_pos V c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.Vals.lean ====
/-
  The contents of the TensorCore's buffers between the stretches of host operations that precede the kernel
  region: the launch memory, then each stretch's operations applied in order. The region is entered at the last.
-/
import proofs.«424744_j9517647528114_2_alg».proof.Proof.Gen.KernelIdeal.Launch
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core `c`'s buffers at launch. -/
abbrev W0 (c : Dev nD) : Valuation τ sig (Elt F) := fun b => m (c, b)
/-- After the first stretch (the two rows of edge end points, the type test, the constant vectors). -/
abbrev W1 (c : Dev nD) : Valuation τ sig (Elt F) := StableHlo.after hostOps0 (W0 m c)
/-- After the selection of the first type's unit weights. -/
abbrev W2 (c : Dev nD) : Valuation τ sig (Elt F) := StableHlo.after hostOps0_1 (W1 m c)
/-- After the first adjacency array's accumulation. -/
abbrev W3 (c : Dev nD) : Valuation τ sig (Elt F) := StableHlo.after hostOps0_2 (W2 m c)
/-- After the selection of the second type's unit weights. -/
abbrev W4 (c : Dev nD) : Valuation τ sig (Elt F) := StableHlo.after hostOps0_3 (W3 m c)
/-- After the second adjacency array, the padded features, the transposed weights and the bias rows:
    the contents the region is entered at. -/
abbrev W5 (c : Dev nD) : Valuation τ sig (Elt F) := StableHlo.after hostOps0_4 (W4 m c)
/-- The same read at a TensorCore reference. -/
abbrev V5 (c : Dev nD) (b : Ref sig .tc) : Buf (Elt F) ((c : Thread nD τ).loc b) := W5 m c (Proc.devRef .tc b)

end Cert.KernelIdeal.Hand

end
-- ==== Proof.KI.Share.lean ====
/-
  The kernel region's arrays among the core's unscoped buffers, when two windows read ONE array.

  Windows 2 and 3 of the call both read the padded feature array (a block of 2048 rows at the column tile, a block
  of 1024 rows at the row tile). The pipeline's proof data hold a window's array at a share of its own: here the
  left half of the full share for window 2, the right half for window 3, the full share for every other window.
  The core's unscoped buffers hold each DISTINCT buffer once, whole: the ten buffers behind the eleven windows.
  Entry splits the shared buffer's full share in two; exit joins the halves again (both at the same contents).
-/
import proofs.«424744_j9517647528114_2_alg».proof.Proof.Gen.KernelIdeal.Launch
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-! ## The windows and the buffers behind them -/

/-- The windows other than the two that read the feature array. -/
abbrev others : Finset (Fin 11) := (Finset.univ.erase 3).erase 2

theorem mem_others {w : Fin 11} (h : w ∈ others) : w ≠ 2 ∧ w ≠ 3 :=
  ⟨(Finset.mem_erase.mp h).1, (Finset.mem_erase.mp (Finset.mem_erase.mp h).2).1⟩

/-- The eleven windows: the two readers of the feature array, and the others. -/
theorem univ_eq : (Finset.univ : Finset (Fin 11)) = insert 2 (insert 3 others) := by decide
theorem two_not_mem : (2 : Fin 11) ∉ insert 3 others := by decide
theorem three_not_mem : (3 : Fin 11) ∉ others := by decide

/-- Windows 2 and 3 name one buffer; -/
theorem arrRef_three : Pipeline.arrRef spec0 3 = Pipeline.arrRef spec0 2 := rfl
/-- so the buffers behind the arrays are window 2's and the others', -/
theorem image_eq : Finset.univ.image (Pipeline.arrRef spec0)
    = insert (Pipeline.arrRef spec0 2) (others.image (Pipeline.arrRef spec0)) := by decide
/-- the former not among the latter, -/
theorem arrRef_two_not_mem : Pipeline.arrRef spec0 2 ∉ others.image (Pipeline.arrRef spec0) := by decide
/-- which are pairwise distinct. -/
theorem arrRef_injOn : Set.InjOn (Pipeline.arrRef spec0) (others : Set (Fin 11)) :=
  have h : ∀ a ∈ others, ∀ b ∈ others, Pipeline.arrRef spec0 a = Pipeline.arrRef spec0 b → a = b := by decide
  fun a ha b hb e => h a (Finset.mem_coe.mp ha) b (Finset.mem_coe.mp hb) e

/-- The buffers behind the arrays: window 2's, and one per other window. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc (Pipeline.arrRef spec0 2)) ↦{fullShare} V (Pipeline.arrRef spec0 2))
        ∗ bigSep others fun w => (((c : Thread nD τ).loc (Pipeline.arrRef spec0 w)) ↦{fullShare} V (Pipeline.arrRef spec0 w))) := by
  unfold Pipeline.arrBufs
  rw [image_eq, bigSep_insert arrRef_two_not_mem, bigSep_image_of_injOn arrRef_injOn]
  rfl

section Share

variable {c : Dev nD} (dat : Dat τ (Elt F) Unit ℕ (UR sig nD τ) ℕ cfg0 c)

/-- A window's array, a whole buffer, as the buffer behind it. -/
theorem arr_term (Fw : (w : Fin cfg0.W) → Buf (Elt F) ((cfg0.win w).arr.view.loc (c : Thread nD τ))) (w : Fin 11) :
    ((cfg0.win w).arr.view.loc (c : Thread nD τ) ↦[(cfg0.win w).arr.view.set]{dat.share w} Fw w : sProp 𝕄)
      = (((c : Thread nD τ).loc (Pipeline.arrRef spec0 w)) ↦{dat.share w} Fw w) := by
  rw [(arr_whole0 w).set_eq_univ]

/-- The arrays as the buffers behind them, each at its window's share: the two readers' first. -/
theorem arrays_eq_bufs (Fw : (w : Fin cfg0.W) → Buf (Elt F) ((cfg0.win w).arr.view.loc (c : Thread nD τ))) :
    (dat.arrays Fw : sProp 𝕄)
      = iprop((((c : Thread nD τ).loc (Pipeline.arrRef spec0 2)) ↦{dat.share 2} Fw 2)
        ∗ (((c : Thread nD τ).loc (Pipeline.arrRef spec0 3)) ↦{dat.share 3} Fw 3)
        ∗ bigSep others fun w : Fin 11 => (((c : Thread nD τ).loc (Pipeline.arrRef spec0 w)) ↦{dat.share w} Fw w)) := by
  unfold Dat.arrays
  refine (bigSep_congr fun w _ => arr_term dat Fw w).trans ?_
  rw [univ_eq, bigSep_insert two_not_mem, bigSep_insert three_not_mem]
  rfl

variable (hq2 : dat.q 2 = fullShare.left) (hq3 : dat.q 3 = fullShare.right) (hq : ∀ w, w ≠ 2 → w ≠ 3 → dat.q w = fullShare)

include hq2 in
theorem share_two : dat.share 2 = fullShare.left := by
  unfold Dat.share; rw [show (cfg0.win 2).isOut = false from rfl]; exact hq2
include hq3 in
theorem share_three : dat.share 3 = fullShare.right := by
  unfold Dat.share; rw [show (cfg0.win 3).isOut = false from rfl]; exact hq3
include hq in
theorem share_others (w : Fin 11) (h2 : w ≠ 2) (h3 : w ≠ 3) : dat.share w = fullShare := by
  unfold Dat.share; split
  · rfl
  · exact hq w h2 h3

include hq2 hq3 hq in
/-- ENTRY: the core's unscoped buffers at contents V are the region's arrays at the same contents — the shared
    buffer's full share split between its two windows — and the unscoped rest. -/
theorem arrays_of_held (V : (b : Ref sig .tc) → Buf (Elt F) ((c : Thread nD τ).loc b))
    (Fw : (w : Fin cfg0.W) → Buf (Elt F) ((cfg0.win w).arr.view.loc (c : Thread nD τ)))
    (hF : ∀ w, Fw w = V (Pipeline.arrRef spec0 w)) :
    (unscopedBufs c V : sProp 𝕄) ⊢ iprop(dat.arrays Fw ∗ Pipeline.unscopedRest spec0 c V) := by
  rw [show (unscopedBufs c V : sProp 𝕄) = iprop(Pipeline.arrBufs spec0 c V ∗ Pipeline.unscopedRest spec0 c V)
    from Pipeline.unscopedBufs_split₀ cfgs 0 winFacts₀0.arr_unscoped c V]
  refine sep_mono ?_ .rfl
  have hothers : (bigSep others fun w : Fin 11 => (((c : Thread nD τ).loc (Pipeline.arrRef spec0 w)) ↦{dat.share w} Fw w) : sProp 𝕄)
      = bigSep others fun w => (((c : Thread nD τ).loc (Pipeline.arrRef spec0 w)) ↦{fullShare} V (Pipeline.arrRef spec0 w)) :=
    bigSep_congr fun w hw => by rw [share_others dat hq w (mem_others hw).1 (mem_others hw).2, hF w]
  rw [arrBufs_eq, arrays_eq_bufs, hothers, share_two dat hq2, share_three dat hq3, hF 2, hF 3, arrRef_three]
  iintro ⟨H2, Hr⟩
  ihave H2 := (pointsTo_share (PosShare.mem_left_op_right fullShare)).1 $$ H2
  icases H2 with ⟨H2, H3⟩
  isplitl [H2]; · iexact H2
  isplitl [H3]; · iexact H3
  iexact Hr

include hq2 hq3 hq in
/-- EXIT: the region's arrays at contents Fw — the two halves of the shared buffer joined — and the unscoped rest at V
    are the core's unscoped buffers at any V' that has the arrays at Fw and agrees with V off them. -/
theorem held_of_arrays (V V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V b) :
    iprop(dat.arrays Fw ∗ Pipeline.unscopedRest spec0 c V) ⊢ (unscopedBufs c V' : sProp 𝕄) := by
  rw [show (unscopedBufs c V' : sProp 𝕄) = iprop(Pipeline.arrBufs spec0 c V' ∗ Pipeline.unscopedRest spec0 c V')
    from Pipeline.unscopedBufs_split₀ cfgs 0 winFacts₀0.arr_unscoped c V']
  refine sep_mono ?_ (Entails.of_eq ?_)
  · have hothers : (bigSep others fun w : Fin 11 => (((c : Thread nD τ).loc (Pipeline.arrRef spec0 w)) ↦{dat.share w} Fw w) : sProp 𝕄)
        = bigSep others fun w => (((c : Thread nD τ).loc (Pipeline.arrRef spec0 w)) ↦{fullShare} V' (Pipeline.arrRef spec0 w)) :=
      bigSep_congr fun w hw => by rw [share_others dat hq w (mem_others hw).1 (mem_others hw).2, hF w]
    rw [arrBufs_eq, arrays_eq_bufs, hothers, share_two dat hq2, share_three dat hq3, hF 2, hF 3, arrRef_three]
    iintro ⟨H2, H3, Hr⟩
    ihave H2 := (pointsTo_share (PosShare.mem_left_op_right fullShare)).2 $$ [H2 H3]
    · isplitl [H2] <;> iassumption
    isplitl [H2]; · iexact H2
    iexact Hr
  · unfold Pipeline.unscopedRest
    exact bigSep_congr fun b hb => by rw [hrest b (Finset.mem_sdiff.mp hb).2]

end Share

end Cert.KernelIdeal.Hand

end
-- ==== Proof.KI.Exit.lean ====
/-
  The contents of the TensorCore's buffers when the kernel region is left, and after the one host operation that
  follows it. The region reads ten arrays and writes one, the padded output: at its exit every buffer holds what it
  held at entry except the padded output, which holds what the pipeline's write-backs have made of it. The host
  operation after the region slices the first 10000 rows of the padded output into the result.
-/
import proofs.«424744_j9517647528114_2_alg».proof.Proof.Gen.KernelIdeal.Launch
import proofs.«424744_j9517647528114_2_alg».proof.Proof.KI.Vals
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)
  (dat : (c : Dev nD) → Dat τ (Elt F) Unit ℕ (UR sig nD τ) ℕ cfg0 c)

/-- Core `c`'s buffers at the region's exit: the padded output at what the pipeline leaves in it (every written-back
    block folded into the array), every other buffer as the region was entered. -/
def W6 (c : Dev nD) : Valuation τ sig (Elt F) :=
  Function.update (W5 m c) (Proc.devRef .tc main_v55) ((dat c).arrAt 10 cfg0.N)
/-- The same read at a TensorCore reference. -/
abbrev V6 (c : Dev nD) (b : Ref sig .tc) : Buf (Elt F) ((c : Thread nD τ).loc b) := W6 m dat c (Proc.devRef .tc b)
/-- After the slice of the padded output into the result: the contents @main returns with. -/
abbrev W7 (c : Dev nD) : Valuation τ sig (Elt F) := StableHlo.after hostOps1 (W6 m dat c)

/-- At the region's exit the padded output holds what the pipeline leaves, -/
theorem W6_v55 (c : Dev nD) : W6 m dat c (Proc.devRef .tc main_v55) = (dat c).arrAt 10 cfg0.N := by
  unfold W6; exact Function.update_self _ _ _
/-- and every other buffer what it held at entry. -/
theorem W6_of_ne (c : Dev nD) (b : Ref sig .tc) (hb : b ≠ main_v55) :
    W6 m dat c (Proc.devRef .tc b) = W5 m c (Proc.devRef .tc b) := by
  unfold W6; exact Function.update_of_ne (StableHlo.devRef_ne_of_ne hb) _ _

end Cert.KernelIdeal.Hand

end
-- ==== Proof.KI.Args.lean ====
/-
  What the run of @main leaves in the argument arrays and in the result. No host operation writes an argument array
  and the kernel region writes the padded output only, so every argument reaches the end as launched; the result is
  the first 10000 rows of the padded output as the region leaves it.
-/
import proofs.«424744_j9517647528114_2_alg».proof.Proof.KI.Exit
import Idealize.ShloMosaic.Lib.Pipeline.Frame
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the host stretches write -/

/-- No operation of `hostOps0` allocates a buffer. -/
theorem hostOps0_fresh : (hostOps0 : List (HloOp τ sig (Elt F))).Forall fun op => op.fresh = ∅ := by
  simp only [List.Forall]; repeat' constructor
/-- The references written by the first stretch (the edge end points, the type test, the constant vectors). -/
abbrev hostOps0_W : List (Ref sig .tc) := [main_v0, main_v1, main_v2, main_v3, main_c, main_v4, main_v5, main_cst, main_v6, main_cst_0, main_v7, main_cst_1, main_v8]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_1` allocates a buffer. -/
theorem hostOps0_1_fresh : (hostOps0_1 : List (HloOp τ sig (Elt F))).Forall fun op => op.fresh = ∅ := by
  simp only [List.Forall]; repeat' constructor
/-- The references written by the selection of the first type's unit weights. -/
abbrev hostOps0_1_W : List (Ref sig .tc) := [main_v9]
theorem hostOps0_1_writes : (hostOps0_1 : List (HloOp τ sig (Elt F))).Forall fun op => op.writes ⊆ (hostOps0_1_W.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_2` allocates a buffer. -/
theorem hostOps0_2_fresh : (hostOps0_2 : List (HloOp τ sig (Elt F))).Forall fun op => op.fresh = ∅ := by
  simp only [List.Forall]; repeat' constructor
/-- The references written by the first adjacency array's accumulation. -/
abbrev hostOps0_2_W : List (Ref sig .tc) := [main_c_2, main_v10, main_v11, main_c_3, main_v12, main_v13, main_v14, main_c_4, main_v15, main_v16, main_c_5, main_v17, main_v18, main_v19, main_v20, main_v21, main_v22, main_v23, main_cst_6, main_v24]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_3` allocates a buffer. -/
theorem hostOps0_3_fresh : (hostOps0_3 : List (HloOp τ sig (Elt F))).Forall fun op => op.fresh = ∅ := by
  simp only [List.Forall]; repeat' constructor
/-- The references written by the selection of the second type's unit weights. -/
abbrev hostOps0_3_W : List (Ref sig .tc) := [main_v25]
theorem hostOps0_3_writes : (hostOps0_3 : List (HloOp τ sig (Elt F))).Forall fun op => op.writes ⊆ (hostOps0_3_W.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps0_4` allocates a buffer. -/
theorem hostOps0_4_fresh : (hostOps0_4 : List (HloOp τ sig (Elt F))).Forall fun op => op.fresh = ∅ := by
  simp only [List.Forall]; repeat' constructor
/-- The references written by the second adjacency array, the padded features, the transposed weights and the bias rows. -/
abbrev hostOps0_4_W : List (Ref sig .tc) := [main_c_7, main_v26, main_v27, main_c_8, main_v28, main_v29, main_v30, main_c_9, main_v31, main_v32, main_c_10, main_v33, main_v34, main_v35, main_v36, main_v37, main_v38, main_v39, main_v40, main_v41, main_cst_11, main_v42, main_c_12, main_v43, main_v44, main_v45, main_v46, main_v47, main_v48, main_v49, main_v50, main_v51, main_v52, main_v53, main_v54]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The references written by the slice of the padded output into the result. -/
abbrev hostOps1_W : List (Ref sig .tc) := [main_v56]
theorem hostOps1_writes : (hostOps1 : List (HloOp τ sig (Elt F))).Forall fun op => op.writes ⊆ (hostOps1_W.map (Proc.devRef (τ := τ) .tc)).toFinset := by
  simp only [List.Forall]
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each stretch leaves unchanged -/

variable (m : (ℓ : Loc nD τ sig) → Buf (Elt F) ℓ)
  (dat : (c : Dev nD) → Dat τ (Elt F) Unit ℕ (UR sig nD τ) ℕ cfg0 c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W5_of (c : Dev nD) (r : Ref sig .tc) (h : r ∉ hostOps0_4_W) : W5 m c (Proc.devRef .tc r) = W4 m c (Proc.devRef .tc r) :=
  StableHlo.after_of_writes_sub hostOps0_4 _ hostOps0_4_writes h
theorem W7_of (c : Dev nD) (r : Ref sig .tc) (h : r ∉ hostOps1_W) : W7 m dat c (Proc.devRef .tc r) = W6 m dat c (Proc.devRef .tc r) :=
  StableHlo.after_of_writes_sub hostOps1 _ hostOps1_writes h

/-! ## No stretch writes an argument, nor does the region -/

/-- `main_arg0` reaches the end as launched. -/
theorem W7_main_arg0 (c : Dev nD) : W7 m dat c (Proc.devRef .tc main_arg0) = m ((c : Thread nD τ).loc main_arg0) :=
  (W7_of m dat c main_arg0 (by decide)).trans <| (W6_of_ne m dat c main_arg0 (by decide)).trans <| (W5_of m c main_arg0 (by decide)).trans <|
    (W4_of m c main_arg0 (by decide)).trans <| (W3_of m c main_arg0 (by decide)).trans <| (W2_of m c main_arg0 (by decide)).trans <|
    (W1_of m c main_arg0 (by decide)).trans rfl
/-- `main_arg1` reaches the end as launched. -/
theorem W7_main_arg1 (c : Dev nD) : W7 m dat c (Proc.devRef .tc main_arg1) = m ((c : Thread nD τ).loc main_arg1) :=
  (W7_of m dat c main_arg1 (by decide)).trans <| (W6_of_ne m dat c main_arg1 (by decide)).trans <| (W5_of m c main_arg1 (by decide)).trans <|
    (W4_of m c main_arg1 (by decide)).trans <| (W3_of m c main_arg1 (by decide)).trans <| (W2_of m c main_arg1 (by decide)).trans <|
    (W1_of m c main_arg1 (by decide)).trans rfl
/-- `main_arg2` reaches the end as launched. -/
theorem W7_main_arg2 (c : Dev nD) : W7 m dat c (Proc.devRef .tc main_arg2) = m ((c : Thread nD τ).loc main_arg2) :=
  (W7_of m dat c main_arg2 (by decide)).trans <| (W6_of_ne m dat c main_arg2 (by decide)).trans <| (W5_of m c main_arg2 (by decide)).trans <|
    (W4_of m c main_arg2 (by decide)).trans <| (W3_of m c main_arg2 (by decide)).trans <| (W2_of m c main_arg2 (by decide)).trans <|
    (W1_of m c main_arg2 (by decide)).trans rfl
/-- `main_arg3` reaches the end as launched. -/
theorem W7_main_arg3 (c : Dev nD) : W7 m dat c (Proc.devRef .tc main_arg3) = m ((c : Thread nD τ).loc main_arg3) :=
  (W7_of m dat c main_arg3 (by decide)).trans <| (W6_of_ne m dat c main_arg3 (by decide)).trans <| (W5_of m c main_arg3 (by decide)).trans <|
    (W4_of m c main_arg3 (by decide)).trans <| (W3_of m c main_arg3 (by decide)).trans <| (W2_of m c main_arg3 (by decide)).trans <|
    (W1_of m c main_arg3 (by decide)).trans rfl
/-- `main_arg4` reaches the end as launched. -/
theorem W7_main_arg4 (c : Dev nD) : W7 m dat c (Proc.devRef .tc main_arg4) = m ((c : Thread nD τ).loc main_arg4) :=
  (W7_of m dat c main_arg4 (by decide)).trans <| (W6_of_ne m dat c main_arg4 (by decide)).trans <| (W5_of m c main_arg4 (by decide)).trans <|
    (W4_of m c main_arg4 (by decide)).trans <| (W3_of m c main_arg4 (by decide)).trans <| (W2_of m c main_arg4 (by decide)).trans <|
    (W1_of m c main_arg4 (by decide)).trans rfl
/-- `main_arg5` reaches the end as launched. -/
theorem W7_main_arg5 (c : Dev nD) : W7 m dat c (Proc.devRef .tc main_arg5) = m ((c : Thread nD τ).loc main_arg5) :=
  (W7_of m dat c main_arg5 (by decide)).trans <| (W6_of_ne m dat c main_arg5 (by decide)).trans <| (W5_of m c main_arg5 (by decide)).trans <|
    (W4_of m c main_arg5 (by decide)).trans <| (W3_of m c main_arg5 (by decide)).trans <| (W2_of m c main_arg5 (by decide)).trans <|
    (W1_of m c main_arg5 (by decide)).trans rfl
/-- `main_arg6` reaches the end as launched. -/
theorem W7_main_arg6 (c : Dev nD) : W7 m dat c (Proc.devRef .tc main_arg6) = m ((c : Thread nD τ).loc main_arg6) :=
  (W7_of m dat c main_arg6 (by decide)).trans <| (W6_of_ne m dat c main_arg6 (by decide)).trans <| (W5_of m c main_arg6 (by decide)).trans <|
    (W4_of m c main_arg6 (by decide)).trans <| (W3_of m c main_arg6 (by decide)).trans <| (W2_of m c main_arg6 (by decide)).trans <|
    (W1_of m c main_arg6 (by decide)).trans rfl
/-- `main_arg7` reaches the end as launched. -/
theorem W7_main_arg7 (c : Dev nD) : W7 m dat c (Proc.devRef .tc main_arg7) = m ((c : Thread nD τ).loc main_arg7) :=
  (W7_of m dat c main_arg7 (by decide)).trans <| (W6_of_ne m dat c main_arg7 (by decide)).trans <| (W5_of m c main_arg7 (by decide)).trans <|
    (W4_of m c main_arg7 (by decide)).trans <| (W3_of m c main_arg7 (by decide)).trans <| (W2_of m c main_arg7 (by decide)).trans <|
    (W1_of m c main_arg7 (by decide)).trans rfl
/-- `main_arg8` reaches the end as launched. -/
theorem W7_main_arg8 (c : Dev nD) : W7 m dat c (Proc.devRef .tc main_arg8) = m ((c : Thread nD τ).loc main_arg8) :=
  (W7_of m dat c main_arg8 (by decide)).trans <| (W6_of_ne m dat c main_arg8 (by decide)).trans <| (W5_of m c main_arg8 (by decide)).trans <|
    (W4_of m c main_arg8 (by decide)).trans <| (W3_of m c main_arg8 (by decide)).trans <| (W2_of m c main_arg8 (by decide)).trans <|
    (W1_of m c main_arg8 (by decide)).trans rfl

/-! ## The result -/

/-- The result is the first 10000 rows of the padded output as the region leaves it. -/
theorem W7_main_v56 (c : Dev nD) : W7 m dat c (Proc.devRef .tc main_v56)
    = ((extractStridedSlice S10000x128 ![0, 0] · slices_S10240x128_S10000x128_0_0) : (⟨S10240x128, .f32⟩ : BufTy).Contents (Elt F) → (⟨S10000x128, .f32⟩ : BufTy).Contents (Elt F))
        ((dat c).arrAt 10 cfg0.N) := by
  show StableHlo.after hostOps1 (W6 m dat c) (Proc.devRef .tc main_v56) = _
  unfold hostOps1
  after_results
  rw [W6_v55]

end Cert.KernelIdeal.Hand

end
-- ==== Proof.KI.Run.lean ====
/-
  THE RUN of the whole program on a TensorCore, from the launch to the return, as seven segments: five stretches of
  host operations (the edge end points and type tests; the two selections of unit weights; the two adjacency arrays by
  scatter-add; the padded features, transposed weights and bias rows), the one pipelined kernel region, and the slice
  of the padded output into the result. Between two segments the core holds every unscoped buffer whole at a known
  valuation: the launch memory, then each host stretch's operations applied, then — across the region — the padded
  output replaced by what the pipeline's write-backs leave in it. The region is stated over ANY proof data of the
  pipeline that reads its arrays off the entry valuation, holds the twice-windowed feature array at half shares and
  every other array whole, owes nothing, and satisfies the body obligation with an invariant that takes in and gives
  back what the launch hands a region. The conclusion: every weakly fair execution terminates, nothing faulting, and
  every unscoped buffer ends at the last valuation; in particular the nine argument arrays end as launched.
-/
import proofs.«424744_j9517647528114_2_alg».proof.Proof.Gen.KernelIdeal.Launch
import proofs.«424744_j9517647528114_2_alg».proof.Proof.Gen.KernelIdeal.Skeleton
import proofs.«424744_j9517647528114_2_alg».proof.Proof.Gen.KernelIdeal.Points
import proofs.«424744_j9517647528114_2_alg».proof.Proof.KI.Vals
import proofs.«424744_j9517647528114_2_alg».proof.Proof.KI.Share
import proofs.«424744_j9517647528114_2_alg».proof.Proof.KI.Exit
import proofs.«424744_j9517647528114_2_alg».proof.Proof.KI.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)
  (dat : (c : Dev nD) → Dat τ (Elt F) Unit ℕ (UR sig nD τ) ℕ cfg0 c)
  (hA : ∀ c w, (dat c).A w = V5 m c (Pipeline.arrRef spec0 w))
  (hq2 : ∀ c, (dat c).q 2 = fullShare.left) (hq3 : ∀ c, (dat c).q 3 = fullShare.right)
  (hq : ∀ c w, w ≠ 2 → w ≠ 3 → (dat c).q w = fullShare)
  (howed : ∀ c t, (dat c).owed t = 0)
  (hrec : ∀ c, (dat c).recorded 0 = Set.univ)
  (hbody : ∀ c, BodyObligation (dat c) (defs₀ (F := F)) Variants.none () Set.univ)
  (hin : ∀ c, Pipeline.ΦA spec0 c ⊢ (dat c).Φ 0)
  (hout : ∀ c, (dat c).Φ (Fin.last cfg0.N) ⊢ Pipeline.ΦA spec0 c)

/-! ## The region's exit contents, array by array -/

include hA in
/-- An input window's array is never written: at the exit it holds what it held at entry. -/
theorem hF6_in (c : Dev nD) (w : Fin cfg0.W) (hw : (cfg0.win w).isOut = false) (hne : Pipeline.arrRef spec0 w ≠ main_v55) :
    (dat c).arrAt w cfg0.N = V6 m dat c (Pipeline.arrRef spec0 w) :=
  (((dat c).arrAt_in w hw _).trans (hA c w)).trans (W6_of_ne m dat c _ hne).symm

set_option maxHeartbeats 4000000 in
include hA in
/-- At the region's exit each of its arrays holds what the pipeline leaves: the inputs what they held, the padded
    output its write-backs folded. -/
theorem hF6 (c : Dev nD) : ∀ w : Fin cfg0.W, (dat c).arrAt w cfg0.N = V6 m dat c (Pipeline.arrRef spec0 w)
  | ⟨0, _⟩ => hF6_in m dat hA c 0 rfl (by decide)
  | ⟨1, _⟩ => hF6_in m dat hA c 1 rfl (by decide)
  | ⟨2, _⟩ => hF6_in m dat hA c 2 rfl (by decide)
  | ⟨3, _⟩ => hF6_in m dat hA c 3 rfl (by decide)
  | ⟨4, _⟩ => hF6_in m dat hA c 4 rfl (by decide)
  | ⟨5, _⟩ => hF6_in m dat hA c 5 rfl (by decide)
  | ⟨6, _⟩ => hF6_in m dat hA c 6 rfl (by decide)
  | ⟨7, _⟩ => hF6_in m dat hA c 7 rfl (by decide)
  | ⟨8, _⟩ => hF6_in m dat hA c 8 rfl (by decide)
  | ⟨9, _⟩ => hF6_in m dat hA c 9 rfl (by decide)
  | ⟨10, _⟩ => (W6_v55 m dat c).symm

/-- Every buffer that is no array of the region holds at the exit what it held at entry. -/
theorem hrest6 (c : Dev nD) : ∀ b, b ∉ Finset.univ.image (Pipeline.arrRef spec0) → V6 m dat c b = V5 m c b :=
  fun b hb => W6_of_ne m dat c b fun e => hb (e ▸ Finset.mem_image.mpr ⟨10, Finset.mem_univ _, rfl⟩)

/-! ## The proof data family and the thread state -/

/-- The prefetched tables' admissible contents: the pipeline has no table. -/
abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment: its operations over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the last valuation, the generator
    register at some state. -/
abbrev Tₙ (c : Dev nD) : sProp 𝕄 := iprop(StableHlo.held (c : Thread nD τ) (Pipeline.ucRefs τ sig) (W7 m dat c) ∗ ∃ r, prngReg c r)

/-- The proof data owe nothing, -/
theorem owed_pdats (c : Dev nD) (t : Fin (cfg0.N + 1)) (h : ∀ c t, (dat c).owed t = 0) : (pdats dat 0 c).owed t = 0 := h c t
/-- and bound the recorded pairs by nothing at the first point. -/
theorem rec_pdats (c : Dev nD) (h : ∀ c, (dat c).recorded 0 = Set.univ) : (pdats dat 0 c).recorded 0 = Set.univ := h c

/-! ## The kernel region as a segment -/

set_option backward.isDefEq.respectTransparency.types false in
include hA hq2 hq3 hq howed hrec hbody hin hout in
/-- THE REGION over the thread state: entered from every unscoped buffer at the entry valuation, left at the exit
    valuation. At entry the region's arrays are split out of the unscoped buffers (the twice-windowed array's share in
    two halves); at exit they are put back at what the pipeline leaves. The generator register goes into the invariant
    and comes out; nothing is owed; the kernel has no semaphore of its own. -/
def reg0 : Pipeline.RegionSeg (pcfgs (F := F)) adm (pdats dat) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 fun c t => howed c t
  pre c := iprop(StableHlo.held (c : Thread nD τ) (Pipeline.ucRefs τ sig) (W5 m c) ∗ R c)
  post c := iprop(StableHlo.held (c : Thread nD τ) (Pipeline.ucRefs τ sig) (W6 m dat c) ∗ R c)
  X c := iprop(∃ r, prngReg c r)
  Y c := iprop(∃ r, prngReg c r)
  Z c := Pipeline.unscopedRest (Ix := Unit) (Name := ℕ) (U := UR sig nD τ) (Lvl := ℕ) spec0 c (V5 m c)
  hentry c := by
    rw [Pipeline.ownSems0_none]
    have hsplit := arrays_of_held (pdats dat 0 c) (hq2 c) (hq3 c) (hq c) (V5 m c) ((pdats dat 0 c).arrAt · 0) (fun w => hA c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [owed_pdats dat c _ howed]
      icases HO with ⟨%W, HO⟩; iexists W; isplitr
      · ipureintro; exact fun x _ => Or.inl ((rec_pdats dat c hrec).symm ▸ Set.mem_univ x)
      iexact HO
    isplitl [Hp]; · iexact Hp
    iexact Hrest
  hin c := by
    refine (?_ : _ ⊢ (Pipeline.ΦA spec0 c : sProp 𝕄)).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := held_of_arrays (pdats dat 0 c) (hq2 c) (hq3 c) (hq c) (V5 m c) (V6 m dat c) ((pdats dat 0 c).arrAt · cfg0.N)
      (hF6 m dat hA c) (hrest6 m dat c)
    rw [Pipeline.unscopedBufs_held] at hjoin
    unfold Pipeline.Dat.owesAt Pipeline.owesWithin
    rw [owed_pdats dat c _ howed]
    iintro ⟨Ha, HO, HY, Hrest⟩
    imodintro
    isplitl [Ha Hrest]
    · iapply hjoin
      isplitl [Ha]; · iexact Ha
      iexact Hrest
    isplitl [HY]; · iexact HY
    icases HO with ⟨%W, -, HO⟩; iexists W; iexact HO

/-! ## @main as segments, and the launch -/

include hA hq2 hq3 hq howed hrec hbody hin hout in
/-- @main's seven segments in order. -/
abbrev segs : List (Pipeline.Seg (pcfgs (F := F)) adm (pdats dat) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m dat hA hq2 hq3 hq howed hrec hbody hin hout),
    .host (hseg hostOps1 hostOps1_sub hostOps1_fresh (W6 m dat)) ]

include hA hq2 hq3 hq howed hrec hbody hin hout in
/-- @main IS the run of the segments. -/
theorem main_run (c : Dev nD) : main (F := F) c = Pipeline.Seg.run (segs m dat hA hq2 hq3 hq howed hrec hbody hin hout) := (main_chain c).trans (by chain_rfl)

set_option backward.isDefEq.respectTransparency.types false in
include hA hq2 hq3 hq howed hrec hbody hin hout in
/-- THE RUN: from any memory with zero counters, every weakly fair execution of @main on the TensorCore terminates,
    nothing faulting, and every final state has every unscoped buffer at the last valuation. -/
theorem run_main : θ_run defs (onTc (τ := τ) (main (F := F))) ⟨m, fun _ => 0, ρ⟩
    (fun r => ∀ c : Dev nD, ∀ b ∈ Pipeline.ucRefs τ sig, r.2.mem ((c : Thread nD τ).1, b) = W7 m dat c b) :=
  Pipeline.θ_run_regions_kit (pcfgs (F := F)) adm (pdats dat) () cellOf_inj emb₁ defs₀ 𝒱₀ L lv m ρ main (segs m dat hA hq2 hq3 hq howed hrec hbody hin hout)
    (fun c Q => by rw [main_run m dat hA hq2 hq3 hq howed hrec hbody hin hout c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m dat c) ∗ R c) : sProp 𝕄)
        ⊢ iprop(Tₙ m dat c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m dat c b)
    (hfin := fun c s' => by
      iintro ⟨⟨Hh, -⟩, HSI⟩
      unfold StableHlo.held
      imodintro
      iapply (pointsTo_read_all (Pipeline.ucRefs τ sig) (fun b => (((c : Thread nD τ)).1, b)) (W7 m dat c) s')
      isplitl [Hh] <;> iassumption)
    (hQ := fun s h => h)

include hA hq2 hq3 hq howed hrec hbody hin hout in
/-- THE FRAME: the program runs to the end, faults nowhere, and leaves each of its nine argument arrays as launched
    (no host stretch writes an argument, and the region's only written array is the padded output). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W7_main_arg0 m dat c),
     (h c _ (mem_uc main_arg1 (by decide))).trans (W7_main_arg1 m dat c),
     (h c _ (mem_uc main_arg2 (by decide))).trans (W7_main_arg2 m dat c),
     (h c _ (mem_uc main_arg3 (by decide))).trans (W7_main_arg3 m dat c),
     (h c _ (mem_uc main_arg4 (by decide))).trans (W7_main_arg4 m dat c),
     (h c _ (mem_uc main_arg5 (by decide))).trans (W7_main_arg5 m dat c),
     (h c _ (mem_uc main_arg6 (by decide))).trans (W7_main_arg6 m dat c),
     (h c _ (mem_uc main_arg7 (by decide))).trans (W7_main_arg7 m dat c),
     (h c _ (mem_uc main_arg8 (by decide))).trans (W7_main_arg8 m dat c)⟩)
    (run_main m ρ dat hA hq2 hq3 hq howed hrec hbody hin hout)

end Run

end Cert.KernelIdeal.Hand

end
-- ==== Proof.KI.Frame.lean ====
/-
  The run of the whole program at the kernel body's own proof data. The pipeline's data are read off the valuation at
  which the region is entered (the launch memory with the five host stretches applied): the input windows keep their
  blocks, the output window holds the finished row tiles, the accumulator rides in the invariant, the twice-windowed
  feature array is held at half shares. With the body obligation proved for these data, the run of the seven segments
  gives: the program terminates, faults nowhere, leaves every unscoped buffer at the last valuation — the result being
  the first 10000 rows of what the pipeline's write-backs leave in the padded output — and the nine arguments as launched.
-/
import proofs.«424744_j9517647528114_2_alg».proof.Proof.KI.Body
import proofs.«424744_j9517647528114_2_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

set_option maxHeartbeats 4000000 in
/-- THE RUN at the body's proof data: every weakly fair execution of @main terminates, nothing faulting, and every
    unscoped buffer ends at the last valuation. -/
theorem run_val : θ_run defs (onTc (τ := τ) (main (F := F))) ⟨m, fun _ => 0, ρ⟩
    (fun r => ∀ c : Dev nD, ∀ b ∈ Pipeline.ucRefs τ sig, r.2.mem ((c : Thread nD τ).1, b) = W7 m (fun c => dat0 (V5 m) c) c b) :=
  run_main m ρ (fun c => dat0 (V5 m) c) (A_eq0 (V5 m)) (q0_2 (V5 m)) (q0_3 (V5 m)) (q0_full (V5 m)) (fun _ _ => rfl) (fun _ => rfl) (body_obligation0 (V5 m)) (hin0 (V5 m)) (hout0 (V5 m))

set_option maxHeartbeats 4000000 in
/-- THE FRAME: the program runs to the end, faults nowhere, and leaves its nine argument arrays as launched. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame m ρ (fun c => dat0 (V5 m) c) (A_eq0 (V5 m)) (q0_2 (V5 m)) (q0_3 (V5 m)) (q0_full (V5 m)) (fun _ _ => rfl) (fun _ => rfl) (body_obligation0 (V5 m)) (hin0 (V5 m)) (hout0 (V5 m))

/-- Argument 0 ends as launched. -/
theorem W7v_main_arg0 (c : Dev nD) : W7 m (fun c => dat0 (V5 m) c) c (Proc.devRef .tc main_arg0) = m ((c : Thread nD τ).loc main_arg0) :=
  W7_main_arg0 m _ c
/-- Argument 1 ends as launched. -/
theorem W7v_main_arg1 (c : Dev nD) : W7 m (fun c => dat0 (V5 m) c) c (Proc.devRef .tc main_arg1) = m ((c : Thread nD τ).loc main_arg1) :=
  W7_main_arg1 m _ c
/-- Argument 2 ends as launched. -/
theorem W7v_main_arg2 (c : Dev nD) : W7 m (fun c => dat0 (V5 m) c) c (Proc.devRef .tc main_arg2) = m ((c : Thread nD τ).loc main_arg2) :=
  W7_main_arg2 m _ c
/-- Argument 3 ends as launched. -/
theorem W7v_main_arg3 (c : Dev nD) : W7 m (fun c => dat0 (V5 m) c) c (Proc.devRef .tc main_arg3) = m ((c : Thread nD τ).loc main_arg3) :=
  W7_main_arg3 m _ c
/-- Argument 4 ends as launched. -/
theorem W7v_main_arg4 (c : Dev nD) : W7 m (fun c => dat0 (V5 m) c) c (Proc.devRef .tc main_arg4) = m ((c : Thread nD τ).loc main_arg4) :=
  W7_main_arg4 m _ c
/-- Argument 5 ends as launched. -/
theorem W7v_main_arg5 (c : Dev nD) : W7 m (fun c => dat0 (V5 m) c) c (Proc.devRef .tc main_arg5) = m ((c : Thread nD τ).loc main_arg5) :=
  W7_main_arg5 m _ c
/-- Argument 6 ends as launched. -/
theorem W7v_main_arg6 (c : Dev nD) : W7 m (fun c => dat0 (V5 m) c) c (Proc.devRef .tc main_arg6) = m ((c : Thread nD τ).loc main_arg6) :=
  W7_main_arg6 m _ c
/-- Argument 7 ends as launched. -/
theorem W7v_main_arg7 (c : Dev nD) : W7 m (fun c => dat0 (V5 m) c) c (Proc.devRef .tc main_arg7) = m ((c : Thread nD τ).loc main_arg7) :=
  W7_main_arg7 m _ c
/-- Argument 8 ends as launched. -/
theorem W7v_main_arg8 (c : Dev nD) : W7 m (fun c => dat0 (V5 m) c) c (Proc.devRef .tc main_arg8) = m ((c : Thread nD τ).loc main_arg8) :=
  W7_main_arg8 m _ c

/-- The result: the first 10000 rows of what the pipeline's write-backs leave in the padded output. -/
theorem W7v_main_v56 (c : Dev nD) : W7 m (fun c => dat0 (V5 m) c) c (Proc.devRef .tc main_v56)
    = extractStridedSlice S10000x128 ![0, 0] ((dat0 (V5 m) c).arrAt 10 cfg0.N) slices_S10240x128_S10000x128_0_0 :=
  W7_main_v56 m _ c

end Cert.KernelIdeal.Hand

end
-- ==== Proof.Spec.lean ====
/-
  The mathematics both programs compute, stated once over the argument arrays as extended-real functions of indices.

  A graph layer with two edge types: edge `e` goes from node `src e` to node `dst e` and carries the affine image of
  the source node's feature row under the weights of its type; every node sums the messages arriving at it, adds
  its own affine image under the self weights and takes the positive part.

  `G` is that layer as written edge by edge. `KG` is the same result arranged as products with two adjacency
  arrays of a padded node count, `adj` (how many edges of one type join a pair of nodes) and accumulated over five
  column tiles; `K` is `KG` at the operands the padded program builds from the arguments.
-/
import Idealize.ShloMosaic.PureOps.Ideal
import Idealize.ShloMosaic.Lib.ValueIdx

noncomputable section

namespace Cert.Spec

open Idealize.ShloMosaic Idealize.ShloMosaic.ValueIdx

/-- Node features [10000 × 128], the two rows of edge end points [2 × 640000], edge types [640000],
    weights [128 × 128] and biases [128]. -/
abbrev SX : Shape := ⟨2, ![10000, 128]⟩
abbrev SE : Shape := ⟨2, ![2, 640000]⟩
abbrev ST : Shape := ⟨1, ![640000]⟩
abbrev SW : Shape := ⟨2, ![128, 128]⟩
abbrev SB : Shape := ⟨1, ![128]⟩

section Layer

/-- Row `n` of the features through one affine map, at output column `j`: `x_n · W_j + b_j`. -/
def lin (X : FVec Ideal SX .f32) (W : FVec Ideal SW .f32) (b : FVec Ideal SB .f32) (n : Fin 10000) (j : Fin 128) : EReal :=
  (∑ d : Fin 128, X (ix2 n d) * W (ix2 j d)) + b (ix1 j)

/-- The node a word names: read signed and clamped into the node range (an in-range word names itself). -/
def node (w : BitVec 32) : Fin 10000 := ⟨min w.toInt.toNat 9999, by omega⟩

/-- The source word and the destination word of edge `e`. -/
def srcW (E : IVec SE 32) (e : Fin 640000) : BitVec 32 := E (ix2 (0 : Fin 2) e)
def dstW (E : IVec SE 32) (e : Fin 640000) : BitVec 32 := E (ix2 (1 : Fin 2) e)

/-- Whether edge `e` is of the first type (its type word is zero). -/
def isData (T : IVec ST 32) (e : Fin 640000) : Prop := T (ix1 e) = 0#32
instance (T : IVec ST 32) (e : Fin 640000) : Decidable (isData T e) := by unfold isData; infer_instance

/-- The message of edge `e`, column `j`: its source row through the map of its type. -/
def msg (X : FVec Ideal SX .f32) (E : IVec SE 32) (T : IVec ST 32) (Wd : FVec Ideal SW .f32) (bd : FVec Ideal SB .f32)
    (Wc : FVec Ideal SW .f32) (bc : FVec Ideal SB .f32) (e : Fin 640000) (j : Fin 128) : EReal :=
  if isData T e then lin X Wd bd (node (srcW E e)) j else lin X Wc bc (node (srcW E e)) j

/-- THE LAYER, edge by edge: node `i`, column `j`. -/
def G (X : FVec Ideal SX .f32) (E : IVec SE 32) (T : IVec ST 32) (Wd : FVec Ideal SW .f32) (bd : FVec Ideal SB .f32)
    (Wc : FVec Ideal SW .f32) (bc : FVec Ideal SB .f32) (Ws : FVec Ideal SW .f32) (bs : FVec Ideal SB .f32)
    (i : Fin 10000) (j : Fin 128) : EReal :=
  max ((∑ e ∈ Finset.univ.filter (fun e : Fin 640000 => (dstW E e).toInt = (i.val : Int)), msg X E T Wd bd Wc bc e j)
    + lin X Ws bs i j) 0

end Layer

/-! ## The padded arrangement -/

/-- Column `κ` of column tile `kt` of a 10240-wide array (five tiles of 2048). -/
def tile (kt : Fin 5) (κ : Fin 2048) : Fin 10240 := ⟨2048 * kt.val + κ.val, by omega⟩

section Padded

/-- Padded row `s` through an affine map given by its transposed weights. -/
def yq (Xq : Fin 10240 → Fin 128 → EReal) (WT : Fin 128 → Fin 128 → EReal) (b1 : Fin 128 → EReal)
    (s : Fin 10240) (j : Fin 128) : EReal :=
  (∑ d : Fin 128, Xq s d * WT d j) + b1 j

/-- What column tile `kt` adds to row `r`, column `j`. -/
def contrib (Ad Ac : Fin 10240 → Fin 10240 → EReal) (Xq : Fin 10240 → Fin 128 → EReal)
    (WdT : Fin 128 → Fin 128 → EReal) (bd1 : Fin 128 → EReal) (WcT : Fin 128 → Fin 128 → EReal) (bc1 : Fin 128 → EReal)
    (kt : Fin 5) (r : Fin 10240) (j : Fin 128) : EReal :=
  (∑ κ : Fin 2048, Ad r (tile kt κ) * yq Xq WdT bd1 (tile kt κ) j)
    + (∑ κ : Fin 2048, Ac r (tile kt κ) * yq Xq WcT bc1 (tile kt κ) j)

/-- The running sum after column tile `n`, started from zero at tile 0. -/
def acc (Ad Ac : Fin 10240 → Fin 10240 → EReal) (Xq : Fin 10240 → Fin 128 → EReal)
    (WdT : Fin 128 → Fin 128 → EReal) (bd1 : Fin 128 → EReal) (WcT : Fin 128 → Fin 128 → EReal) (bc1 : Fin 128 → EReal) :
    (n : ℕ) → n < 5 → Fin 10240 → Fin 128 → EReal
  | 0, h => fun r j => 0 + contrib Ad Ac Xq WdT bd1 WcT bc1 ⟨0, h⟩ r j
  | n + 1, h => fun r j => acc Ad Ac Xq WdT bd1 WcT bc1 n (Nat.lt_of_succ_lt h) r j + contrib Ad Ac Xq WdT bd1 WcT bc1 ⟨n + 1, h⟩ r j

/-- THE PADDED RESULT at row `r`, column `j`: the five tiles' sum plus the row's own image, positive part. -/
def KG (Ad Ac : Fin 10240 → Fin 10240 → EReal) (Xq : Fin 10240 → Fin 128 → EReal)
    (WdT : Fin 128 → Fin 128 → EReal) (bd1 : Fin 128 → EReal) (WcT : Fin 128 → Fin 128 → EReal) (bc1 : Fin 128 → EReal)
    (WsT : Fin 128 → Fin 128 → EReal) (bs1 : Fin 128 → EReal) (r : Fin 10240) (j : Fin 128) : EReal :=
  max (acc Ad Ac Xq WdT bd1 WcT bc1 4 (by decide) r j + yq Xq WsT bs1 r j) 0

end Padded

section Operands

/-- The features padded with zero rows up to 10240. -/
def Xp (X : FVec Ideal SX .f32) (r : Fin 10240) (d : Fin 128) : EReal := if h : r.val < 10000 then X (ix2 ⟨r.val, h⟩ d) else 0

/-- An index word as the padded program normalises it: a negative word has the padded extent added. -/
def norm (w : BitVec 32) : BitVec 32 := if w.toInt < 0 then w + 10240#32 else w

/-- How many edges of one type (`sel`: the first type or not) go from padded node `s` to padded node `r`. -/
def adj (E : IVec SE 32) (T : IVec ST 32) (sel : Bool) (r s : Fin 10240) : EReal :=
  ∑ e ∈ Finset.univ.filter (fun e : Fin 640000 =>
      (norm (dstW E e)).toInt = (r.val : Int) ∧ (norm (srcW E e)).toInt = (s.val : Int)),
    (if decide (isData T e) = sel then (1 : EReal) else 0)

/-- THE PADDED RESULT at the operands built from the arguments. -/
def K (X : FVec Ideal SX .f32) (E : IVec SE 32) (T : IVec ST 32) (Wd : FVec Ideal SW .f32) (bd : FVec Ideal SB .f32)
    (Wc : FVec Ideal SW .f32) (bc : FVec Ideal SB .f32) (Ws : FVec Ideal SW .f32) (bs : FVec Ideal SB .f32)
    (r : Fin 10240) (j : Fin 128) : EReal :=
  KG (adj E T true) (adj E T false) (Xp X) (fun d j => Wd (ix2 j d)) (fun j => bd (ix1 j))
    (fun d j => Wc (ix2 j d)) (fun j => bc (ix1 j)) (fun d j => Ws (ix2 j d)) (fun j => bs (ix1 j)) r j

end Operands

end Cert.Spec

end
-- ==== Proof.Pre.lean ====
/-
  The precondition read back as plain facts about the arguments.

  The printed predicate is a conjunction of nine tests, each folded by "and" over every element: each of the seven
  float arrays has |x| < +∞ at every entry (so every entry is a real number), every end-point word of the edge list
  is non-negative read signed, and every source word (row 0 of the edge list) is below the node count 10000.
-/
import proofs.«424744_j9517647528114_2_alg».proof.Pre_finite_inputs
import proofs.«424744_j9517647528114_2_alg».proof.Proof.Spec
import Idealize.ShloMosaic.Lib.ReduceAll
import Idealize.ShloMosaic.Lib.ValueIdx
import Idealize.ShloMosaic.Lib.Pipeline.Value
import Idealize.ShloMosaic.PureOps.Ideal

noncomputable section

namespace Cert.PreFacts

open Idealize.ShloMosaic Idealize.ShloMosaic.ValueIdx
open Cert.Pre_finite_inputs (S_ S1x640000)
open Cert.Spec (SX SE ST SW SB)

/-- The rank-0 shape has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (-x) is strictly below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

theorem ofBool_eq_one {b : Bool} : BitVec.ofBool b = 1#1 ↔ b = true := by cases b <;> decide

/-- One float test read back: if "|X| < +∞ everywhere", folded by "and", came out 1, every entry of X is a real. -/
theorem all_real {s : Shape} {axes : List (Fin s.rank)} (X : FVec Ideal s .f32)
    (hb : S_.BroadcastsInDim s (![] : Fin 0 → Fin s.rank)) (hr : s.ReducesTo axes S_) (hu : 0 < S_.numel)
    (e : Host.reduce IntOp.andi (cmpf .olt (Host.absf X) (broadcastInDim s ![] hb (constant (F := Ideal) S_ .f32 0x7F800000#32)))
          (constantI S_ 1 1#1) hr hu ix0 = 1#1) (i : s.Idx) : ∃ r : ℝ, X i = (r : EReal) := by
  have h := Host.reduce_andi_all _ _ hr hu ix0 e i
  apply real_of_abs_lt_top
  change BitVec.ofBool (decide (max (X i) (-(X i)) < Ideal.ofBits .f32 0x7F800000#32)) = 1#1 at h
  rw [inf_bits, ofBool_eq_one, decide_eq_true_eq] at h
  exact h

/-- The precondition as plain facts: every float entry is a real number; every end-point word of the edge list is
    non-negative read signed; every source word is below the node count. -/
structure Decoded (X : FVec Ideal SX .f32) (E : IVec SE 32) (T : IVec ST 32) (Wd : FVec Ideal SW .f32) (bd : FVec Ideal SB .f32)
    (Wc : FVec Ideal SW .f32) (bc : FVec Ideal SB .f32) (Ws : FVec Ideal SW .f32) (bs : FVec Ideal SB .f32) : Prop where
  realX : ∀ i, ∃ x : ℝ, X i = (x : EReal)
  realWd : ∀ i, ∃ x : ℝ, Wd i = (x : EReal)
  realbd : ∀ i, ∃ x : ℝ, bd i = (x : EReal)
  realWc : ∀ i, ∃ x : ℝ, Wc i = (x : EReal)
  realbc : ∀ i, ∃ x : ℝ, bc i = (x : EReal)
  realWs : ∀ i, ∃ x : ℝ, Ws i = (x : EReal)
  realbs : ∀ i, ∃ x : ℝ, bs i = (x : EReal)
  src : ∀ e : Fin 640000, 0 ≤ (E (ix2 (0 : Fin 2) e)).toInt ∧ (E (ix2 (0 : Fin 2) e)).toInt < 10000
  dst : ∀ e : Fin 640000, 0 ≤ (E (ix2 (1 : Fin 2) e)).toInt

variable [Cert.Pre_finite_inputs.Facts]

/-- Row 0 of the edge list, sliced out as a [1 × 640000] block and flattened, reads at e the word at (0, e). -/
theorem slice_row0 (E : IVec SE 32) (hs : SE.Slices ![0, 0] S1x640000) (hc : S1x640000.ShapeCasts ST) (e : Fin 640000) :
    shapeCast ST (extractStridedSlice S1x640000 ![0, 0] E hs) hc (ix1 e) = E (ix2 (0 : Fin 2) e) := by
  refine (shapeCast_apply _ hc (ix1 e) (ix2 (0 : Fin 1) e) ?_).trans ?_
  · rw [Shape.rowMajor_val_two, Shape.rowMajor_val_one]
    show (0 : Fin 1).val * _ + e.val = e.val
    simp
  · refine extractStridedSlice_apply _ E hs (ix2 (0 : Fin 1) e) (ix2 (0 : Fin 2) e) fun a => ?_
    match a with
    | ⟨0, _⟩ => rfl
    | ⟨1, _⟩ => show e.val = 0 + e.val; omega

theorem decode (X : FVec Ideal SX .f32) (E : IVec SE 32) (T : IVec ST 32) (Wd : FVec Ideal SW .f32) (bd : FVec Ideal SB .f32)
    (Wc : FVec Ideal SW .f32) (bc : FVec Ideal SB .f32) (Ws : FVec Ideal SW .f32) (bs : FVec Ideal SB .f32)
    (h : Cert.Pre_finite_inputs.fn (F := Ideal) X E T Wd bd Wc bc Ws bs = (fun _ => 1#1)) :
    Decoded X E T Wd bd Wc bc Ws bs := by
  have e := congrFun h ix0
  dsimp only [Cert.Pre_finite_inputs.fn, Cert.Pre_finite_inputs.fn_part1, Cert.Pre_finite_inputs.fn_part2] at e
  obtain ⟨e, e42⟩ := IntOp.andi_eq_one.1 e
  obtain ⟨e, e36⟩ := IntOp.andi_eq_one.1 e
  obtain ⟨e, e32⟩ := IntOp.andi_eq_one.1 e
  obtain ⟨e, e27⟩ := IntOp.andi_eq_one.1 e
  obtain ⟨e, e22⟩ := IntOp.andi_eq_one.1 e
  obtain ⟨e, e17⟩ := IntOp.andi_eq_one.1 e
  obtain ⟨e, e12⟩ := IntOp.andi_eq_one.1 e
  obtain ⟨e3, e7⟩ := IntOp.andi_eq_one.1 e
  have h36 := fun i => Host.reduce_andi_all _ _ _ _ ix0 e36 i
  have h42 := fun i => Host.reduce_andi_all _ _ _ _ ix0 e42 i
  have z0 : (0#32 : BitVec 32).toInt = 0 := by decide
  have zN : (10000#32 : BitVec 32).toInt = 10000 := by decide
  have nonneg : ∀ (a : Fin 2) (k : Fin 640000), 0 ≤ (E (ix2 a k)).toInt := fun a k => by
    have := IntOp.cmpi_sge.1 (h36 (ix2 a k))
    change (0#32 : BitVec 32).toInt ≤ (E (ix2 a k)).toInt at this
    rwa [z0] at this
  refine ⟨all_real X _ _ _ e3, all_real Wd _ _ _ e7, all_real bd _ _ _ e12, all_real Wc _ _ _ e17, all_real bc _ _ _ e22,
    all_real Ws _ _ _ e27, all_real bs _ _ _ e32, fun k => ⟨nonneg 0 k, ?_⟩, fun k => nonneg 1 k⟩
  have := IntOp.cmpi_slt.1 (h42 (ix1 k))
  change (shapeCast ST (extractStridedSlice S1x640000 ![0, 0] E _) _ (ix1 k)).toInt < (10000#32 : BitVec 32).toInt at this
  rwa [slice_row0, zN] at this

end Cert.PreFacts

end
-- ==== Proof.LibRegroup.lean ====
/-
  General regrouping lemmas for finite sums.

  * a real finite sum, read in the extended reals, is the sum of the terms read there (the inclusion of the reals is
    additive), and the inclusion commutes with the larger of two numbers;
  * a weighted sum over the fibres of a map: if every index `e` with property `P` is sent to a point `src e`, then
    summing over the points `s` the total weight of the fibre over `s` times a value `y s` is the same as summing over
    the indices the weight times the value at the image.
-/
import Mathlib.Data.EReal.Operations
import Mathlib.Algebra.BigOperators.Ring.Finset
import Mathlib.Algebra.BigOperators.Fin

namespace Cert.Lib.Regroup

open scoped BigOperators

/-- The inclusion of the reals into the extended reals carries a finite sum to the sum of the included terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals into the extended reals is monotone, so it carries the larger of two reals to the
    larger of their images. -/
theorem coe_max (a b : ℝ) : ((max a b : ℝ) : EReal) = max (a : EReal) (b : EReal) :=
  EReal.coe_strictMono.monotone.map_max

/-- Summing over the points `s` the total weight of the fibre `{e | P e ∧ src e = s}` times `y s` is summing over the
    indices with property `P` the weight times `y` at the image: each index lies in exactly one fibre. -/
theorem sum_fiber_mul {ι σ R : Type*} [Fintype ι] [Fintype σ] [DecidableEq σ] [Semiring R]
    (P : ι → Prop) [DecidablePred P] (src : ι → σ) (c : ι → R) (y : σ → R) :
    ∑ s : σ, (∑ e ∈ Finset.univ.filter (fun e => P e ∧ src e = s), c e) * y s
      = ∑ e ∈ Finset.univ.filter P, c e * y (src e) := by
  simp_rw [Finset.sum_mul, Finset.sum_filter]
  rw [Finset.sum_comm]
  refine Finset.sum_congr rfl fun e _ => ?_
  by_cases hP : P e
  · simp [hP, Finset.sum_ite_eq]
  · simp [hP]

end Cert.Lib.Regroup
-- ==== Proof.Bridge.lean ====
/-
  The padded arrangement computes the layer.

  \`Cert.Spec.K\` arranges the layer as products with two adjacency arrays over a padded node count, accumulated over
  five column tiles; \`Cert.Spec.G\` is the layer written edge by edge. When every source word names a node and every
  destination word is non-negative the two agree on the first 10000 rows.

  The steps, one lemma each:
  * the five tiles of 2048 columns cover the padded extent exactly once, so the running sum after the last tile is
    the sum over all padded columns (\`sum_tile\`, \`acc_four\`);
  * every operand is real valued, so each side is the image of a real expression (\`lin_coe\` … \`K_coe\`, \`G_coe\`);
  * an adjacency entry is the number of edges of one type joining a pair of nodes, so an adjacency row times the
    column of affine images is the sum over the edges arriving at the row's node of the image of the edge's source
    (\`sum_adjR_mul\`, from \`Cert.Lib.Regroup.sum_fiber_mul\`);
  * an edge is of exactly one type, so the two adjacency sums together are the sum of the messages (\`KR_eq_GR\`).
-/
import proofs.«424744_j9517647528114_2_alg».proof.Proof.Spec
import proofs.«424744_j9517647528114_2_alg».proof.Proof.LibRegroup

noncomputable section

namespace Cert.Bridge

open Idealize.ShloMosaic Idealize.ShloMosaic.ValueIdx Cert.Spec Cert.Lib.Regroup

/-! ## The five column tiles cover the padded extent -/

/-- A tile and a column inside it name one padded column, and every padded column is named once:
    \`s = 2048 * (s / 2048) + s % 2048\`. -/
def tileEquiv : Fin 5 × Fin 2048 ≃ Fin 10240 where
  toFun p := tile p.1 p.2
  invFun s := (⟨s.val / 2048, by have := s.isLt; omega⟩, ⟨s.val % 2048, by omega⟩)
  left_inv := by
    rintro ⟨⟨a, ha⟩, ⟨b, hb⟩⟩
    simp only [tile, Prod.mk.injEq, Fin.mk.injEq]
    constructor <;> omega
  right_inv := by
    rintro ⟨s, hs⟩
    simp only [tile, Fin.mk.injEq]
    omega

/-- Summing tile by tile is summing over all padded columns. -/
theorem sum_tile {M : Type*} [AddCommMonoid M] (f : Fin 10240 → M) :
    ∑ kt : Fin 5, ∑ κ : Fin 2048, f (tile kt κ) = ∑ s : Fin 10240, f s := by
  rw [← Fintype.sum_prod_type' (f := fun kt κ => f (tile kt κ))]
  exact Fintype.sum_equiv tileEquiv _ _ (fun _ => rfl)

/-- The running sum after the last tile: each adjacency row against the whole column of affine images. -/
theorem acc_four (Ad Ac : Fin 10240 → Fin 10240 → EReal) (Xq : Fin 10240 → Fin 128 → EReal)
    (WdT : Fin 128 → Fin 128 → EReal) (bd1 : Fin 128 → EReal) (WcT : Fin 128 → Fin 128 → EReal) (bc1 : Fin 128 → EReal)
    (h : 4 < 5) (r : Fin 10240) (j : Fin 128) :
    acc Ad Ac Xq WdT bd1 WcT bc1 4 h r j
      = (∑ s : Fin 10240, Ad r s * yq Xq WdT bd1 s j) + (∑ s : Fin 10240, Ac r s * yq Xq WcT bc1 s j) := by
  have h0 : acc Ad Ac Xq WdT bd1 WcT bc1 4 h r j = ∑ kt : Fin 5, contrib Ad Ac Xq WdT bd1 WcT bc1 kt r j := by
    rw [Fin.sum_univ_five]
    simp only [acc, zero_add]
    rfl
  rw [h0]
  simp only [contrib]
  rw [Finset.sum_add_distrib, sum_tile (fun s => Ad r s * yq Xq WdT bd1 s j),
    sum_tile (fun s => Ac r s * yq Xq WcT bc1 s j)]

/-! ## Both sides over real operands -/

/-- \`lin\` over real arrays. -/
def linR (x : SX.Idx → ℝ) (w : SW.Idx → ℝ) (b : SB.Idx → ℝ) (n : Fin 10000) (j : Fin 128) : ℝ :=
  (∑ d : Fin 128, x (ix2 n d) * w (ix2 j d)) + b (ix1 j)

theorem lin_coe (x : SX.Idx → ℝ) (w : SW.Idx → ℝ) (b : SB.Idx → ℝ) (n : Fin 10000) (j : Fin 128) :
    lin (fun a => (x a : EReal)) (fun a => (w a : EReal)) (fun a => (b a : EReal)) n j = (linR x w b n j : EReal) := by
  unfold lin linR
  rw [EReal.coe_add, coe_sum]
  simp only [EReal.coe_mul]

/-- \`msg\` over real arrays. -/
def msgR (x : SX.Idx → ℝ) (E : IVec SE 32) (T : IVec ST 32) (wd : SW.Idx → ℝ) (bd : SB.Idx → ℝ)
    (wc : SW.Idx → ℝ) (bc : SB.Idx → ℝ) (e : Fin 640000) (j : Fin 128) : ℝ :=
  if isData T e then linR x wd bd (node (srcW E e)) j else linR x wc bc (node (srcW E e)) j

theorem msg_coe (x : SX.Idx → ℝ) (E : IVec SE 32) (T : IVec ST 32) (wd : SW.Idx → ℝ) (bd : SB.Idx → ℝ)
    (wc : SW.Idx → ℝ) (bc : SB.Idx → ℝ) (e : Fin 640000) (j : Fin 128) :
    msg (fun a => (x a : EReal)) E T (fun a => (wd a : EReal)) (fun a => (bd a : EReal))
        (fun a => (wc a : EReal)) (fun a => (bc a : EReal)) e j
      = (msgR x E T wd bd wc bc e j : EReal) := by
  unfold msg msgR
  split_ifs
  · exact lin_coe ..
  · exact lin_coe ..

/-- \`G\` over real arrays. -/
def GR (x : SX.Idx → ℝ) (E : IVec SE 32) (T : IVec ST 32) (wd : SW.Idx → ℝ) (bd : SB.Idx → ℝ)
    (wc : SW.Idx → ℝ) (bc : SB.Idx → ℝ) (ws : SW.Idx → ℝ) (bs : SB.Idx → ℝ) (i : Fin 10000) (j : Fin 128) : ℝ :=
  max ((∑ e ∈ Finset.univ.filter (fun e : Fin 640000 => (dstW E e).toInt = (i.val : Int)), msgR x E T wd bd wc bc e j)
    + linR x ws bs i j) 0

theorem G_coe (x : SX.Idx → ℝ) (E : IVec SE 32) (T : IVec ST 32) (wd : SW.Idx → ℝ) (bd : SB.Idx → ℝ)
    (wc : SW.Idx → ℝ) (bc : SB.Idx → ℝ) (ws : SW.Idx → ℝ) (bs : SB.Idx → ℝ) (i : Fin 10000) (j : Fin 128) :
    G (fun a => (x a : EReal)) E T (fun a => (wd a : EReal)) (fun a => (bd a : EReal))
        (fun a => (wc a : EReal)) (fun a => (bc a : EReal)) (fun a => (ws a : EReal)) (fun a => (bs a : EReal)) i j
      = (GR x E T wd bd wc bc ws bs i j : EReal) := by
  unfold G GR
  rw [coe_max, EReal.coe_add, coe_sum, EReal.coe_zero, lin_coe]
  simp only [msg_coe]

/-- The padded features over a real array. -/
def XpR (x : SX.Idx → ℝ) (r : Fin 10240) (d : Fin 128) : ℝ := if h : r.val < 10000 then x (ix2 ⟨r.val, h⟩ d) else 0

theorem Xp_coe (x : SX.Idx → ℝ) : Xp (fun a => (x a : EReal)) = fun r d => ((XpR x r d : ℝ) : EReal) := by
  funext r d
  unfold Xp XpR
  split_ifs
  · rfl
  · exact EReal.coe_zero.symm

/-- \`yq\` over real arrays. -/
def yqR (xq : Fin 10240 → Fin 128 → ℝ) (wT : Fin 128 → Fin 128 → ℝ) (b1 : Fin 128 → ℝ) (s : Fin 10240) (j : Fin 128) : ℝ :=
  (∑ d : Fin 128, xq s d * wT d j) + b1 j

theorem yq_coe (xq : Fin 10240 → Fin 128 → ℝ) (wT : Fin 128 → Fin 128 → ℝ) (b1 : Fin 128 → ℝ) (s : Fin 10240) (j : Fin 128) :
    yq (fun s d => (xq s d : EReal)) (fun d j => (wT d j : EReal)) (fun j => (b1 j : EReal)) s j
      = (yqR xq wT b1 s j : EReal) := by
  unfold yq yqR
  rw [EReal.coe_add, coe_sum]
  simp only [EReal.coe_mul]

/-- The adjacency count as a real number. -/
def adjR (E : IVec SE 32) (T : IVec ST 32) (sel : Bool) (r s : Fin 10240) : ℝ :=
  ∑ e ∈ Finset.univ.filter (fun e : Fin 640000 =>
      (norm (dstW E e)).toInt = (r.val : Int) ∧ (norm (srcW E e)).toInt = (s.val : Int)),
    (if decide (isData T e) = sel then (1 : ℝ) else 0)

theorem adj_coe (E : IVec SE 32) (T : IVec ST 32) (sel : Bool) :
    adj E T sel = fun r s => ((adjR E T sel r s : ℝ) : EReal) := by
  funext r s
  unfold adj adjR
  rw [coe_sum]
  refine Finset.sum_congr rfl fun e _ => ?_
  split_ifs
  · exact EReal.coe_one.symm
  · exact EReal.coe_zero.symm

/-- \`KG\` over real arrays, the five tiles already summed. -/
def KGR (ad ac : Fin 10240 → Fin 10240 → ℝ) (xq : Fin 10240 → Fin 128 → ℝ)
    (wdT : Fin 128 → Fin 128 → ℝ) (bd1 : Fin 128 → ℝ) (wcT : Fin 128 → Fin 128 → ℝ) (bc1 : Fin 128 → ℝ)
    (wsT : Fin 128 → Fin 128 → ℝ) (bs1 : Fin 128 → ℝ) (r : Fin 10240) (j : Fin 128) : ℝ :=
  max ((∑ s : Fin 10240, ad r s * yqR xq wdT bd1 s j) + (∑ s : Fin 10240, ac r s * yqR xq wcT bc1 s j)
    + yqR xq wsT bs1 r j) 0

theorem KG_coe (ad ac : Fin 10240 → Fin 10240 → ℝ) (xq : Fin 10240 → Fin 128 → ℝ)
    (wdT : Fin 128 → Fin 128 → ℝ) (bd1 : Fin 128 → ℝ) (wcT : Fin 128 → Fin 128 → ℝ) (bc1 : Fin 128 → ℝ)
    (wsT : Fin 128 → Fin 128 → ℝ) (bs1 : Fin 128 → ℝ) (r : Fin 10240) (j : Fin 128) :
    KG (fun r s => (ad r s : EReal)) (fun r s => (ac r s : EReal)) (fun s d => (xq s d : EReal))
        (fun d j => (wdT d j : EReal)) (fun j => (bd1 j : EReal)) (fun d j => (wcT d j : EReal)) (fun j => (bc1 j : EReal))
        (fun d j => (wsT d j : EReal)) (fun j => (bs1 j : EReal)) r j
      = (KGR ad ac xq wdT bd1 wcT bc1 wsT bs1 r j : EReal) := by
  unfold KG KGR
  rw [acc_four]
  simp only [yq_coe]
  rw [coe_max, EReal.coe_add, EReal.coe_add, coe_sum, coe_sum, EReal.coe_zero]
  simp only [EReal.coe_mul]

/-- \`K\` over real arrays. -/
def KR (x : SX.Idx → ℝ) (E : IVec SE 32) (T : IVec ST 32) (wd : SW.Idx → ℝ) (bd : SB.Idx → ℝ)
    (wc : SW.Idx → ℝ) (bc : SB.Idx → ℝ) (ws : SW.Idx → ℝ) (bs : SB.Idx → ℝ) (r : Fin 10240) (j : Fin 128) : ℝ :=
  KGR (adjR E T true) (adjR E T false) (XpR x) (fun d j => wd (ix2 j d)) (fun j => bd (ix1 j))
    (fun d j => wc (ix2 j d)) (fun j => bc (ix1 j)) (fun d j => ws (ix2 j d)) (fun j => bs (ix1 j)) r j

theorem K_coe (x : SX.Idx → ℝ) (E : IVec SE 32) (T : IVec ST 32) (wd : SW.Idx → ℝ) (bd : SB.Idx → ℝ)
    (wc : SW.Idx → ℝ) (bc : SB.Idx → ℝ) (ws : SW.Idx → ℝ) (bs : SB.Idx → ℝ) (r : Fin 10240) (j : Fin 128) :
    K (fun a => (x a : EReal)) E T (fun a => (wd a : EReal)) (fun a => (bd a : EReal))
        (fun a => (wc a : EReal)) (fun a => (bc a : EReal)) (fun a => (ws a : EReal)) (fun a => (bs a : EReal)) r j
      = (KR x E T wd bd wc bc ws bs r j : EReal) := by
  unfold K KR
  rw [Xp_coe, adj_coe, adj_coe]
  exact KG_coe _ _ _ _ _ _ _ _ _ r j

/-! ## The real identity -/

/-- A non-negative word is left as it is. -/
theorem norm_of_nonneg (w : BitVec 32) (h : 0 ≤ w.toInt) : Cert.Spec.norm w = w := by
  unfold Cert.Spec.norm
  exact if_neg (by omega)

/-- The padded node an in-range source word names. -/
def srcIdx (E : IVec SE 32) (hsrc : ∀ e : Fin 640000, 0 ≤ (srcW E e).toInt ∧ (srcW E e).toInt < 10000)
    (e : Fin 640000) : Fin 10240 :=
  ⟨(srcW E e).toInt.toNat, by have := hsrc e; omega⟩

/-- With in-range words the adjacency count from \`s\` to \`r\` counts the edges arriving at \`r\` whose source is \`s\`. -/
theorem adjR_eq (E : IVec SE 32) (T : IVec ST 32)
    (hsrc : ∀ e : Fin 640000, 0 ≤ (srcW E e).toInt ∧ (srcW E e).toInt < 10000)
    (hdst : ∀ e : Fin 640000, 0 ≤ (dstW E e).toInt) (sel : Bool) (r s : Fin 10240) :
    adjR E T sel r s
      = ∑ e ∈ Finset.univ.filter (fun e : Fin 640000 => (dstW E e).toInt = (r.val : Int) ∧ srcIdx E hsrc e = s),
          (if decide (isData T e) = sel then (1 : ℝ) else 0) := by
  unfold adjR
  refine Finset.sum_congr (Finset.filter_congr fun e _ => ?_) fun _ _ => rfl
  rw [norm_of_nonneg _ (hdst e), norm_of_nonneg _ (hsrc e).1]
  refine and_congr_right fun _ => ?_
  have h2 := hsrc e
  constructor
  · intro h
    apply Fin.ext
    show (srcW E e).toInt.toNat = s.val
    omega
  · intro h
    have h3 : (srcW E e).toInt.toNat = s.val := congrArg Fin.val h
    omega

/-- An adjacency row against a column \`y\`: the sum over the edges of the chosen type arriving at the row's node of
    \`y\` at the edge's source. -/
theorem sum_adjR_mul (E : IVec SE 32) (T : IVec ST 32)
    (hsrc : ∀ e : Fin 640000, 0 ≤ (srcW E e).toInt ∧ (srcW E e).toInt < 10000)
    (hdst : ∀ e : Fin 640000, 0 ≤ (dstW E e).toInt) (sel : Bool) (r : Fin 10240) (y : Fin 10240 → ℝ) :
    ∑ s : Fin 10240, adjR E T sel r s * y s
      = ∑ e ∈ Finset.univ.filter (fun e : Fin 640000 => (dstW E e).toInt = (r.val : Int)),
          (if decide (isData T e) = sel then (1 : ℝ) else 0) * y (srcIdx E hsrc e) := by
  simp only [adjR_eq E T hsrc hdst]
  exact sum_fiber_mul (fun e : Fin 640000 => (dstW E e).toInt = (r.val : Int)) (srcIdx E hsrc)
    (fun e => if decide (isData T e) = sel then (1 : ℝ) else 0) y

/-- A padded row below 10000 through a transposed affine map is the node's row through the map. -/
theorem yqR_Xp (x : SX.Idx → ℝ) (w : SW.Idx → ℝ) (b : SB.Idx → ℝ) (s : Fin 10240) (n : Fin 10000)
    (h : s.val = n.val) (j : Fin 128) :
    yqR (XpR x) (fun d j => w (ix2 j d)) (fun j => b (ix1 j)) s j = linR x w b n j := by
  unfold yqR linR XpR
  have hlt : s.val < 10000 := by have := n.isLt; omega
  have hn : (⟨s.val, hlt⟩ : Fin 10000) = n := Fin.ext h
  simp only [dif_pos hlt, hn]

/-- The padded arrangement and the layer agree, over real arrays. -/
theorem KR_eq_GR (x : SX.Idx → ℝ) (E : IVec SE 32) (T : IVec ST 32) (wd : SW.Idx → ℝ) (bd : SB.Idx → ℝ)
    (wc : SW.Idx → ℝ) (bc : SB.Idx → ℝ) (ws : SW.Idx → ℝ) (bs : SB.Idx → ℝ)
    (hsrc : ∀ e : Fin 640000, 0 ≤ (srcW E e).toInt ∧ (srcW E e).toInt < 10000)
    (hdst : ∀ e : Fin 640000, 0 ≤ (dstW E e).toInt) (i : Fin 10000) (j : Fin 128) :
    KR x E T wd bd wc bc ws bs ⟨i.val, by have := i.isLt; omega⟩ j = GR x E T wd bd wc bc ws bs i j := by
  unfold KR KGR GR
  rw [sum_adjR_mul E T hsrc hdst, sum_adjR_mul E T hsrc hdst, ← Finset.sum_add_distrib,
    yqR_Xp x ws bs ⟨i.val, by have := i.isLt; omega⟩ i rfl]
  have hsum : ∀ e : Fin 640000,
      (if decide (isData T e) = true then (1 : ℝ) else 0)
          * yqR (XpR x) (fun d j => wd (ix2 j d)) (fun j => bd (ix1 j)) (srcIdx E hsrc e) j
        + (if decide (isData T e) = false then (1 : ℝ) else 0)
          * yqR (XpR x) (fun d j => wc (ix2 j d)) (fun j => bc (ix1 j)) (srcIdx E hsrc e) j
        = msgR x E T wd bd wc bc e j := by
    intro e
    have hs : (srcIdx E hsrc e).val = (node (srcW E e)).val := by
      have h2 := hsrc e
      show (srcW E e).toInt.toNat = min (srcW E e).toInt.toNat 9999
      omega
    rw [yqR_Xp x wd bd _ _ hs, yqR_Xp x wc bc _ _ hs]
    unfold msgR
    by_cases h : isData T e <;> simp [h]
  simp only [hsum]

/-! ## The statement over extended-real arrays with real entries -/

/-- THE BRIDGE: with real-valued arrays, source words naming nodes and non-negative destination words, row \`i\` of the
    padded arrangement is node \`i\` of the layer. -/
theorem K_eq_G (X : FVec Ideal SX .f32) (E : IVec SE 32) (T : IVec ST 32) (Wd : FVec Ideal SW .f32)
    (bd : FVec Ideal SB .f32) (Wc : FVec Ideal SW .f32) (bc : FVec Ideal SB .f32) (Ws : FVec Ideal SW .f32)
    (bs : FVec Ideal SB .f32)
    (hX : ∀ i, ∃ x : ℝ, X i = (x : EReal)) (hWd : ∀ i, ∃ x : ℝ, Wd i = (x : EReal))
    (hbd : ∀ i, ∃ x : ℝ, bd i = (x : EReal)) (hWc : ∀ i, ∃ x : ℝ, Wc i = (x : EReal))
    (hbc : ∀ i, ∃ x : ℝ, bc i = (x : EReal)) (hWs : ∀ i, ∃ x : ℝ, Ws i = (x : EReal))
    (hbs : ∀ i, ∃ x : ℝ, bs i = (x : EReal))
    (hsrc : ∀ e : Fin 640000, 0 ≤ (srcW E e).toInt ∧ (srcW E e).toInt < 10000)
    (hdst : ∀ e : Fin 640000, 0 ≤ (dstW E e).toInt)
    (i : Fin 10000) (j : Fin 128) :
    K X E T Wd bd Wc bc Ws bs ⟨i.val, by have := i.isLt; omega⟩ j = G X E T Wd bd Wc bc Ws bs i j := by
  choose x hx using hX
  choose wd hwd using hWd
  choose bdr hbdr using hbd
  choose wc hwc using hWc
  choose bcr hbcr using hbc
  choose ws hws using hWs
  choose bsr hbsr using hbs
  obtain rfl : X = fun a => (x a : EReal) := funext hx
  obtain rfl : Wd = fun a => (wd a : EReal) := funext hwd
  obtain rfl : bd = fun a => (bdr a : EReal) := funext hbdr
  obtain rfl : Wc = fun a => (wc a : EReal) := funext hwc
  obtain rfl : bc = fun a => (bcr a : EReal) := funext hbcr
  obtain rfl : Ws = fun a => (ws a : EReal) := funext hws
  obtain rfl : bs = fun a => (bsr a : EReal) := funext hbsr
  rw [K_coe, G_coe, KR_eq_GR x E T wd bdr wc bcr ws bsr hsrc hdst i j]

end Cert.Bridge

end
-- ==== Proof.KernelValue.lean ====
/-
  The kernel side's last step, over abstract arrays.

  The padded program ends by keeping rows 0 … 9999 of its 10240-row output array. If that array is, entry by entry,
  the padded arrangement \`Cert.Spec.KG\` of ten operand arrays, and the operands are what the program builds from the
  arguments (the two adjacency counts, the zero-padded features, the transposed weights, the biases as single rows),
  then under the decoded precondition the kept rows are the layer \`Cert.Spec.G\` edge by edge.

  * the slice at offset (0, 0) reads row \`i\` of the kept block at row \`i\` of the array (\`slice_rows\`);
  * the operand identities turn the arrangement into \`Cert.Spec.K\`;
  * \`Cert.Bridge.K_eq_G\` turns row \`i < 10000\` of \`K\` into node \`i\` of \`G\`.
-/
import proofs.«424744_j9517647528114_2_alg».proof.Proof.Spec
import proofs.«424744_j9517647528114_2_alg».proof.Proof.Bridge
import proofs.«424744_j9517647528114_2_alg».proof.Proof.Pre
import Idealize.ShloMosaic.Lib.Pipeline.Value

noncomputable section

namespace Cert.KernelValue

open Idealize.ShloMosaic Idealize.ShloMosaic.ValueIdx
open Cert.Spec (SX SE ST SW SB)

/-- The padded square adjacency arrays, the padded feature / output arrays, a bias as a single row. -/
abbrev S10240x10240 : Shape := ⟨2, ![10240, 10240]⟩
abbrev S10240x128 : Shape := ⟨2, ![10240, 128]⟩
abbrev S1x128 : Shape := ⟨2, ![1, 128]⟩

/-- Keeping the first 10000 rows: entry \`(i, j)\` of the kept block is entry \`(i, j)\` of the array. -/
theorem slice_rows {α : Type} (arr : S10240x128.Idx → α) (hs : S10240x128.Slices ![0, 0] SX) (i : Fin 10000) (j : Fin 128) :
    extractStridedSlice SX ![0, 0] arr hs (ix2 i j) = arr (ix2 ⟨i.val, by have := i.isLt; omega⟩ j) := by
  refine extractStridedSlice_apply _ arr hs (ix2 i j) (ix2 ⟨i.val, by have := i.isLt; omega⟩ j) fun a => ?_
  match a with
  | ⟨0, _⟩ => show i.val = 0 + i.val; omega
  | ⟨1, _⟩ => show j.val = 0 + j.val; omega

/-- THE KERNEL SIDE'S VALUE at node \`i\`, column \`j\`: the kept rows of the padded arrangement are the layer. -/
theorem out_apply
    (X : FVec Ideal SX .f32) (E : IVec SE 32) (T : IVec ST 32) (Wd : FVec Ideal SW .f32) (bd : FVec Ideal SB .f32)
    (Wc : FVec Ideal SW .f32) (bc : FVec Ideal SB .f32) (Ws : FVec Ideal SW .f32) (bs : FVec Ideal SB .f32)
    (arr : S10240x128.Idx → EReal)
    (A40 A41 : S10240x10240.Idx → EReal) (X45 : S10240x128.Idx → EReal) (W47 W49 W51 : SW.Idx → EReal)
    (B52 B53 B54 : S1x128.Idx → EReal)
    (hfinal : ∀ (r : Fin 10240) (j : Fin 128), arr (ix2 r j)
      = Cert.Spec.KG (fun r s => A40 (ix2 r s)) (fun r s => A41 (ix2 r s)) (fun r d => X45 (ix2 r d))
          (fun d j => W47 (ix2 d j)) (fun j => B52 (ix2 (0 : Fin 1) j))
          (fun d j => W49 (ix2 d j)) (fun j => B53 (ix2 (0 : Fin 1) j))
          (fun d j => W51 (ix2 d j)) (fun j => B54 (ix2 (0 : Fin 1) j)) r j)
    (h40 : ∀ r s, A40 (ix2 r s) = Cert.Spec.adj E T true r s)
    (h41 : ∀ r s, A41 (ix2 r s) = Cert.Spec.adj E T false r s)
    (h45 : ∀ r d, X45 (ix2 r d) = Cert.Spec.Xp X r d)
    (h47 : ∀ (d j : Fin 128), W47 (ix2 d j) = Wd (ix2 j d))
    (h49 : ∀ (d j : Fin 128), W49 (ix2 d j) = Wc (ix2 j d))
    (h51 : ∀ (d j : Fin 128), W51 (ix2 d j) = Ws (ix2 j d))
    (h52 : ∀ j : Fin 128, B52 (ix2 (0 : Fin 1) j) = bd (ix1 j))
    (h53 : ∀ j : Fin 128, B53 (ix2 (0 : Fin 1) j) = bc (ix1 j))
    (h54 : ∀ j : Fin 128, B54 (ix2 (0 : Fin 1) j) = bs (ix1 j))
    (hpre : Cert.PreFacts.Decoded X E T Wd bd Wc bc Ws bs)
    (hs : S10240x128.Slices ![0, 0] SX)
    (i : Fin 10000) (j : Fin 128) :
    extractStridedSlice SX ![0, 0] arr hs (ix2 i j) = Cert.Spec.G X E T Wd bd Wc bc Ws bs i j := by
  have e40 : (fun r s => A40 (ix2 r s)) = Cert.Spec.adj E T true := funext fun r => funext fun s => h40 r s
  have e41 : (fun r s => A41 (ix2 r s)) = Cert.Spec.adj E T false := funext fun r => funext fun s => h41 r s
  have e45 : (fun r d => X45 (ix2 r d)) = Cert.Spec.Xp X := funext fun r => funext fun d => h45 r d
  have e47 : (fun d j => W47 (ix2 d j)) = fun (d j : Fin 128) => Wd (ix2 j d) := funext fun d => funext fun j => h47 d j
  have e49 : (fun d j => W49 (ix2 d j)) = fun (d j : Fin 128) => Wc (ix2 j d) := funext fun d => funext fun j => h49 d j
  have e51 : (fun d j => W51 (ix2 d j)) = fun (d j : Fin 128) => Ws (ix2 j d) := funext fun d => funext fun j => h51 d j
  have e52 : (fun j => B52 (ix2 (0 : Fin 1) j)) = fun j : Fin 128 => bd (ix1 j) := funext h52
  have e53 : (fun j => B53 (ix2 (0 : Fin 1) j)) = fun j : Fin 128 => bc (ix1 j) := funext h53
  have e54 : (fun j => B54 (ix2 (0 : Fin 1) j)) = fun j : Fin 128 => bs (ix1 j) := funext h54
  rw [slice_rows, hfinal, e40, e41, e45, e47, e49, e51, e52, e53, e54]
  exact Cert.Bridge.K_eq_G X E T Wd bd Wc bc Ws bs hpre.realX hpre.realWd hpre.realbd hpre.realWc hpre.realbc
    hpre.realWs hpre.realbs hpre.src hpre.dst i j

/-- The same as one array: the kept block is the layer read at the index's two coordinates. -/
theorem out_eq
    (X : FVec Ideal SX .f32) (E : IVec SE 32) (T : IVec ST 32) (Wd : FVec Ideal SW .f32) (bd : FVec Ideal SB .f32)
    (Wc : FVec Ideal SW .f32) (bc : FVec Ideal SB .f32) (Ws : FVec Ideal SW .f32) (bs : FVec Ideal SB .f32)
    (arr : S10240x128.Idx → EReal)
    (A40 A41 : S10240x10240.Idx → EReal) (X45 : S10240x128.Idx → EReal) (W47 W49 W51 : SW.Idx → EReal)
    (B52 B53 B54 : S1x128.Idx → EReal)
    (hfinal : ∀ (r : Fin 10240) (j : Fin 128), arr (ix2 r j)
      = Cert.Spec.KG (fun r s => A40 (ix2 r s)) (fun r s => A41 (ix2 r s)) (fun r d => X45 (ix2 r d))
          (fun d j => W47 (ix2 d j)) (fun j => B52 (ix2 (0 : Fin 1) j))
          (fun d j => W49 (ix2 d j)) (fun j => B53 (ix2 (0 : Fin 1) j))
          (fun d j => W51 (ix2 d j)) (fun j => B54 (ix2 (0 : Fin 1) j)) r j)
    (h40 : ∀ r s, A40 (ix2 r s) = Cert.Spec.adj E T true r s)
    (h41 : ∀ r s, A41 (ix2 r s) = Cert.Spec.adj E T false r s)
    (h45 : ∀ r d, X45 (ix2 r d) = Cert.Spec.Xp X r d)
    (h47 : ∀ (d j : Fin 128), W47 (ix2 d j) = Wd (ix2 j d))
    (h49 : ∀ (d j : Fin 128), W49 (ix2 d j) = Wc (ix2 j d))
    (h51 : ∀ (d j : Fin 128), W51 (ix2 d j) = Ws (ix2 j d))
    (h52 : ∀ j : Fin 128, B52 (ix2 (0 : Fin 1) j) = bd (ix1 j))
    (h53 : ∀ j : Fin 128, B53 (ix2 (0 : Fin 1) j) = bc (ix1 j))
    (h54 : ∀ j : Fin 128, B54 (ix2 (0 : Fin 1) j) = bs (ix1 j))
    (hpre : Cert.PreFacts.Decoded X E T Wd bd Wc bc Ws bs)
    (hs : S10240x128.Slices ![0, 0] SX) :
    extractStridedSlice SX ![0, 0] arr hs
      = fun idx : SX.Idx => Cert.Spec.G X E T Wd bd Wc bc Ws bs (idx 0) (idx 1) := by
  funext idx
  obtain ⟨p, q, rfl⟩ : ∃ p q, idx = ix2 p q := ⟨idx 0, idx 1, eq_ix2 idx⟩
  exact out_apply X E T Wd bd Wc bc Ws bs arr A40 A41 X45 W47 W49 W51 B52 B53 B54 hfinal h40 h41 h45 h47 h49 h51
    h52 h53 h54 hpre hs p q

end Cert.KernelValue

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«424744_j9517647528114_2_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.Ref.Value.lean ====
/-
  The reference program's result, read at a node and an output column, is the layer written edge by edge.

  The program takes the source rows of the features (a gather at the source words, each word first moved into the
  node range when negative, then clamped), sends every gathered row through the two affine maps, keeps for each edge
  the image under the map of its type, adds the kept rows into their destination nodes (a word outside the node
  range names no node and its row is dropped), adds each node's own image under the self map and takes the positive
  part. Under the hypothesis that no source word is negative the first step leaves the words as they are, and each
  stage read at an index is the corresponding term of the specification: `lin` for an affine image, `msg` for the
  kept row, the filtered sum over the edges whose destination word is the node for the accumulation.
-/
import proofs.«424744_j9517647528114_2_alg».proof.Proof.Gen.ReferenceIdeal.Run
import proofs.«424744_j9517647528114_2_alg».proof.Proof.Gen.ReferenceIdeal.Read
import proofs.«424744_j9517647528114_2_alg».proof.Proof.Spec
import proofs.«424744_j9517647528114_2_alg».proof.Proof.LibRowGather
import proofs.«424744_j9517647528114_2_alg».proof.Proof.LibSegmentSumHost

noncomputable section

namespace Cert.ReferenceIdeal.RefValue

open Cert.ReferenceIdeal Cert.ReferenceIdeal.Gen Cert.ReferenceIdeal.Read
open Idealize.ShloMosaic Idealize.ShloMosaic.ValueIdx

/-! ## The result as one term of the arguments -/

section Term
variable {F : FTy → Type} [FloatOps F]

/-- The composed term of the nine arguments the program leaves in its result, for any float values. -/
def refTermOf (X : (⟨S10000x128, .f32⟩ : BufTy).Contents (Elt F)) (E : (⟨S2x640000, .i32⟩ : BufTy).Contents (Elt F))
    (T : (⟨S640000, .i32⟩ : BufTy).Contents (Elt F)) (Wd : (⟨S128x128, .f32⟩ : BufTy).Contents (Elt F))
    (bd : (⟨S128, .f32⟩ : BufTy).Contents (Elt F)) (Wc : (⟨S128x128, .f32⟩ : BufTy).Contents (Elt F))
    (bc : (⟨S128, .f32⟩ : BufTy).Contents (Elt F)) (Ws : (⟨S128x128, .f32⟩ : BufTy).Contents (Elt F))
    (bs : (⟨S128, .f32⟩ : BufTy).Contents (Elt F)) : (⟨S10000x128, .f32⟩ : BufTy).Contents (Elt F) :=
  maximumf (addf (Host.scatterAdd scatter_S10000x128_S640000x1_S640000x128_1_0_0_1 (broadcastInDim S10000x128 ![] bcast_S_S10000x128 (constant S_ .f32 0x00000000#32)) (broadcastInDim S640000x1 ![0] bcast_S640000_S640000x1_0 (shapeCast _ (extractStridedSlice S1x640000 ![1, 0] E slices_S2x640000_S1x640000_1_0) shapeCasts_S1x640000_S640000)) (select (broadcastInDim S640000x128 ![0, 1] bcast_S640000x1_S640000x128_0_1 (broadcastInDim S640000x1 ![0] bcast_S640000_S640000x1_0 (cmpi .eq T (broadcastInDim S640000 ![] bcast_S_S640000 (constantI S_ 32 0#32))))) (addf (Host.dotGeneral dot_S640000x128_S128x128_S640000x128_1_0_0_1_n_n none (Host.gather gather_S10000x128_S640000x1_S640000x128_1_0_n_n_0_1_1128 X (broadcastInDim S640000x1 ![0] bcast_S640000_S640000x1_0 (select (cmpi .slt (shapeCast _ (extractStridedSlice S1x640000 ![0, 0] E slices_S2x640000_S1x640000_0_0) shapeCasts_S1x640000_S640000) (broadcastInDim S640000 ![] bcast_S_S640000 (constantI S_ 32 0#32))) (addi (shapeCast _ (extractStridedSlice S1x640000 ![0, 0] E slices_S2x640000_S1x640000_0_0) shapeCasts_S1x640000_S640000) (broadcastInDim S640000 ![] bcast_S_S640000 (constantI S_ 32 10000#32))) (shapeCast _ (extractStridedSlice S1x640000 ![0, 0] E slices_S2x640000_S1x640000_0_0) shapeCasts_S1x640000_S640000)))) (transpose S128x128 [1, 0] Wd transposes_S128x128_S128x128_1_0)) (broadcastInDim S640000x128 ![0, 1] bcast_S1x128_S640000x128_0_1 (broadcastInDim S1x128 ![1] bcast_S128_S1x128_1 bd))) (addf (Host.dotGeneral dot_S640000x128_S128x128_S640000x128_1_0_0_1_n_n none (Host.gather gather_S10000x128_S640000x1_S640000x128_1_0_n_n_0_1_1128 X (broadcastInDim S640000x1 ![0] bcast_S640000_S640000x1_0 (select (cmpi .slt (shapeCast _ (extractStridedSlice S1x640000 ![0, 0] E slices_S2x640000_S1x640000_0_0) shapeCasts_S1x640000_S640000) (broadcastInDim S640000 ![] bcast_S_S640000 (constantI S_ 32 0#32))) (addi (shapeCast _ (extractStridedSlice S1x640000 ![0, 0] E slices_S2x640000_S1x640000_0_0) shapeCasts_S1x640000_S640000) (broadcastInDim S640000 ![] bcast_S_S640000 (constantI S_ 32 10000#32))) (shapeCast _ (extractStridedSlice S1x640000 ![0, 0] E slices_S2x640000_S1x640000_0_0) shapeCasts_S1x640000_S640000)))) (transpose S128x128 [1, 0] Wc transposes_S128x128_S128x128_1_0)) (broadcastInDim S640000x128 ![0, 1] bcast_S1x128_S640000x128_0_1 (broadcastInDim S1x128 ![1] bcast_S128_S1x128_1 bc))))) (addf (Host.dotGeneral dot_S10000x128_S128x128_S10000x128_1_0_0_1_n_n none X (transpose S128x128 [1, 0] Ws transposes_S128x128_S128x128_1_0)) (broadcastInDim S10000x128 ![0, 1] bcast_S1x128_S10000x128_0_1 (broadcastInDim S1x128 ![1] bcast_S128_S1x128_1 bs)))) (broadcastInDim S10000x128 ![] bcast_S_S10000x128 (constant S_ .f32 0x00000000#32))

end Term

/-- The same term over the extended reals. -/
def refTerm (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (Ws : FVec Ideal S128x128 .f32) (bs : FVec Ideal S128 .f32) : FVec Ideal S10000x128 .f32 :=
  refTermOf (F := Ideal) X E T Wd bd Wc bc Ws bs

/-- The term is the last stage of the program read operation by operation. -/
theorem refTerm_eq_stage (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (Ws : FVec Ideal S128x128 .f32) (bs : FVec Ideal S128 .f32) :
    refTerm X E T Wd bd Wc bc Ws bs = val_main_v34 (F := Ideal) X E T Wd bd Wc bc Ws bs := rfl

/-! ## Indices of the layout operations, at coordinates -/

/-- Edge `e` of row 0 of the end points, through the slice and the flattening. -/
theorem idx_row0 (e : Fin 640000) : idx_main_v0 (idx_main_v1 (ix1 e)) = ix2 (0 : Fin 2) e := by
  funext a; refine Fin.ext ?_
  match a with
  | ⟨0, _⟩ => rfl
  | ⟨1, _⟩ => exact Nat.mod_eq_of_lt e.isLt

/-- Edge `e` of row 1 of the end points, through the slice and the flattening. -/
theorem idx_row1 (e : Fin 640000) : idx_main_v2 (idx_main_v3 (ix1 e)) = ix2 (1 : Fin 2) e := by
  funext a; refine Fin.ext ?_
  match a with
  | ⟨0, _⟩ => rfl
  | ⟨1, _⟩ => exact Nat.mod_eq_of_lt e.isLt

/-- Entry `e` of a column of words is entry `e` of the vector it was made from. -/
theorem idx_col (e : Fin 640000) : idx_main_v9 (ix2 e (0 : Fin 1)) = ix1 e := by
  funext a; refine Fin.ext ?_
  match a with
  | ⟨0, _⟩ => rfl

/-- The transposed weights at (d, j) are the weights at (j, d). -/
theorem idx_tr (d j : Fin 128) : idx_main_v11 (ix2 d j) = ix2 j d := by
  funext a; refine Fin.ext ?_
  match a with
  | ⟨0, _⟩ => rfl
  | ⟨1, _⟩ => rfl

/-! ## The source words and the gathered rows -/

/-- The flattened first row of the end points is the source words. -/
theorem src_apply (E : IVec S2x640000 32) (e : Fin 640000) :
    val_main_v1 (F := Ideal) E (ix1 e) = Spec.srcW E e := by
  rw [val_main_v1_apply, val_main_v0_apply, idx_row0]
  rfl

/-- The flattened second row of the end points is the destination words. -/
theorem dst_apply (E : IVec S2x640000 32) (e : Fin 640000) :
    val_main_v3 (F := Ideal) E (ix1 e) = Spec.dstW E e := by
  rw [val_main_v3_apply, val_main_v2_apply, idx_row1]
  rfl

/-- A source word that is not negative is left as it is by the move into the node range. -/
theorem srcNorm_apply (E : IVec S2x640000 32) (e : Fin 640000) (h : 0 ≤ (Spec.srcW E e).toInt) :
    val_main_v9 (F := Ideal) E (ix2 e (0 : Fin 1)) = Spec.srcW E e := by
  rw [val_main_v9_apply, idx_col, val_main_v8_apply, val_main_v5_apply, src_apply, val_main_v4_apply, val_main_c_apply]
  have hc : ¬ IntOp.cmpi .slt (Spec.srcW E e) 0#32 = 1#1 := by
    rw [IntOp.cmpi_slt]
    show ¬ (Spec.srcW E e).toInt < 0
    omega
  exact if_neg hc

/-- Row `e` of the gathered features is the feature row of the node the source word names. -/
theorem gathered_apply (X : FVec Ideal S10000x128 .f32) (E : IVec S2x640000 32) (e : Fin 640000) (d : Fin 128)
    (h : 0 ≤ (Spec.srcW E e).toInt) :
    val_main_v10 (F := Ideal) X E (ix2 e d) = X (ix2 (Spec.node (Spec.srcW E e)) d) := by
  unfold val_main_v10
  refine (Cert.Lib.RowGather.gather_rows_apply (N := 10000) (C := 128) (R := 640000) (by decide)
    gather_S10000x128_S640000x1_S640000x128_1_0_n_n_0_1_1128_wf X (val_main_v9 (F := Ideal) E) e d).trans ?_
  refine congrArg X (congrArg (fun r : Fin 10000 => ix2 r d) (Fin.ext ?_))
  show min (val_main_v9 (F := Ideal) E (ix2 e (0 : Fin 1))).toInt.toNat (10000 - 1) = min (Spec.srcW E e).toInt.toNat 9999
  rw [srcNorm_apply E e h]

/-! ## The affine images -/

/-- A gathered row against the transposed weights of the first type. -/
theorem dotD_apply (X : FVec Ideal S10000x128 .f32) (E : IVec S2x640000 32) (Wd : FVec Ideal S128x128 .f32)
    (e : Fin 640000) (j : Fin 128) (h : 0 ≤ (Spec.srcW E e).toInt) :
    val_main_v12 (F := Ideal) X E Wd (ix2 e j)
      = ∑ d : Fin 128, X (ix2 (Spec.node (Spec.srcW E e)) d) * Wd (ix2 j d) := by
  rw [val_main_v12_apply]
  refine Finset.sum_congr rfl fun d _ => ?_
  have hl : lidx_main_v12 (ix2 e j) d = ix2 e d := by
    funext a; refine Fin.ext ?_
    match a with
    | ⟨0, _⟩ => rfl
    | ⟨1, _⟩ => rfl
  have hr : ridx_main_v12 (ix2 e j) d = ix2 d j := by
    funext a; refine Fin.ext ?_
    match a with
    | ⟨0, _⟩ => rfl
    | ⟨1, _⟩ => rfl
  rw [hl, hr, gathered_apply X E e d h, val_main_v11_apply, idx_tr]

/-- A gathered row against the transposed weights of the second type. -/
theorem dotC_apply (X : FVec Ideal S10000x128 .f32) (E : IVec S2x640000 32) (Wc : FVec Ideal S128x128 .f32)
    (e : Fin 640000) (j : Fin 128) (h : 0 ≤ (Spec.srcW E e).toInt) :
    val_main_v17 (F := Ideal) X E Wc (ix2 e j)
      = ∑ d : Fin 128, X (ix2 (Spec.node (Spec.srcW E e)) d) * Wc (ix2 j d) := by
  rw [val_main_v17_apply]
  refine Finset.sum_congr rfl fun d _ => ?_
  have hl : lidx_main_v17 (ix2 e j) d = ix2 e d := by
    funext a; refine Fin.ext ?_
    match a with
    | ⟨0, _⟩ => rfl
    | ⟨1, _⟩ => rfl
  have hr : ridx_main_v17 (ix2 e j) d = ix2 d j := by
    funext a; refine Fin.ext ?_
    match a with
    | ⟨0, _⟩ => rfl
    | ⟨1, _⟩ => rfl
  rw [hl, hr, gathered_apply X E e d h, val_main_v16_apply]
  exact congrArg (fun k => X (ix2 (Spec.node (Spec.srcW E e)) d) * Wc k) (idx_tr d j)

/-- A node's own row against the transposed self weights. -/
theorem dotS_apply (X : FVec Ideal S10000x128 .f32) (Ws : FVec Ideal S128x128 .f32) (i : Fin 10000) (j : Fin 128) :
    val_main_v29 (F := Ideal) X Ws (ix2 i j) = ∑ d : Fin 128, X (ix2 i d) * Ws (ix2 j d) := by
  rw [val_main_v29_apply]
  refine Finset.sum_congr rfl fun d _ => ?_
  have hl : lidx_main_v29 (ix2 i j) d = ix2 i d := by
    funext a; refine Fin.ext ?_
    match a with
    | ⟨0, _⟩ => rfl
    | ⟨1, _⟩ => rfl
  have hr : ridx_main_v29 (ix2 i j) d = ix2 d j := by
    funext a; refine Fin.ext ?_
    match a with
    | ⟨0, _⟩ => rfl
    | ⟨1, _⟩ => rfl
  rw [hl, hr, val_main_v28_apply]
  exact congrArg (fun k => X (ix2 i d) * Ws k) (idx_tr d j)

/-- The first type's bias spread over the edges. -/
theorem biasD_apply (bd : FVec Ideal S128 .f32) (e : Fin 640000) (j : Fin 128) :
    val_main_v14 (F := Ideal) bd (ix2 e j) = bd (ix1 j) := by
  rw [val_main_v14_apply, val_main_v13_apply]
  refine congrArg bd ?_
  funext a; refine Fin.ext ?_
  match a with
  | ⟨0, _⟩ => rfl

/-- The second type's bias spread over the edges. -/
theorem biasC_apply (bc : FVec Ideal S128 .f32) (e : Fin 640000) (j : Fin 128) :
    val_main_v19 (F := Ideal) bc (ix2 e j) = bc (ix1 j) := by
  rw [val_main_v19_apply, val_main_v18_apply]
  refine congrArg bc ?_
  funext a; refine Fin.ext ?_
  match a with
  | ⟨0, _⟩ => rfl

/-- The self bias spread over the nodes. -/
theorem biasS_apply (bs : FVec Ideal S128 .f32) (i : Fin 10000) (j : Fin 128) :
    val_main_v31 (F := Ideal) bs (ix2 i j) = bs (ix1 j) := by
  rw [val_main_v31_apply, val_main_v30_apply]
  refine congrArg bs ?_
  funext a; refine Fin.ext ?_
  match a with
  | ⟨0, _⟩ => rfl

/-- Edge `e`'s source row through the first type's map. -/
theorem linD_apply (X : FVec Ideal S10000x128 .f32) (E : IVec S2x640000 32) (Wd : FVec Ideal S128x128 .f32)
    (bd : FVec Ideal S128 .f32) (e : Fin 640000) (j : Fin 128) (h : 0 ≤ (Spec.srcW E e).toInt) :
    val_main_v15 (F := Ideal) X E Wd bd (ix2 e j) = Spec.lin X Wd bd (Spec.node (Spec.srcW E e)) j := by
  rw [val_main_v15_apply, dotD_apply X E Wd e j h, biasD_apply]
  rfl

/-- Edge `e`'s source row through the second type's map. -/
theorem linC_apply (X : FVec Ideal S10000x128 .f32) (E : IVec S2x640000 32) (Wc : FVec Ideal S128x128 .f32)
    (bc : FVec Ideal S128 .f32) (e : Fin 640000) (j : Fin 128) (h : 0 ≤ (Spec.srcW E e).toInt) :
    val_main_v20 (F := Ideal) X E Wc bc (ix2 e j) = Spec.lin X Wc bc (Spec.node (Spec.srcW E e)) j := by
  rw [val_main_v20_apply, dotC_apply X E Wc e j h, biasC_apply]
  rfl

/-- Node `i`'s own row through the self map. -/
theorem linS_apply (X : FVec Ideal S10000x128 .f32) (Ws : FVec Ideal S128x128 .f32) (bs : FVec Ideal S128 .f32)
    (i : Fin 10000) (j : Fin 128) :
    val_main_v32 (F := Ideal) X Ws bs (ix2 i j) = Spec.lin X Ws bs i j := by
  rw [val_main_v32_apply, dotS_apply, biasS_apply]
  rfl

/-! ## The kept row of an edge -/

/-- The type test spread over the columns: at any column of edge `e`, whether its type word is zero. -/
theorem isData_apply (T : IVec S640000 32) (e : Fin 640000) (j : Fin 128) :
    val_main_call0_v0 (F := Ideal) T (ix2 e j) = IntOp.cmpi .eq (T (ix1 e)) 0#32 := by
  rw [val_main_call0_v0_apply, val_main_v23_apply, val_main_v22_apply, val_main_v21_apply, val_main_c_1_apply]
  have hi : idx_main_v23 (idx_main_call0_v0 (ix2 e j)) = ix1 e := by
    funext a; refine Fin.ext ?_
    match a with
    | ⟨0, _⟩ => rfl
  rw [hi]

/-- The row kept for edge `e` is its message. -/
theorem msg_apply (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (e : Fin 640000) (j : Fin 128) (h : 0 ≤ (Spec.srcW E e).toInt) :
    val_main_v24 (F := Ideal) X E T Wd bd Wc bc (ix2 e j) = Spec.msg X E T Wd bd Wc bc e j := by
  rw [val_main_v24_apply, isData_apply, linD_apply X E Wd bd e j h, linC_apply X E Wc bc e j h]
  unfold Spec.msg
  by_cases ht : Spec.isData T e
  · rw [if_pos ht]
    exact if_pos (IntOp.cmpi_eq.mpr ht)
  · rw [if_neg ht]
    exact if_neg (fun hc => ht (IntOp.cmpi_eq.mp hc))

/-! ## The accumulation over the destination words -/

/-- The accumulator starts at zero. -/
theorem zero_apply (i : Fin 10000) (j : Fin 128) : val_main_v25 (F := Ideal) (ix2 i j) = 0 := by
  rw [val_main_v25_apply, val_main_cst_apply]
  exact Ideal.ofBits_zero_f32

/-- Entry `e` of the column of destination words. -/
theorem dstCol_apply (E : IVec S2x640000 32) (e : Fin 640000) :
    val_main_v26 (F := Ideal) E (SegmentSum.colIx e) = Spec.dstW E e := by
  rw [val_main_v26_apply]
  have hi : idx_main_v26 (SegmentSum.colIx e) = ix1 e := by
    funext a; refine Fin.ext ?_
    match a with
    | ⟨0, _⟩ => rfl
  rw [hi, dst_apply]

/-- Node `i` receives the messages of the edges whose destination word is `i`. -/
theorem agg_apply (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (hsrc : ∀ e : Fin 640000, 0 ≤ (Spec.srcW E e).toInt) (i : Fin 10000) (j : Fin 128) :
    val_main_v27 (F := Ideal) X E T Wd bd Wc bc (ix2 i j)
      = ∑ e ∈ Finset.univ.filter (fun e : Fin 640000 => (Spec.dstW E e).toInt = (i.val : Int)),
          Spec.msg X E T Wd bd Wc bc e j := by
  unfold val_main_v27
  refine (SegmentSum.scatterAdd_cols_host (P := 10000) (C := 128) (n := 640000)
    scatter_S10000x128_S640000x1_S640000x128_1_0_0_1_wf (val_main_v25 (F := Ideal)) (val_main_v26 (F := Ideal) E)
    (val_main_v24 (F := Ideal) X E T Wd bd Wc bc) i j).trans ?_
  rw [zero_apply, zero_add]
  have hset : (Finset.univ.filter fun e : Fin 640000 =>
        (val_main_v26 (F := Ideal) E (SegmentSum.colIx e)).toInt = (i.val : Int))
      = Finset.univ.filter fun e : Fin 640000 => (Spec.dstW E e).toInt = (i.val : Int) :=
    Finset.filter_congr fun e _ => by rw [dstCol_apply]
  rw [hset]
  exact Finset.sum_congr rfl fun e _ => msg_apply X E T Wd bd Wc bc e j (hsrc e)

/-! ## The result -/

/-- The comparand of the positive part is zero. -/
theorem reluZero_apply (i : Fin 10000) (j : Fin 128) : val_main_call1_v0 (F := Ideal) (ix2 i j) = 0 := by
  rw [val_main_call1_v0_apply, val_main_call1_cst_apply]
  exact Ideal.ofBits_zero_f32

/-- The last stage at node `i`, column `j`, is the layer. -/
theorem stage_apply (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (Ws : FVec Ideal S128x128 .f32) (bs : FVec Ideal S128 .f32)
    (hsrc : ∀ e : Fin 640000, 0 ≤ (Spec.srcW E e).toInt) (i : Fin 10000) (j : Fin 128) :
    val_main_v34 (F := Ideal) X E T Wd bd Wc bc Ws bs (ix2 i j) = Spec.G X E T Wd bd Wc bc Ws bs i j := by
  rw [val_main_v34_apply, val_main_v33_apply, agg_apply X E T Wd bd Wc bc hsrc i j, linS_apply, reluZero_apply]
  rfl

/-- THE REFERENCE'S RESULT at node `i`, column `j`, when every source word names a node: the layer edge by edge. -/
theorem ref_apply (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (Ws : FVec Ideal S128x128 .f32) (bs : FVec Ideal S128 .f32)
    (hsrc : ∀ e : Fin 640000, 0 ≤ (Spec.srcW E e).toInt ∧ (Spec.srcW E e).toInt < 10000) (i : Fin 10000) (j : Fin 128) :
    refTerm X E T Wd bd Wc bc Ws bs (ix2 i j) = Spec.G X E T Wd bd Wc bc Ws bs i j := by
  rw [refTerm_eq_stage]
  exact stage_apply X E T Wd bd Wc bc Ws bs (fun e => (hsrc e).1) i j

/-- The same as one function of the index. -/
theorem ref_eq (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (Ws : FVec Ideal S128x128 .f32) (bs : FVec Ideal S128 .f32)
    (hsrc : ∀ e : Fin 640000, 0 ≤ (Spec.srcW E e).toInt ∧ (Spec.srcW E e).toInt < 10000) :
    refTerm X E T Wd bd Wc bc Ws bs = fun idx : S10000x128.Idx => Spec.G X E T Wd bd Wc bc Ws bs (idx 0) (idx 1) := by
  funext idx
  obtain ⟨i, j, rfl⟩ : ∃ (i : Fin 10000) (j : Fin 128), idx = ix2 i j := ⟨idx 0, idx 1, eq_ix2 idx⟩
  exact ref_apply X E T Wd bd Wc bc Ws bs hsrc i j

/-- The same for the last stage of the program read operation by operation. -/
theorem stage_eq (X : FVec Ideal S10000x128 .f32) (E : IVec S2x640000 32) (T : IVec S640000 32)
    (Wd : FVec Ideal S128x128 .f32) (bd : FVec Ideal S128 .f32) (Wc : FVec Ideal S128x128 .f32) (bc : FVec Ideal S128 .f32)
    (Ws : FVec Ideal S128x128 .f32) (bs : FVec Ideal S128 .f32)
    (hsrc : ∀ e : Fin 640000, 0 ≤ (Spec.srcW E e).toInt ∧ (Spec.srcW E e).toInt < 10000) :
    val_main_v34 (F := Ideal) X E T Wd bd Wc bc Ws bs = fun idx : S10000x128.Idx => Spec.G X E T Wd bd Wc bc Ws bs (idx 0) (idx 1) :=
  (refTerm_eq_stage X E T Wd bd Wc bc Ws bs).symm.trans (ref_eq X E T Wd bd Wc bc Ws bs hsrc)

end Cert.ReferenceIdeal.RefValue

end
-- ==== Proof.LibScatterPairs.lean ====
/-
  A scatter-add of scalars at pairs of index words, read at one entry of the array it accumulates into.

  A scatter with an additive body whose scatter indices are an [n × 2] table of words adds update `i` to the entry
  of a two-dimensional operand that row `i` of the table names: its first word the row, its second word the column,
  both read signed and not clamped (a pair that names no entry of the operand contributes nothing). At the exact
  instance every entry therefore ends at its own value plus the sum of the updates whose pair of words names it:
  the operand becomes, entry by entry, a weighted count of the pairs.
-/
import Idealize.ShloMosaic.PureOps.Ideal
import Idealize.ShloMosaic.PureOps.Contract
import Idealize.ShloMosaic.Lib.ValueIdx

noncomputable section

namespace Idealize.ShloMosaic.ScatterPairs

open Idealize.ShloMosaic.ValueIdx

/-- The dimension numbers of a scatter of scalars at pairs of words: operand [R × S], words [n × 2], updates [n];
    both operand axes are inserted (a window is one entry), word 0 goes to axis 0 and word 1 to axis 1. -/
abbrev dimsPairs (R S n : Nat) (wf : ScatterDims.WF ⟨2, ![R, S]⟩ ⟨2, ![n, 2]⟩ ⟨1, ![n]⟩ [] [0, 1] [0, 1] 1) :
    ScatterDims ⟨2, ![R, S]⟩ ⟨2, ![n, 2]⟩ ⟨1, ![n]⟩ where
  updateWindowDims := []
  insertedWindowDims := [0, 1]
  scatterDimsToOperandDims := [0, 1]
  indexVectorDim := 1
  wf := wf

section Pairs
variable {R S n w : Nat} (wf : ScatterDims.WF ⟨2, ![R, S]⟩ ⟨2, ![n, 2]⟩ ⟨1, ![n]⟩ [] [0, 1] [0, 1] 1)

/-- Axis 0 of the operand starts at the first word of the row of the table the update's coordinate names. -/
private theorem pairs_start0 (j : (⟨1, ![n]⟩ : Shape).Idx) (idx : IVec ⟨2, ![n, 2]⟩ w) :
    (dimsPairs R S n wf).start j idx 0 = (idx (ix2 (j 0) (0 : Fin 2))).toInt := by
  unfold ScatterDims.start
  rw [dif_pos (show (0 : Fin 2) ∈ (dimsPairs R S n wf).scatterDimsToOperandDims from List.mem_cons_self)]
  congr 2
  funext b; refine Fin.ext ?_
  match b with
  | ⟨0, _⟩ => rfl
  | ⟨1, _⟩ => rfl

/-- Axis 1 of the operand starts at the second word of that row. -/
private theorem pairs_start1 (j : (⟨1, ![n]⟩ : Shape).Idx) (idx : IVec ⟨2, ![n, 2]⟩ w) :
    (dimsPairs R S n wf).start j idx 1 = (idx (ix2 (j 0) (1 : Fin 2))).toInt := by
  unfold ScatterDims.start
  rw [dif_pos (show (1 : Fin 2) ∈ (dimsPairs R S n wf).scatterDimsToOperandDims from
    List.mem_cons_of_mem _ List.mem_cons_self)]
  congr 2
  funext b; refine Fin.ext ?_
  match b with
  | ⟨0, _⟩ => rfl
  | ⟨1, _⟩ => rfl

/-- Both operand axes are inserted: no window coordinate on either. -/
private theorem pairs_window (j : (⟨1, ![n]⟩ : Shape).Idx) (a : Fin 2) :
    (dimsPairs R S n wf).window j a = 0 := by
  unfold ScatterDims.window
  have h : a ∉ (dimsPairs R S n wf).sKept := by
    show a ∉ (List.finRange 2).filter (· ∉ ([0, 1] : List (Fin 2)))
    revert a; decide
  rw [dif_neg h]

/-- An update lands on entry (r, s) exactly when its pair of words is (r, s). -/
private theorem pairs_resultIdx_iff (j : (⟨1, ![n]⟩ : Shape).Idx) (idx : IVec ⟨2, ![n, 2]⟩ w) (r : Fin R) (s : Fin S) :
    (dimsPairs R S n wf).resultIdx? j idx = some (ix2 r s)
      ↔ (idx (ix2 (j 0) (0 : Fin 2))).toInt = (r.val : Int) ∧ (idx (ix2 (j 0) (1 : Fin 2))).toInt = (s.val : Int) := by
  have hs0 : (⟨2, ![R, S]⟩ : Shape).size 0 = R := rfl
  have hs1 : (⟨2, ![R, S]⟩ : Shape).size 1 = S := rfl
  unfold ScatterDims.resultIdx?
  split
  · rename_i h
    rw [Option.some.injEq]
    constructor
    · intro he
      have h0 := congrArg Fin.val (congrFun he 0)
      have h1 := congrArg Fin.val (congrFun he 1)
      have g0 := h 0
      have g1 := h 1
      simp only [pairs_start0, pairs_start1, pairs_window] at h0 h1 g0 g1
      change _ = r.val at h0
      change _ = s.val at h1
      constructor <;> omega
    · rintro ⟨h0, h1⟩
      funext a
      refine Fin.ext ?_
      match a with
      | ⟨0, _⟩ =>
        show ((dimsPairs R S n wf).start j idx 0 + ((dimsPairs R S n wf).window j 0 : Int)).toNat = r.val
        rw [pairs_start0, pairs_window, h0]; omega
      | ⟨1, _⟩ =>
        show ((dimsPairs R S n wf).start j idx 1 + ((dimsPairs R S n wf).window j 1 : Int)).toNat = s.val
        rw [pairs_start1, pairs_window, h1]; omega
  · rename_i h
    constructor
    · intro he; exact absurd he (by simp)
    · rintro ⟨h0, h1⟩
      exfalso; apply h
      intro a
      match a with
      | ⟨0, _⟩ =>
        show 0 ≤ (dimsPairs R S n wf).start j idx 0 + ((dimsPairs R S n wf).window j 0 : Int)
          ∧ (dimsPairs R S n wf).start j idx 0 + ((dimsPairs R S n wf).window j 0 : Int) < ((⟨2, ![R, S]⟩ : Shape).size 0 : Nat)
        have := r.isLt
        rw [pairs_start0, pairs_window, h0, hs0]; omega
      | ⟨1, _⟩ =>
        show 0 ≤ (dimsPairs R S n wf).start j idx 1 + ((dimsPairs R S n wf).window j 1 : Int)
          ∧ (dimsPairs R S n wf).start j idx 1 + ((dimsPairs R S n wf).window j 1 : Int) < ((⟨2, ![R, S]⟩ : Shape).size 1 : Nat)
        have := s.isLt
        rw [pairs_start1, pairs_window, h1, hs1]; omega
end Pairs

/-- Entry (r, s) ends at its own value plus the sum of the updates whose pair of words is (r, s). -/
theorem scatterAdd_pairs_apply {R S n w : Nat} (wf : ScatterDims.WF ⟨2, ![R, S]⟩ ⟨2, ![n, 2]⟩ ⟨1, ![n]⟩ [] [0, 1] [0, 1] 1)
    (x : (⟨2, ![R, S]⟩ : Shape).Idx → EReal) (idx : IVec ⟨2, ![n, 2]⟩ w) (upd : (⟨1, ![n]⟩ : Shape).Idx → EReal)
    (r : Fin R) (s : Fin S) :
    Ideal.hostScatterAdd (dimsPairs R S n wf) x idx upd (ix2 r s)
      = x (ix2 r s) + ∑ i ∈ Finset.univ.filter (fun i : Fin n =>
          (idx (ix2 i (0 : Fin 2))).toInt = (r.val : Int) ∧ (idx (ix2 i (1 : Fin 2))).toInt = (s.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (pairs_resultIdx_iff wf j idx r s).mp hj'⟩
  · intro i hi
    have hi' := (Finset.mem_filter.mp hi).2
    exact Finset.mem_filter.mpr ⟨Finset.mem_univ _, (pairs_resultIdx_iff wf (ix1 i) idx r s).mpr hi'⟩
  · intro j _
    exact (eq_ix1 j).symm
  · intro i _
    rfl
  · intro j _
    exact congrArg upd (eq_ix1 j)

/-- The same read of the host's accumulating scatter at the exact instance. -/
theorem scatterAdd_pairs_host {R S n w : Nat} {φ : FTy}
    (wf : ScatterDims.WF ⟨2, ![R, S]⟩ ⟨2, ![n, 2]⟩ ⟨1, ![n]⟩ [] [0, 1] [0, 1] 1)
    (x : FVec Ideal ⟨2, ![R, S]⟩ φ) (idx : IVec ⟨2, ![n, 2]⟩ w) (upd : FVec Ideal ⟨1, ![n]⟩ φ)
    (r : Fin R) (s : Fin S) :
    Host.scatterAdd (dimsPairs R S n wf) x idx upd (ix2 r s)
      = x (ix2 r s) + ∑ i ∈ Finset.univ.filter (fun i : Fin n =>
          (idx (ix2 i (0 : Fin 2))).toInt = (r.val : Int) ∧ (idx (ix2 i (1 : Fin 2))).toInt = (s.val : Int)), upd (ix1 i) :=
  scatterAdd_pairs_apply wf x idx upd r s

end Idealize.ShloMosaic.ScatterPairs

end
-- ==== Proof.KI.Head.lean ====
/-
  What the host operations before the kernel region leave in the two adjacency arrays, read at one entry.

  The program takes the two rows of edge end points (row 0 the sources, row 1 the destinations), adds the padded
  extent 10240 to every negative word, sets the normalised destination and source words side by side as an
  [edges × 2] table of pairs, and accumulates into a zero [10240 × 10240] array, at each edge's pair, a unit weight:
  for the first array the weight is one when the edge's type word is zero and zero otherwise, for the second array
  the other way round. Narrowing the result to the shorter float type changes nothing over the extended reals. Read
  at (r, s) each array is therefore the number of edges of its type whose normalised pair is (r, s).

  The buffers' contents are followed stretch by stretch of host operations: each stretch is read over an arbitrary
  earlier valuation, and the stretches are then chained at the launch memory.
-/
import proofs.«424744_j9517647528114_2_alg».proof.Proof.KI.Vals
import proofs.«424744_j9517647528114_2_alg».proof.Proof.Spec
import proofs.«424744_j9517647528114_2_alg».proof.Proof.LibScatterPairs
import Idealize.ShloMosaic.Lib.ValueLayout
import Idealize.ShloMosaic.Lib.IdealHost
import Idealize.ShloMosaic.Lib.Pipeline.Value
import Idealize.ShloMosaic.Lib.StableHlo.Predicate

noncomputable section

namespace Cert.KernelIdeal.HeadVal

open Idealize.ShloMosaic Idealize.ShloMosaic.TcCoe Idealize.ShloMosaic.ValueIdx
open Idealize.SL Idealize.SL.Sem
open Cert.KernelIdeal Cert.KernelIdeal.Gen Cert.KernelIdeal.Hand
open Idealize.ShloMosaic.StableHlo

/-- A buffer's contents as an array of words, and as an array of extended reals (the identity, naming the type). -/
abbrev asI (s : Shape) (w : Nat) (x : s.Idx → BitVec w) : s.Idx → BitVec w := x
@[inherit_doc asI]
abbrev asF (s : Shape) (x : s.Idx → EReal) : s.Idx → EReal := x

/-! ## Words -/

/-- A word through the padded program's normalisation: a negative word has the padded extent added. -/
theorem norm_word (w : BitVec 32) :
    Scalar.select (IntOp.cmpi .slt w 0#32) (IntOp.addi w 10240#32) w = Cert.Spec.norm w := by
  have h : IntOp.cmpi .slt w 0#32 = 1#1 ↔ w.toInt < 0 := by
    show BitVec.ofBool (w.slt 0#32) = 1#1 ↔ _
    rw [Predicate.ofBool_eq_one_iff, BitVec.slt]
    simp
  unfold Cert.Spec.norm Scalar.select
  show (if IntOp.cmpi .slt w 0#32 = 1#1 then _ else _) = _
  by_cases hw : w.toInt < 0
  · rw [if_pos (h.mpr hw), if_pos hw]; rfl
  · rw [if_neg (fun e => hw (h.mp e)), if_neg hw]

/-- A choice on "the type word is zero". -/
theorem type_select {α : Type} (t : BitVec 32) (a b : α) :
    Scalar.select (IntOp.cmpi .eq t 0#32) a b = if t = 0#32 then a else b := by
  unfold Scalar.select
  show (if IntOp.cmpi .eq t 0#32 = 1#1 then _ else _) = _
  by_cases ht : t = 0#32
  · rw [if_pos (Predicate.cmpi_eq_iff.mpr ht), if_pos ht]
  · rw [if_neg (fun e => ht (Predicate.cmpi_eq_iff.mp e)), if_neg ht]

/-! ## Layout reads -/

/-- Row 0 of the edge end points as a vector, at `e`. -/
theorem src_read (E : IVec S2x640000 32) (hS : S2x640000.Slices ![0, 0] S1x640000) (hC : S1x640000.ShapeCasts S640000)
    (e : Fin 640000) :
    shapeCast S640000 (extractStridedSlice S1x640000 ![0, 0] E hS) hC (ix1 e) = E (ix2 (0 : Fin 2) e) := by
  rw [shapeCast_apply _ _ (ix1 e) (ix2 (0 : Fin 1) e)
    (by rw [Shape.rowMajor_val_two, Shape.rowMajor_val_one]; show 0 * 640000 + e.val = e.val; omega)]
  exact extractStridedSlice_apply _ _ _ _ (ix2 (0 : Fin 2) e) (fun a => by
    match a with
    | ⟨0, _⟩ => rfl
    | ⟨1, _⟩ => show e.val = 0 + e.val; omega)

/-- Row 1 of the edge end points as a vector, at `e`. -/
theorem dst_read (E : IVec S2x640000 32) (hS : S2x640000.Slices ![1, 0] S1x640000) (hC : S1x640000.ShapeCasts S640000)
    (e : Fin 640000) :
    shapeCast S640000 (extractStridedSlice S1x640000 ![1, 0] E hS) hC (ix1 e) = E (ix2 (1 : Fin 2) e) := by
  rw [shapeCast_apply _ _ (ix1 e) (ix2 (0 : Fin 1) e)
    (by rw [Shape.rowMajor_val_two, Shape.rowMajor_val_one]; show 0 * 640000 + e.val = e.val; omega)]
  exact extractStridedSlice_apply _ _ _ _ (ix2 (1 : Fin 2) e) (fun a => by
    match a with
    | ⟨0, _⟩ => rfl
    | ⟨1, _⟩ => show e.val = 0 + e.val; omega)

/-- A vector as an [n × 1] column reads, at (e, 0), the vector at `e`. -/
theorem col_read {α : Type} (v : S640000.Idx → α) (h : S640000.BroadcastsInDim S640000x1 ![0]) (e : Fin 640000) :
    broadcastInDim S640000x1 ![0] h v (ix2 e (0 : Fin 1)) = v (ix1 e) :=
  broadcastInDim_apply _ _ _ _ (ix1 e) (fun a => by
    match a with
    | ⟨0, _⟩ => exact (if_neg (show ¬ (640000 : Nat) = 1 by decide)).symm)

/-- Two columns side by side: column 0 is the first. -/
theorem pair_read0 {α : Type} (a b : S640000x1.Idx → α) (h : Shape.Concatenates [S640000x1, S640000x1] S640000x2 1)
    (e : Fin 640000) :
    concatenate S640000x2 1 [⟨S640000x1, a⟩, ⟨S640000x1, b⟩] h (ix2 e (0 : Fin 2)) = a (ix2 e (0 : Fin 1)) :=
  concatenate_pair_apply_left 1 a b h _ rfl (ix2 e (0 : Fin 1)) (fun c => by
    match c with
    | ⟨0, _⟩ => rfl
    | ⟨1, _⟩ => rfl)

/-- Two columns side by side: column 1 is the second. -/
theorem pair_read1 {α : Type} (a b : S640000x1.Idx → α) (h : Shape.Concatenates [S640000x1, S640000x1] S640000x2 1)
    (e : Fin 640000) :
    concatenate S640000x2 1 [⟨S640000x1, a⟩, ⟨S640000x1, b⟩] h (ix2 e (1 : Fin 2)) = b (ix2 e (0 : Fin 1)) :=
  concatenate_pair_apply_right 1 a b h _ rfl rfl (ix2 e (0 : Fin 1)) (fun c hc => by
    match c with
    | ⟨0, _⟩ => rfl
    | ⟨1, _⟩ => exact absurd rfl hc) rfl

/-- The padded program's normalised word column, at (i, 0). -/
theorem norm_col (a : IVec S640000 32) (h : S640000.BroadcastsInDim S640000x1 ![0])
    (h0 : S_.BroadcastsInDim S640000 (![] : Fin 0 → Fin S640000.rank)) (i : Fin 640000) :
    broadcastInDim S640000x1 ![0] h
        (select (cmpi .slt a (broadcastInDim S640000 ![] h0 (constantI S_ 32 0#32)))
          (addi a (broadcastInDim S640000 ![] h0 (constantI S_ 32 10240#32))) a) (ix2 i (0 : Fin 1))
      = Cert.Spec.norm (a (ix1 i)) := by
  rw [col_read]
  exact norm_word (a (ix1 i))

/-- The accumulation of scalars at the pairs two word columns name, read at an entry. -/
theorem pairs_read (x : FVec Ideal S10240x10240 .f32) (A B : IVec S640000x1 32) (upd : FVec Ideal S640000 .f32)
    (hcat : Shape.Concatenates [S640000x1, S640000x1] S640000x2 1) (r s : Fin 10240) :
    Host.scatterAdd scatter_S10240x10240_S640000x2_S640000_n_01_01_1 x
        (concatenate S640000x2 1 [⟨S640000x1, A⟩, ⟨S640000x1, B⟩] hcat) upd (ix2 r s)
      = x (ix2 r s) + ∑ i ∈ Finset.univ.filter (fun i : Fin 640000 =>
          (A (ix2 i (0 : Fin 1))).toInt = (r.val : Int) ∧ (B (ix2 i (0 : Fin 1))).toInt = (s.val : Int)), upd (ix1 i) := by
  rw [show scatter_S10240x10240_S640000x2_S640000_n_01_01_1
      = ScatterPairs.dimsPairs 10240 10240 640000 Facts₀.scatter_S10240x10240_S640000x2_S640000_n_01_01_1_wf from rfl,
    ScatterPairs.scatterAdd_pairs_host]
  refine congrArg (x (ix2 r s) + ·) (Finset.sum_congr (Finset.filter_congr fun i _ => ?_) fun _ _ => rfl)
  rw [pair_read0, pair_read1]

/-- A zero array plus unit weights accumulated at the normalised pairs is the count of the edges of one type. -/
theorem adj_of_reads (E : IVec Cert.Spec.SE 32) (T : IVec Cert.Spec.ST 32) (sel : Bool) (x0 : EReal)
    (a3 a1 : S640000.Idx → BitVec 32) (u : S640000.Idx → EReal) (r s : Fin 10240)
    (hx : x0 = 0) (h3 : ∀ i, a3 (ix1 i) = Cert.Spec.dstW E i) (h1 : ∀ i, a1 (ix1 i) = Cert.Spec.srcW E i)
    (hu : ∀ i, u (ix1 i) = if decide (Cert.Spec.isData T i) = sel then (1 : EReal) else 0) :
    x0 + ∑ i ∈ Finset.univ.filter (fun i : Fin 640000 =>
        (Cert.Spec.norm (a3 (ix1 i))).toInt = (r.val : Int) ∧ (Cert.Spec.norm (a1 (ix1 i))).toInt = (s.val : Int)), u (ix1 i)
      = Cert.Spec.adj E T sel r s := by
  unfold Cert.Spec.adj
  rw [hx, zero_add]
  refine Finset.sum_congr (Finset.filter_congr fun i _ => ?_) fun i _ => hu i
  rw [h3, h1]

/-! ## One stretch of host operations over any earlier contents -/

section Stretch
variable (V : Valuation τ sig (Elt Ideal))

/-- The first array's accumulation over any earlier contents: the accumulated-into array plus the weights at the pairs. -/
theorem stretch2_v23 (r s : Fin 10240) :
    asF S10240x10240 (after hostOps0_2 V (Proc.devRef .tc main_v23)) (ix2 r s)
      = asF S10240x10240 (V (Proc.devRef .tc main_v8)) (ix2 r s)
        + ∑ i ∈ Finset.univ.filter (fun i : Fin 640000 =>
            (Cert.Spec.norm (asI S640000 32 (V (Proc.devRef .tc main_v3)) (ix1 i))).toInt = (r.val : Int)
            ∧ (Cert.Spec.norm (asI S640000 32 (V (Proc.devRef .tc main_v1)) (ix1 i))).toInt = (s.val : Int)),
          asF S640000 (V (Proc.devRef .tc main_v9)) (ix1 i) := by
  dsimp only [asF, asI]
  simp only [hostOps0_2]
  after_results_simp
  rw [pairs_read]
  after_results_simp
  refine congrArg _ (Finset.sum_congr (Finset.filter_congr fun i _ => ?_) fun _ _ => rfl)
  exact Iff.of_eq (congrArg₂ And (congrArg (fun w : BitVec 32 => w.toInt = (r.val : Int)) (norm_col _ _ _ i))
    (congrArg (fun w : BitVec 32 => w.toInt = (s.val : Int)) (norm_col _ _ _ i)))

/-- The second array's accumulation, narrowed, over any earlier contents. -/
theorem stretch4_v41 (r s : Fin 10240) :
    asF S10240x10240 (after hostOps0_4 V (Proc.devRef .tc main_v41)) (ix2 r s)
      = asF S10240x10240 (V (Proc.devRef .tc main_v24)) (ix2 r s)
        + ∑ i ∈ Finset.univ.filter (fun i : Fin 640000 =>
            (Cert.Spec.norm (asI S640000 32 (V (Proc.devRef .tc main_v3)) (ix1 i))).toInt = (r.val : Int)
            ∧ (Cert.Spec.norm (asI S640000 32 (V (Proc.devRef .tc main_v1)) (ix1 i))).toInt = (s.val : Int)),
          asF S640000 (V (Proc.devRef .tc main_v25)) (ix1 i) := by
  dsimp only [asF, asI]
  simp only [hostOps0_4]
  after_results_simp
  rw [truncf_apply, pairs_read]
  after_results_simp
  refine congrArg _ (Finset.sum_congr (Finset.filter_congr fun i _ => ?_) fun _ _ => rfl)
  exact Iff.of_eq (congrArg₂ And (congrArg (fun w : BitVec 32 => w.toInt = (r.val : Int)) (norm_col _ _ _ i))
    (congrArg (fun w : BitVec 32 => w.toInt = (s.val : Int)) (norm_col _ _ _ i)))

/-- The first array narrowed is the first array. -/
theorem stretch4_v40 (r s : Fin 10240) :
    asF S10240x10240 (after hostOps0_4 V (Proc.devRef .tc main_v40)) (ix2 r s)
      = asF S10240x10240 (V (Proc.devRef .tc main_v23)) (ix2 r s) := by
  dsimp only [asF]
  simp only [hostOps0_4]
  after_results_simp
  rfl

end Stretch

/-! ## What each stretch leaves alone -/

/-- The selection of the first type's weights writes none of the word rows, the type test, the constant vectors. -/
theorem keep1 (V : Valuation τ sig (Elt Ideal)) :
    after hostOps0_1 V (Proc.devRef .tc main_v1) = V (Proc.devRef .tc main_v1)
      ∧ after hostOps0_1 V (Proc.devRef .tc main_v3) = V (Proc.devRef .tc main_v3)
      ∧ after hostOps0_1 V (Proc.devRef .tc main_v5) = V (Proc.devRef .tc main_v5)
      ∧ after hostOps0_1 V (Proc.devRef .tc main_v6) = V (Proc.devRef .tc main_v6)
      ∧ after hostOps0_1 V (Proc.devRef .tc main_v7) = V (Proc.devRef .tc main_v7)
      ∧ after hostOps0_1 V (Proc.devRef .tc main_v8) = V (Proc.devRef .tc main_v8) := by
  simp only [hostOps0_1]
  after_results_simp
  simp only [and_self]

/-- Nor does the first array's accumulation. -/
theorem keep2 (V : Valuation τ sig (Elt Ideal)) :
    after hostOps0_2 V (Proc.devRef .tc main_v1) = V (Proc.devRef .tc main_v1)
      ∧ after hostOps0_2 V (Proc.devRef .tc main_v3) = V (Proc.devRef .tc main_v3)
      ∧ after hostOps0_2 V (Proc.devRef .tc main_v5) = V (Proc.devRef .tc main_v5)
      ∧ after hostOps0_2 V (Proc.devRef .tc main_v6) = V (Proc.devRef .tc main_v6)
      ∧ after hostOps0_2 V (Proc.devRef .tc main_v7) = V (Proc.devRef .tc main_v7) := by
  simp only [hostOps0_2]
  after_results_simp
  simp only [and_self]

/-- The selection of the second type's weights writes neither the word rows nor the first array nor the second array's zeros. -/
theorem keep3 (V : Valuation τ sig (Elt Ideal)) :
    after hostOps0_3 V (Proc.devRef .tc main_v1) = V (Proc.devRef .tc main_v1)
      ∧ after hostOps0_3 V (Proc.devRef .tc main_v3) = V (Proc.devRef .tc main_v3)
      ∧ after hostOps0_3 V (Proc.devRef .tc main_v23) = V (Proc.devRef .tc main_v23)
      ∧ after hostOps0_3 V (Proc.devRef .tc main_v24) = V (Proc.devRef .tc main_v24) := by
  simp only [hostOps0_3]
  after_results_simp
  simp only [and_self]

/-! ## The stretches chained at the launch memory -/

section Chain
variable (m : (ℓ : Loc nD τ sig) → Buf (Elt Ideal) ℓ) (c : Dev nD)

theorem k1_v1 : W2 m c (Proc.devRef .tc main_v1) = W1 m c (Proc.devRef .tc main_v1) := (keep1 (W1 m c)).1
theorem k1_v3 : W2 m c (Proc.devRef .tc main_v3) = W1 m c (Proc.devRef .tc main_v3) := (keep1 (W1 m c)).2.1
theorem k1_v5 : W2 m c (Proc.devRef .tc main_v5) = W1 m c (Proc.devRef .tc main_v5) := (keep1 (W1 m c)).2.2.1
theorem k1_v6 : W2 m c (Proc.devRef .tc main_v6) = W1 m c (Proc.devRef .tc main_v6) := (keep1 (W1 m c)).2.2.2.1
theorem k1_v7 : W2 m c (Proc.devRef .tc main_v7) = W1 m c (Proc.devRef .tc main_v7) := (keep1 (W1 m c)).2.2.2.2.1
theorem k1_v8 : W2 m c (Proc.devRef .tc main_v8) = W1 m c (Proc.devRef .tc main_v8) := (keep1 (W1 m c)).2.2.2.2.2
theorem k2_v1 : W3 m c (Proc.devRef .tc main_v1) = W2 m c (Proc.devRef .tc main_v1) := (keep2 (W2 m c)).1
theorem k2_v3 : W3 m c (Proc.devRef .tc main_v3) = W2 m c (Proc.devRef .tc main_v3) := (keep2 (W2 m c)).2.1
theorem k2_v5 : W3 m c (Proc.devRef .tc main_v5) = W2 m c (Proc.devRef .tc main_v5) := (keep2 (W2 m c)).2.2.1
theorem k2_v6 : W3 m c (Proc.devRef .tc main_v6) = W2 m c (Proc.devRef .tc main_v6) := (keep2 (W2 m c)).2.2.2.1
theorem k2_v7 : W3 m c (Proc.devRef .tc main_v7) = W2 m c (Proc.devRef .tc main_v7) := (keep2 (W2 m c)).2.2.2.2
theorem k3_v1 : W4 m c (Proc.devRef .tc main_v1) = W3 m c (Proc.devRef .tc main_v1) := (keep3 (W3 m c)).1
theorem k3_v3 : W4 m c (Proc.devRef .tc main_v3) = W3 m c (Proc.devRef .tc main_v3) := (keep3 (W3 m c)).2.1
theorem k3_v23 : W4 m c (Proc.devRef .tc main_v23) = W3 m c (Proc.devRef .tc main_v23) := (keep3 (W3 m c)).2.2.1
theorem k3_v24 : W4 m c (Proc.devRef .tc main_v24) = W3 m c (Proc.devRef .tc main_v24) := (keep3 (W3 m c)).2.2.2

/-- After the first stretch: the source words. -/
theorem p1_v1 (i : Fin 640000) :
    asI S640000 32 (W1 m c (Proc.devRef .tc main_v1)) (ix1 i) = Cert.Spec.srcW (m ((c : Thread nD τ).loc main_arg1)) i := by
  dsimp only [asI, W1]
  simp only [hostOps0]
  after_results_simp
  exact src_read _ _ _ i

/-- The destination words. -/
theorem p1_v3 (i : Fin 640000) :
    asI S640000 32 (W1 m c (Proc.devRef .tc main_v3)) (ix1 i) = Cert.Spec.dstW (m ((c : Thread nD τ).loc main_arg1)) i := by
  dsimp only [asI, W1]
  simp only [hostOps0]
  after_results_simp
  exact dst_read _ _ _ i

/-- The test "the type word is zero". -/
theorem p1_v5 (i : Fin 640000) :
    asI S640000 1 (W1 m c (Proc.devRef .tc main_v5)) (ix1 i) = IntOp.cmpi .eq ((m ((c : Thread nD τ).loc main_arg2)) (ix1 i)) 0#32 := by
  dsimp only [asI, W1]
  simp only [hostOps0]
  after_results_simp
  rfl

/-- The vector of ones. -/
theorem p1_v6 (i : Fin 640000) : asF S640000 (W1 m c (Proc.devRef .tc main_v6)) (ix1 i) = 1 := by
  dsimp only [asF, W1]
  simp only [hostOps0]
  after_results_simp
  exact Ideal.ofBits_one_f32

/-- The vector of zeros. -/
theorem p1_v7 (i : Fin 640000) : asF S640000 (W1 m c (Proc.devRef .tc main_v7)) (ix1 i) = 0 := by
  dsimp only [asF, W1]
  simp only [hostOps0]
  after_results_simp
  exact Ideal.ofBits_zero_f32

/-- The zero array the first accumulation starts from. -/
theorem p1_v8 (r s : Fin 10240) : asF S10240x10240 (W1 m c (Proc.devRef .tc main_v8)) (ix2 r s) = 0 := by
  dsimp only [asF, W1]
  simp only [hostOps0]
  after_results_simp
  exact Ideal.ofBits_zero_f32

/-- A unit weight chosen on the type test, against the count's own test. -/
theorem weight_eq (T : IVec Cert.Spec.ST 32) (i : Fin 640000) (sel : Bool) (a b : EReal)
    (ha : a = if sel then 1 else 0) (hb : b = if sel then 0 else 1) :
    (if T (ix1 i) = 0#32 then a else b) = if decide (Cert.Spec.isData T i) = sel then (1 : EReal) else 0 := by
  subst ha hb
  by_cases h : T (ix1 i) = 0#32
  · have hd : decide (Cert.Spec.isData T i) = true := decide_eq_true (show Cert.Spec.isData T i from h)
    rw [if_pos h, hd]; cases sel <;> simp
  · have hd : decide (Cert.Spec.isData T i) = false := decide_eq_false (show ¬ Cert.Spec.isData T i from h)
    rw [if_neg h, hd]; cases sel <;> simp

/-- After the second stretch: the first type's unit weights. -/
theorem p2_v9 (i : Fin 640000) :
    asF S640000 (W2 m c (Proc.devRef .tc main_v9)) (ix1 i)
      = if decide (Cert.Spec.isData (m ((c : Thread nD τ).loc main_arg2)) i) = true then (1 : EReal) else 0 := by
  dsimp only [asF, W2]
  simp only [hostOps0_1]
  after_results_simp
  simp only [TRef.ofBuf, TRef.toBuf, cast_eq]
  rw [select_apply]
  show Scalar.select (IntOp.cmpi .eq ((m ((c : Thread nD τ).loc main_arg2)) (ix1 i)) 0#32) (Ideal.ofBits .f32 0x3F800000#32) (Ideal.ofBits .f32 0x00000000#32) = _
  rw [type_select, Ideal.ofBits_one_f32, Ideal.ofBits_zero_f32]
  exact weight_eq _ i true 1 0 rfl rfl

/-- After the third stretch: the first adjacency array (in the wide float type). -/
theorem p3_v23 (r s : Fin 10240) :
    asF S10240x10240 (W3 m c (Proc.devRef .tc main_v23)) (ix2 r s) = Cert.Spec.adj (m ((c : Thread nD τ).loc main_arg1)) (m ((c : Thread nD τ).loc main_arg2)) true r s := by
  dsimp only [W3]
  rw [stretch2_v23 (W2 m c) r s]
  refine adj_of_reads _ _ true _ _ _ _ r s ?_ (fun i => ?_) (fun i => ?_) (fun i => p2_v9 m c i)
  · rw [k1_v8]; exact p1_v8 m c r s
  · rw [k1_v3]; exact p1_v3 m c i
  · rw [k1_v1]; exact p1_v1 m c i

/-- The zero array the second accumulation starts from. -/
theorem p3_v24 (r s : Fin 10240) : asF S10240x10240 (W3 m c (Proc.devRef .tc main_v24)) (ix2 r s) = 0 := by
  dsimp only [asF, W3]
  simp only [hostOps0_2]
  after_results_simp
  exact Ideal.ofBits_zero_f32

/-- After the fourth stretch: the second type's unit weights. -/
theorem p4_v25 (i : Fin 640000) :
    asF S640000 (W4 m c (Proc.devRef .tc main_v25)) (ix1 i)
      = if decide (Cert.Spec.isData (m ((c : Thread nD τ).loc main_arg2)) i) = false then (1 : EReal) else 0 := by
  dsimp only [asF, W4]
  simp only [hostOps0_3]
  after_results_simp
  simp only [TRef.ofBuf, TRef.toBuf, cast_eq]
  rw [select_apply]
  show Scalar.select (IntOp.cmpi .eq ((m ((c : Thread nD τ).loc main_arg2)) (ix1 i)) 0#32) (Ideal.ofBits .f32 0x00000000#32) (Ideal.ofBits .f32 0x3F800000#32) = _
  rw [type_select, Ideal.ofBits_one_f32, Ideal.ofBits_zero_f32]
  exact weight_eq _ i false 0 1 rfl rfl

/-- THE FIRST ADJACENCY ARRAY the region is entered at, at (r, s): the number of first-type edges from `s` to `r`. -/
theorem head_v40 (r s : Fin 10240) :
    asF S10240x10240 (V5 m c main_v40) (ix2 r s) = Cert.Spec.adj (m ((c : Thread nD τ).loc main_arg1)) (m ((c : Thread nD τ).loc main_arg2)) true r s := by
  dsimp only [V5, W5]
  rw [stretch4_v40 (W4 m c) r s, k3_v23]
  exact p3_v23 m c r s

/-- THE SECOND ADJACENCY ARRAY the region is entered at, at (r, s): the number of other-type edges from `s` to `r`. -/
theorem head_v41 (r s : Fin 10240) :
    asF S10240x10240 (V5 m c main_v41) (ix2 r s) = Cert.Spec.adj (m ((c : Thread nD τ).loc main_arg1)) (m ((c : Thread nD τ).loc main_arg2)) false r s := by
  dsimp only [V5, W5]
  rw [stretch4_v41 (W4 m c) r s]
  refine adj_of_reads _ _ false _ _ _ _ r s ?_ (fun i => ?_) (fun i => ?_) (fun i => p4_v25 m c i)
  · rw [k3_v24]; exact p3_v24 m c r s
  · rw [k3_v3, k2_v3, k1_v3]; exact p1_v3 m c i
  · rw [k3_v1, k2_v1, k1_v1]; exact p1_v1 m c i

/-- The same two reads with the buffers applied directly. -/
theorem head_v40_raw (r s : Fin 10240) :
    V5 m c main_v40 (ix2 r s) = Cert.Spec.adj (m ((c : Thread nD τ).loc main_arg1)) (m ((c : Thread nD τ).loc main_arg2)) true r s := head_v40 m c r s
@[inherit_doc head_v40_raw]
theorem head_v41_raw (r s : Fin 10240) :
    V5 m c main_v41 (ix2 r s) = Cert.Spec.adj (m ((c : Thread nD τ).loc main_arg1)) (m ((c : Thread nD τ).loc main_arg2)) false r s := head_v41 m c r s

end Chain

end Cert.KernelIdeal.HeadVal

end
-- ==== Proof.LibScatterWindow.lean ====
/-
  A scatter that writes one window of whole rows into a two-dimensional array, read at one entry of the result.

  A scatter whose body returns the update, with ONE scatter index (a single word, the row at which the window
  starts, read signed and not clamped) and updates of [M × C] written over an operand of [R × C], replaces the
  entry (t + p, c) of the operand by the update's entry (p, c) for every row `p` of the window whose target row
  `t + p` lies in the operand, and leaves every other entry as it was. The scatter is a fold over the update's
  entries, each writing one place; as no two entries of one window write the same place, the fold's result at a
  place is the one update written there, or the operand's value when none is.
-/
import Idealize.ShloMosaic.PureOps.ShapeOps
import Idealize.ShloMosaic.Lib.ValueIdx

noncomputable section

namespace Idealize.ShloMosaic.ScatterWindow

open Idealize.ShloMosaic.ValueIdx

/-! ## Writes folded over a list -/

section Fold
variable {ι κ α : Type} (g : κ → Option ι) (v : κ → α) (step : (ι → α) → κ → ι → α)

/-- A place none of the writes names keeps its value. -/
theorem foldl_write_miss (hne : ∀ r n i', g n ≠ some i' → step r n i' = r i')
    (l : List κ) (x : ι → α) (i' : ι) (h : ∀ n ∈ l, g n ≠ some i') :
    l.foldl step x i' = x i' := by
  induction l generalizing x with
  | nil => rfl
  | cons n l ih =>
    rw [List.foldl_cons, ih _ (fun m hm => h m (List.mem_cons_of_mem _ hm)), hne _ _ _ (h n List.mem_cons_self)]

/-- A place holding `c`, written only by writes of `c`, holds `c` at the end. -/
theorem foldl_write_const (hne : ∀ r n i', g n ≠ some i' → step r n i' = r i')
    (heq : ∀ r n i', g n = some i' → step r n i' = v n)
    (l : List κ) (x : ι → α) (i' : ι) (c : α) (hx : x i' = c) (h : ∀ n ∈ l, g n = some i' → v n = c) :
    l.foldl step x i' = c := by
  induction l generalizing x with
  | nil => exact hx
  | cons n l ih =>
    rw [List.foldl_cons]
    refine ih _ ?_ (fun m hm => h m (List.mem_cons_of_mem _ hm))
    by_cases hn : g n = some i'
    · rw [heq _ _ _ hn]; exact h n List.mem_cons_self hn
    · rw [hne _ _ _ hn]; exact hx

/-- A place that exactly one element of the list writes holds that element's value at the end. -/
theorem foldl_write_hit (hne : ∀ r n i', g n ≠ some i' → step r n i' = r i')
    (heq : ∀ r n i', g n = some i' → step r n i' = v n)
    (l : List κ) (x : ι → α) (i' : ι) (n₀ : κ) (hmem : n₀ ∈ l) (h₀ : g n₀ = some i')
    (huniq : ∀ n ∈ l, g n = some i' → n = n₀) :
    l.foldl step x i' = v n₀ := by
  obtain ⟨l₁, l₂, rfl⟩ := List.append_of_mem hmem
  rw [List.foldl_append, List.foldl_cons]
  refine foldl_write_const g v step hne heq l₂ _ i' (v n₀) (heq _ _ _ h₀) ?_
  intro m hm hgm
  rw [huniq m (List.mem_append_right _ (List.mem_cons_of_mem _ hm)) hgm]

end Fold

/-! ## One window of whole rows -/

/-- The dimension numbers of a scatter of one window of rows: operand [R × C], one word (the start row), updates
    [M × C]; both update axes are window axes, no operand axis is inserted, the word goes to axis 0. -/
abbrev dimsRowWindow (R C M : Nat) (wf : ScatterDims.WF ⟨2, ![R, C]⟩ ⟨1, ![1]⟩ ⟨2, ![M, C]⟩ [0, 1] [] [0] 0) :
    ScatterDims ⟨2, ![R, C]⟩ ⟨1, ![1]⟩ ⟨2, ![M, C]⟩ where
  updateWindowDims := [0, 1]
  insertedWindowDims := []
  scatterDimsToOperandDims := [0]
  indexVectorDim := 0
  wf := wf

section Window
variable {R C M w : Nat} (wf : ScatterDims.WF ⟨2, ![R, C]⟩ ⟨1, ![1]⟩ ⟨2, ![M, C]⟩ [0, 1] [] [0] 0)

/-- Axis 0 of the operand starts at the one word. -/
private theorem win_start0 (j : (⟨2, ![M, C]⟩ : Shape).Idx) (idx : IVec ⟨1, ![1]⟩ w) :
    (dimsRowWindow R C M wf).start j idx 0 = (idx (ix1 (0 : Fin 1))).toInt := by
  unfold ScatterDims.start
  rw [dif_pos (show (0 : Fin 2) ∈ (dimsRowWindow R C M wf).scatterDimsToOperandDims from List.mem_singleton.mpr rfl)]
  congr 2
  funext b; refine Fin.ext ?_
  match b with
  | ⟨0, _⟩ => rfl

/-- Axis 1 of the operand is not named by the map: its start is 0. -/
private theorem win_start1 (j : (⟨2, ![M, C]⟩ : Shape).Idx) (idx : IVec ⟨1, ![1]⟩ w) :
    (dimsRowWindow R C M wf).start j idx 1 = 0 := by
  unfold ScatterDims.start
  rw [dif_neg (show (1 : Fin 2) ∉ ([0] : List (Fin 2)) by decide)]

/-- Axis 0 of the operand is a window axis: its window coordinate is the update's first coordinate. -/
private theorem win_window0 (j : (⟨2, ![M, C]⟩ : Shape).Idx) :
    (dimsRowWindow R C M wf).window j 0 = (j 0).val := by
  unfold ScatterDims.window
  have h : (0 : Fin 2) ∈ (dimsRowWindow R C M wf).sKept :=
    show (0 : Fin 2) ∈ (List.finRange 2).filter (· ∉ ([] : List (Fin 2))) by decide
  rw [dif_pos h]
  rfl

/-- Axis 1 of the operand is a window axis: its window coordinate is the update's second coordinate. -/
private theorem win_window1 (j : (⟨2, ![M, C]⟩ : Shape).Idx) :
    (dimsRowWindow R C M wf).window j 1 = (j 1).val := by
  unfold ScatterDims.window
  have h : (1 : Fin 2) ∈ (dimsRowWindow R C M wf).sKept :=
    show (1 : Fin 2) ∈ (List.finRange 2).filter (· ∉ ([] : List (Fin 2))) by decide
  rw [dif_pos h]
  rfl

/-- An update entry lands on (r, c) exactly when the start word plus its row is `r` and its column is `c`. -/
theorem win_resultIdx_iff (j : (⟨2, ![M, C]⟩ : Shape).Idx) (idx : IVec ⟨1, ![1]⟩ w) (r : Fin R) (c : Fin C) :
    (dimsRowWindow R C M wf).resultIdx? j idx = some (ix2 r c)
      ↔ (idx (ix1 (0 : Fin 1))).toInt + ((j 0).val : Int) = (r.val : Int) ∧ (j 1).val = c.val := by
  have hc := (j 1).isLt
  have hC : (⟨2, ![M, C]⟩ : Shape).size 1 = C := rfl
  have hs0 : (⟨2, ![R, C]⟩ : Shape).size 0 = R := rfl
  have hs1 : (⟨2, ![R, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [win_start0, win_start1, win_window0, win_window1] at h0 h1 g0
      change _ = r.val at h0
      change _ = c.val at h1
      constructor <;> omega
    · rintro ⟨h0, h1⟩
      funext a
      refine Fin.ext ?_
      match a with
      | ⟨0, _⟩ =>
        show ((dimsRowWindow R C M wf).start j idx 0 + ((dimsRowWindow R C M wf).window j 0 : Int)).toNat = r.val
        rw [win_start0, win_window0, h0]; omega
      | ⟨1, _⟩ =>
        show ((dimsRowWindow R C M wf).start j idx 1 + ((dimsRowWindow R C M wf).window j 1 : Int)).toNat = c.val
        rw [win_start1, win_window1, ← h1]; omega
  · rename_i h
    constructor
    · intro he; exact absurd he (by simp)
    · rintro ⟨h0, h1⟩
      exfalso; apply h
      intro a
      match a with
      | ⟨0, _⟩ =>
        show 0 ≤ (dimsRowWindow R C M wf).start j idx 0 + ((dimsRowWindow R C M wf).window j 0 : Int)
          ∧ (dimsRowWindow R C M wf).start j idx 0 + ((dimsRowWindow R C M wf).window j 0 : Int) < ((⟨2, ![R, C]⟩ : Shape).size 0 : Nat)
        have := r.isLt
        rw [win_start0, win_window0, h0, hs0]; omega
      | ⟨1, _⟩ =>
        show 0 ≤ (dimsRowWindow R C M wf).start j idx 1 + ((dimsRowWindow R C M wf).window j 1 : Int)
          ∧ (dimsRowWindow R C M wf).start j idx 1 + ((dimsRowWindow R C M wf).window j 1 : Int) < ((⟨2, ![R, C]⟩ : Shape).size 1 : Nat)
        rw [win_start1, win_window1, hs1]; omega

variable {α : Type}

/-- The scatter's step leaves alone a place it does not write, and puts the update's entry at the place it writes
    (stated for the fold's own step, whatever it is, through these two facts). -/
private theorem scatter_fold_facts (d : ScatterDims ⟨2, ![R, C]⟩ ⟨1, ![1]⟩ ⟨2, ![M, C]⟩) (x : (⟨2, ![R, C]⟩ : Shape).Idx → α)
    (idx : IVec ⟨1, ![1]⟩ w) (upd : (⟨2, ![M, C]⟩ : Shape).Idx → α) (P : ((⟨2, ![R, C]⟩ : Shape).Idx → α) → Prop)
    (hP : ∀ step : ((⟨2, ![R, C]⟩ : Shape).Idx → α) → Fin (⟨2, ![M, C]⟩ : Shape).numel → (⟨2, ![R, C]⟩ : Shape).Idx → α,
      (∀ r n i', d.resultIdx? ((⟨2, ![M, C]⟩ : Shape).rowMajor.symm n) idx ≠ some i' → step r n i' = r i') →
      (∀ r n i', d.resultIdx? ((⟨2, ![M, C]⟩ : Shape).rowMajor.symm n) idx = some i' →
        step r n i' = upd ((⟨2, ![M, C]⟩ : Shape).rowMajor.symm n)) →
      P ((List.finRange (⟨2, ![M, C]⟩ : Shape).numel).foldl step x)) :
    P (Host.scatter d (fun _ b => b) x idx upd) := by
  unfold Host.scatter
  refine hP _ ?_ ?_
  · intro r n i' h
    dsimp only at h ⊢
    generalize d.resultIdx? ((⟨2, ![M, C]⟩ : Shape).rowMajor.symm n) idx = o at h ⊢
    cases o with
    | none => rfl
    | some i =>
      dsimp only
      rw [if_neg]
      intro e; exact h (by rw [e])
  · intro r n i' h
    dsimp only at h ⊢
    generalize d.resultIdx? ((⟨2, ![M, C]⟩ : Shape).rowMajor.symm n) idx = o at h ⊢
    cases o with
    | none => exact absurd h (by simp)
    | some i =>
      dsimp only
      rw [Option.some.injEq] at h
      rw [if_pos h.symm]

/-- Row `p` of the window lands on row `r`: entry (r, c) of the result is the update's entry (p, c). -/
theorem scatter_rowWindow_hit (x : (⟨2, ![R, C]⟩ : Shape).Idx → α) (idx : IVec ⟨1, ![1]⟩ w)
    (upd : (⟨2, ![M, C]⟩ : Shape).Idx → α) (r : Fin R) (c : Fin C) (p : Fin M)
    (hp : (idx (ix1 (0 : Fin 1))).toInt + (p.val : Int) = (r.val : Int)) :
    Host.scatter (dimsRowWindow R C M wf) (fun _ b => b) x idx upd (ix2 r c) = upd (ix2 p c) := by
  refine scatter_fold_facts (dimsRowWindow R C M wf) x idx upd (fun y => y (ix2 r c) = upd (ix2 p c)) ?_
  intro step hne heq
  have key := foldl_write_hit
    (g := fun n => (dimsRowWindow R C M wf).resultIdx? ((⟨2, ![M, C]⟩ : Shape).rowMajor.symm n) idx)
    (v := fun n => upd ((⟨2, ![M, C]⟩ : Shape).rowMajor.symm n)) step hne heq
    (List.finRange (⟨2, ![M, C]⟩ : Shape).numel) x (ix2 r c) ((⟨2, ![M, C]⟩ : Shape).rowMajor (ix2 p c))
    (List.mem_finRange _)
    (by
      show (dimsRowWindow R C M wf).resultIdx? ((⟨2, ![M, C]⟩ : Shape).rowMajor.symm ((⟨2, ![M, C]⟩ : Shape).rowMajor (ix2 p c))) idx = _
      rw [Equiv.symm_apply_apply]
      exact (win_resultIdx_iff wf (ix2 p c) idx r c).mpr ⟨hp, rfl⟩)
    (by
      intro n _ hn
      have hj := (win_resultIdx_iff wf _ idx r c).mp hn
      have e : (⟨2, ![M, C]⟩ : Shape).rowMajor.symm n = ix2 p c := by
        rw [eq_ix2 ((⟨2, ![M, C]⟩ : Shape).rowMajor.symm n)]
        congr 1
        · exact Fin.ext (by have := hj.1; omega)
        · exact Fin.ext hj.2
      rw [← e, Equiv.apply_symm_apply])
  refine Eq.trans key ?_
  show upd ((⟨2, ![M, C]⟩ : Shape).rowMajor.symm ((⟨2, ![M, C]⟩ : Shape).rowMajor (ix2 p c))) = upd (ix2 p c)
  rw [Equiv.symm_apply_apply]

/-- No row of the window lands on row `r`: entry (r, c) of the result is the operand's. -/
theorem scatter_rowWindow_miss (x : (⟨2, ![R, C]⟩ : Shape).Idx → α) (idx : IVec ⟨1, ![1]⟩ w)
    (upd : (⟨2, ![M, C]⟩ : Shape).Idx → α) (r : Fin R) (c : Fin C)
    (hp : ∀ p : Fin M, (idx (ix1 (0 : Fin 1))).toInt + (p.val : Int) ≠ (r.val : Int)) :
    Host.scatter (dimsRowWindow R C M wf) (fun _ b => b) x idx upd (ix2 r c) = x (ix2 r c) := by
  refine scatter_fold_facts (dimsRowWindow R C M wf) x idx upd (fun y => y (ix2 r c) = x (ix2 r c)) ?_
  intro step hne _
  exact foldl_write_miss
    (g := fun n => (dimsRowWindow R C M wf).resultIdx? ((⟨2, ![M, C]⟩ : Shape).rowMajor.symm n) idx) step hne
    (List.finRange (⟨2, ![M, C]⟩ : Shape).numel) x (ix2 r c)
    (fun n _ hn => hp _ ((win_resultIdx_iff wf _ idx r c).mp hn).1)

end Window

end Idealize.ShloMosaic.ScatterWindow

end
-- ==== Proof.KI.HeadRest.lean ====
/-
  The padded features, the transposed weights and the bias rows the kernel region is entered with, entry by entry.
-/
import proofs.«424744_j9517647528114_2_alg».proof.Proof.KI.Vals
import proofs.«424744_j9517647528114_2_alg».proof.Proof.Spec
import proofs.«424744_j9517647528114_2_alg».proof.Proof.LibScatterWindow
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HeadVal

open Idealize.ShloMosaic Idealize.ShloMosaic.TcCoe Idealize.ShloMosaic.ValueIdx
open Idealize.SL Idealize.SL.Sem
open Cert.KernelIdeal Cert.KernelIdeal.Gen Cert.KernelIdeal.Hand

/-- A buffer none of a stretch's operations writes is, after the stretch, as before it. -/
local macro "kept" : tactic => `(tactic| (
  refine StableHlo.after_of_forall_not_mem _ _ (List.forall_iff_forall_mem.mp ?_)
  simp only [hostOps0, hostOps0_1, hostOps0_2, hostOps0_3, List.Forall, StableHlo.nullary_writes, StableHlo.unary_writes, StableHlo.binary_writes, StableHlo.ternary_writes, StableHlo.reshape_writes, Finset.mem_singleton]
  repeat' apply And.intro
  all_goals exact StableHlo.devRef_ne_of_ne (by decide)))

/-! ## The last stretch of host operations, from any contents before it -/

section Stretch
variable {F : FTy → Type} [FloatOps F] (V : Valuation τ sig (Elt F))

/-- The padded features: the feature rows written as one window at row 0 of a zero array, then the change of format. -/
theorem last_v45 : StableHlo.after hostOps0_4 V (Proc.devRef .tc main_v45)
    = truncf .bf16 (Host.scatter scatter_S10240x128_S1_S10000x128_01_n_0_0 (fun _ b => b)
        (broadcastInDim S10240x128 ![] bcast_S_S10240x128 (constant S_ .f32 0x00000000#32))
        (broadcastInDim S1 ![] bcast_S_S1 (constantI S_ 32 0#32)) (V (Proc.devRef .tc main_arg0))) bitsLt_bf16_f32 := by
  dsimp only [hostOps0_4]
  after_results

/-- The first type's weights transposed, then the change of format. -/
theorem last_v47 : StableHlo.after hostOps0_4 V (Proc.devRef .tc main_v47)
    = truncf .bf16 (transpose S128x128 [1, 0] (V (Proc.devRef .tc main_arg3)) transposes_S128x128_S128x128_1_0) bitsLt_bf16_f32 := by
  dsimp only [hostOps0_4]
  after_results

/-- The second type's weights transposed, then the change of format. -/
theorem last_v49 : StableHlo.after hostOps0_4 V (Proc.devRef .tc main_v49)
    = truncf .bf16 (transpose S128x128 [1, 0] (V (Proc.devRef .tc main_arg5)) transposes_S128x128_S128x128_1_0) bitsLt_bf16_f32 := by
  dsimp only [hostOps0_4]
  after_results

/-- The self weights transposed, then the change of format. -/
theorem last_v51 : StableHlo.after hostOps0_4 V (Proc.devRef .tc main_v51)
    = truncf .bf16 (transpose S128x128 [1, 0] (V (Proc.devRef .tc main_arg7)) transposes_S128x128_S128x128_1_0) bitsLt_bf16_f32 := by
  dsimp only [hostOps0_4]
  after_results

/-- The first type's bias as one row. -/
theorem last_v52 : StableHlo.after hostOps0_4 V (Proc.devRef .tc main_v52)
    = shapeCast S1x128 (V (Proc.devRef .tc main_arg4)) shapeCasts_S128_S1x128 := by
  dsimp only [hostOps0_4]
  after_results
  rfl

/-- The second type's bias as one row. -/
theorem last_v53 : StableHlo.after hostOps0_4 V (Proc.devRef .tc main_v53)
    = shapeCast S1x128 (V (Proc.devRef .tc main_arg6)) shapeCasts_S128_S1x128 := by
  dsimp only [hostOps0_4]
  after_results
  rfl

/-- The self bias as one row. -/
theorem last_v54 : StableHlo.after hostOps0_4 V (Proc.devRef .tc main_v54)
    = shapeCast S1x128 (V (Proc.devRef .tc main_arg8)) shapeCasts_S128_S1x128 := by
  dsimp only [hostOps0_4]
  after_results
  rfl

end Stretch

/-! ## The arguments at the last stretch's entry -/

section Args
variable {F : FTy → Type} [FloatOps F] (m : (ℓ : Loc nD τ sig) → Buf (Elt F) ℓ)

/-- No operation before the last stretch writes the features: they are as launched. -/
theorem entry_arg0 (c : Dev nD) : W4 m c (Proc.devRef .tc main_arg0) = m ((c.tc : Thread nD τ).loc main_arg0) :=
  calc W4 m c (Proc.devRef .tc main_arg0)
    _ = W3 m c (Proc.devRef .tc main_arg0) := by kept
    _ = W2 m c (Proc.devRef .tc main_arg0) := by kept
    _ = W1 m c (Proc.devRef .tc main_arg0) := by kept
    _ = W0 m c (Proc.devRef .tc main_arg0) := by kept
    _ = m ((c.tc : Thread nD τ).loc main_arg0) := rfl

/-- No operation before the last stretch writes the first type's weights: they are as launched. -/
theorem entry_arg3 (c : Dev nD) : W4 m c (Proc.devRef .tc main_arg3) = m ((c.tc : Thread nD τ).loc main_arg3) :=
  calc W4 m c (Proc.devRef .tc main_arg3)
    _ = W3 m c (Proc.devRef .tc main_arg3) := by kept
    _ = W2 m c (Proc.devRef .tc main_arg3) := by kept
    _ = W1 m c (Proc.devRef .tc main_arg3) := by kept
    _ = W0 m c (Proc.devRef .tc main_arg3) := by kept
    _ = m ((c.tc : Thread nD τ).loc main_arg3) := rfl

/-- No operation before the last stretch writes the first type's bias: they are as launched. -/
theorem entry_arg4 (c : Dev nD) : W4 m c (Proc.devRef .tc main_arg4) = m ((c.tc : Thread nD τ).loc main_arg4) :=
  calc W4 m c (Proc.devRef .tc main_arg4)
    _ = W3 m c (Proc.devRef .tc main_arg4) := by kept
    _ = W2 m c (Proc.devRef .tc main_arg4) := by kept
    _ = W1 m c (Proc.devRef .tc main_arg4) := by kept
    _ = W0 m c (Proc.devRef .tc main_arg4) := by kept
    _ = m ((c.tc : Thread nD τ).loc main_arg4) := rfl

/-- No operation before the last stretch writes the second type's weights: they are as launched. -/
theorem entry_arg5 (c : Dev nD) : W4 m c (Proc.devRef .tc main_arg5) = m ((c.tc : Thread nD τ).loc main_arg5) :=
  calc W4 m c (Proc.devRef .tc main_arg5)
    _ = W3 m c (Proc.devRef .tc main_arg5) := by kept
    _ = W2 m c (Proc.devRef .tc main_arg5) := by kept
    _ = W1 m c (Proc.devRef .tc main_arg5) := by kept
    _ = W0 m c (Proc.devRef .tc main_arg5) := by kept
    _ = m ((c.tc : Thread nD τ).loc main_arg5) := rfl

/-- No operation before the last stretch writes the second type's bias: they are as launched. -/
theorem entry_arg6 (c : Dev nD) : W4 m c (Proc.devRef .tc main_arg6) = m ((c.tc : Thread nD τ).loc main_arg6) :=
  calc W4 m c (Proc.devRef .tc main_arg6)
    _ = W3 m c (Proc.devRef .tc main_arg6) := by kept
    _ = W2 m c (Proc.devRef .tc main_arg6) := by kept
    _ = W1 m c (Proc.devRef .tc main_arg6) := by kept
    _ = W0 m c (Proc.devRef .tc main_arg6) := by kept
    _ = m ((c.tc : Thread nD τ).loc main_arg6) := rfl

/-- No operation before the last stretch writes the self weights: they are as launched. -/
theorem entry_arg7 (c : Dev nD) : W4 m c (Proc.devRef .tc main_arg7) = m ((c.tc : Thread nD τ).loc main_arg7) :=
  calc W4 m c (Proc.devRef .tc main_arg7)
    _ = W3 m c (Proc.devRef .tc main_arg7) := by kept
    _ = W2 m c (Proc.devRef .tc main_arg7) := by kept
    _ = W1 m c (Proc.devRef .tc main_arg7) := by kept
    _ = W0 m c (Proc.devRef .tc main_arg7) := by kept
    _ = m ((c.tc : Thread nD τ).loc main_arg7) := rfl

/-- No operation before the last stretch writes the self bias: they are as launched. -/
theorem entry_arg8 (c : Dev nD) : W4 m c (Proc.devRef .tc main_arg8) = m ((c.tc : Thread nD τ).loc main_arg8) :=
  calc W4 m c (Proc.devRef .tc main_arg8)
    _ = W3 m c (Proc.devRef .tc main_arg8) := by kept
    _ = W2 m c (Proc.devRef .tc main_arg8) := by kept
    _ = W1 m c (Proc.devRef .tc main_arg8) := by kept
    _ = W0 m c (Proc.devRef .tc main_arg8) := by kept
    _ = m ((c.tc : Thread nD τ).loc main_arg8) := rfl

end Args

/-! ## The seven arrays at an entry, over the extended reals -/

section Reads
variable (m : (ℓ : Loc nD τ sig) → Buf (Elt Ideal) ℓ)

/-- A transposed square array, after the change of format, at (d, j): the array at (j, d). -/
theorem transposed_apply (W : FVec Ideal S128x128 .f32) (d j : Fin 128) :
    (truncf .bf16 (transpose S128x128 [1, 0] W transposes_S128x128_S128x128_1_0) bitsLt_bf16_f32 : FVec Ideal S128x128 .bf16) (ix2 d j)
      = W (ix2 j d) :=
  transpose_apply [1, 0] W transposes_S128x128_S128x128_1_0 (ix2 d j) (ix2 j d) (fun b => match b with
    | ⟨0, _⟩ => rfl
    | ⟨1, _⟩ => rfl)

/-- A vector viewed as one row, at column `j`: its entry `j`. -/
theorem row_apply (b : FVec Ideal S128 .f32) (j : Fin 128) :
    shapeCast S1x128 b shapeCasts_S128_S1x128 (ix2 (0 : Fin 1) j) = b (ix1 j) :=
  shapeCast_apply b shapeCasts_S128_S1x128 (ix2 (0 : Fin 1) j) (ix1 j)
    (by rewrite [Shape.rowMajor_val_two, Shape.rowMajor_val_one]; show j.val = 0 * 128 + j.val; omega)

/-- The feature rows written at row 0 of a zero array of 10240 rows: a row below 10000 is the feature row, a later row is zero. -/
theorem padded_apply (X : FVec Ideal S10000x128 .f32) (r : Fin 10240) (d : Fin 128) :
    (truncf .bf16 (Host.scatter scatter_S10240x128_S1_S10000x128_01_n_0_0 (fun _ b => b)
        (broadcastInDim S10240x128 ![] bcast_S_S10240x128 (constant (F := Ideal) S_ .f32 0x00000000#32))
        (broadcastInDim S1 ![] bcast_S_S1 (constantI S_ 32 0#32)) X) bitsLt_bf16_f32 : FVec Ideal S10240x128 .bf16) (ix2 r d)
      = Spec.Xp X r d := by
  rw [truncf_apply]
  have hw : (broadcastInDim S1 ![] bcast_S_S1 (constantI S_ 32 0#32) : IVec S1 32) (ix1 (0 : Fin 1)) = 0#32 :=
    broadcastInDim_apply _ bcast_S_S1 (constantI S_ 32 0#32) (ix1 (0 : Fin 1)) ix0 (fun a => a.elim0)
  unfold Spec.Xp
  by_cases h : r.val < 10000
  · rw [dif_pos h]
    refine ScatterWindow.scatter_rowWindow_hit (R := 10240) (C := 128) (M := 10000)
      scatter_S10240x128_S1_S10000x128_01_n_0_0_wf _ _ X r d ⟨r.val, h⟩ ?_
    rw [hw]
    show (0 : Int) + (r.val : Int) = (r.val : Int)
    omega
  · rw [dif_neg h]
    refine (ScatterWindow.scatter_rowWindow_miss (R := 10240) (C := 128) (M := 10000)
      scatter_S10240x128_S1_S10000x128_01_n_0_0_wf _ _ X r d ?_).trans ?_
    · intro p
      rw [hw]
      have hp := p.isLt
      show (0 : Int) + (p.val : Int) ≠ (r.val : Int)
      omega
    · refine (broadcastInDim_apply _ bcast_S_S10240x128 (constant (F := Ideal) S_ .f32 0x00000000#32) (ix2 r d) ix0
        (fun a => a.elim0)).trans ?_
      exact Ideal.ofBits_zero_f32

/-- The padded features the region is entered with. -/
theorem head_v45 (c : Dev nD) (r : Fin 10240) (d : Fin 128) :
    (V5 m c main_v45 : S10240x128.Idx → EReal) (ix2 r d) = Spec.Xp (m ((c.tc : Thread nD τ).loc main_arg0)) r d := by
  show StableHlo.after hostOps0_4 (W4 m c) (Proc.devRef .tc main_v45) (ix2 r d) = _
  rw [last_v45, entry_arg0]
  exact padded_apply (m ((c.tc : Thread nD τ).loc main_arg0)) r d

/-- The first type's transposed weights the region is entered with. -/
theorem head_v47 (c : Dev nD) (d j : Fin 128) :
    (V5 m c main_v47 : S128x128.Idx → EReal) (ix2 d j) = (m ((c.tc : Thread nD τ).loc main_arg3) : S128x128.Idx → EReal) (ix2 j d) := by
  show StableHlo.after hostOps0_4 (W4 m c) (Proc.devRef .tc main_v47) (ix2 d j) = _
  rw [last_v47, entry_arg3]
  exact transposed_apply (m ((c.tc : Thread nD τ).loc main_arg3)) d j

/-- The second type's transposed weights the region is entered with. -/
theorem head_v49 (c : Dev nD) (d j : Fin 128) :
    (V5 m c main_v49 : S128x128.Idx → EReal) (ix2 d j) = (m ((c.tc : Thread nD τ).loc main_arg5) : S128x128.Idx → EReal) (ix2 j d) := by
  show StableHlo.after hostOps0_4 (W4 m c) (Proc.devRef .tc main_v49) (ix2 d j) = _
  rw [last_v49, entry_arg5]
  exact transposed_apply (m ((c.tc : Thread nD τ).loc main_arg5)) d j

/-- The transposed self weights the region is entered with. -/
theorem head_v51 (c : Dev nD) (d j : Fin 128) :
    (V5 m c main_v51 : S128x128.Idx → EReal) (ix2 d j) = (m ((c.tc : Thread nD τ).loc main_arg7) : S128x128.Idx → EReal) (ix2 j d) := by
  show StableHlo.after hostOps0_4 (W4 m c) (Proc.devRef .tc main_v51) (ix2 d j) = _
  rw [last_v51, entry_arg7]
  exact transposed_apply (m ((c.tc : Thread nD τ).loc main_arg7)) d j

/-- The first type's bias row the region is entered with. -/
theorem head_v52 (c : Dev nD) (j : Fin 128) :
    (V5 m c main_v52 : S1x128.Idx → EReal) (ix2 (0 : Fin 1) j) = (m ((c.tc : Thread nD τ).loc main_arg4) : S128.Idx → EReal) (ix1 j) := by
  show StableHlo.after hostOps0_4 (W4 m c) (Proc.devRef .tc main_v52) (ix2 (0 : Fin 1) j) = _
  rw [last_v52, entry_arg4]
  exact row_apply (m ((c.tc : Thread nD τ).loc main_arg4)) j

/-- The second type's bias row the region is entered with. -/
theorem head_v53 (c : Dev nD) (j : Fin 128) :
    (V5 m c main_v53 : S1x128.Idx → EReal) (ix2 (0 : Fin 1) j) = (m ((c.tc : Thread nD τ).loc main_arg6) : S128.Idx → EReal) (ix1 j) := by
  show StableHlo.after hostOps0_4 (W4 m c) (Proc.devRef .tc main_v53) (ix2 (0 : Fin 1) j) = _
  rw [last_v53, entry_arg6]
  exact row_apply (m ((c.tc : Thread nD τ).loc main_arg6)) j

/-- The self bias row the region is entered with. -/
theorem head_v54 (c : Dev nD) (j : Fin 128) :
    (V5 m c main_v54 : S1x128.Idx → EReal) (ix2 (0 : Fin 1) j) = (m ((c.tc : Thread nD τ).loc main_arg8) : S128.Idx → EReal) (ix1 j) := by
  show StableHlo.after hostOps0_4 (W4 m c) (Proc.devRef .tc main_v54) (ix2 (0 : Fin 1) j) = _
  rw [last_v54, entry_arg8]
  exact row_apply (m ((c.tc : Thread nD τ).loc main_arg8)) j

end Reads

end Cert.KernelIdeal.HeadVal

end
-- ==== Proof.KI.Pieces.lean ====
/-
  What the kernel body leaves in the running block (the accumulator) and in the output block, as values of the blocks
  it reads. Each of its stores is of a whole buffer, so what a buffer holds afterwards is the value of the last store
  into it, and a load that follows a store of the whole buffer reads that store's value.

  * first column tile (k = 0): the running block is zero-filled and then gets the tile's contribution
    A_d (X W_d + b_d) + A_c (X W_c + b_c) added;
  * middle column tiles (0 < k < 4): the running block gets the tile's contribution added to what it held;
  * last column tile (k = 4): likewise, and the output block is the positive part of the updated running block plus
    the row tile's own affine image.
-/
import proofs.«424744_j9517647528114_2_alg».proof.Proof.KI.Body
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F]

/-- A whole buffer is read and written at offset zero on both axes. -/
theorem hz : (![0, 0] : Fin 2 → Nat) = fun _ => 0 := funext fun a => by fin_cases a <;> rfl

/-- k = 0: the running block ends at the tile's contribution over the zero block. -/
theorem sout0_A_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9
      = k0_pay3 x2 x4 x7 x5 x8 x0 x1 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz, View.ld_unit_zero (S := S2048x128) hz, View.ld_unit_zero (S := S1024x128) hz, View.ld_unit_zero (S := S128x128) hz, View.ld_unit_zero (S := S1x128) hz]

/-- 0 < k < 4: the running block ends at the tile's contribution over what it held. -/
theorem sout0_B_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : ¬cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay3 x2 x4 x7 x5 x8 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz, View.ld_unit_zero (S := S2048x128) hz, View.ld_unit_zero (S := S1024x128) hz, View.ld_unit_zero (S := S128x128) hz, View.ld_unit_zero (S := S1x128) hz]

/-- k = 4: the running block ends at the tile's contribution over what it held; -/
theorem sout0_C_0_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay3 x2 x4 x7 x5 x8 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  try sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz, View.ld_unit_zero (S := S2048x128) hz, View.ld_unit_zero (S := S1024x128) hz, View.ld_unit_zero (S := S128x128) hz, View.ld_unit_zero (S := S1x128) hz]

/-- and the output block is the finished row tile over the running block as just stored. -/
theorem out0_C_10_eq (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S2048x128 .bf16) (harg4 : arg4.IsWhole) (arg5 : Memref sig .tc .vmem S1024x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1024x128 .f32) (harg12 : arg12.IsWhole) (arg13 : Memref sig .tc .vmem S1024x128 .f32) (harg13 : arg13.IsWhole) (hc0 : ¬cond0_0 i) (hc1 : cond0_1 i)
    (x0 : Vec F S1024x2048 .bf16) (x1 : Vec F S1024x2048 .bf16) (x2 : Vec F S2048x128 .bf16) (x3 : Vec F S1024x128 .bf16) (x4 : Vec F S128x128 .bf16) (x5 : Vec F S128x128 .bf16) (x6 : Vec F S128x128 .bf16) (x7 : Vec F S1x128 .f32) (x8 : Vec F S1x128 .f32) (x9 : Vec F S1x128 .f32) (xs0 : Vec F S1024x128 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0
      = k0_pay1 x3 x6 x9 (k0_pay3 x2 x4 x7 x5 x8 x0 x1 xs0) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  try sl_unfold_words
  rw [View.canon_unit_zero hz, View.readCov_unit_zero (S := S1024x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x2048) hz, View.ld_unit_zero (S := S2048x128) hz, View.ld_unit_zero (S := S1024x128) hz, View.ld_unit_zero (S := S128x128) hz, View.ld_unit_zero (S := S1x128) hz]

end Cert.KernelIdeal.Val

end
-- ==== Proof.KI.Blocks.lean ====
/-
  Each window's block at a grid point, read at an index of the array it is cut from.

  The grid has 50 points, point t being row tile i = t / 5 and column tile k = t % 5. The two adjacency windows
  take block (i, k) of 1024 x 2048 of their 10240 x 10240 arrays; the padded features are read twice, as block
  (k, 0) of 2048 x 128 (the rows the column tile multiplies) and as block (i, 0) of 1024 x 128 (the row tile's
  own rows); the weights and biases are whole; the output takes block (i, 0) of 1024 x 128. A block's element
  (p, q) sits in the array at (block row index * block rows + p, block column index * block columns + q).
-/
import proofs.«424744_j9517647528114_2_alg».proof.Proof.KI.Cond
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- A grid point is below 50. -/
theorem tlt (t : Fin cfg0.N) : t.val < 50 :=
  Nat.lt_of_lt_of_eq t.isLt (N_0 : cfg0.N = 50)

/-- The printed index maps, decided once over the grid: which block each window takes at point t. -/
theorem index_facts : ∀ t : Fin cfg0.N,
    (win0_0.index t (0 : Fin 2) = t.val / 5 ∧ win0_0.index t (1 : Fin 2) = t.val % 5)
    ∧ (win0_1.index t (0 : Fin 2) = t.val / 5 ∧ win0_1.index t (1 : Fin 2) = t.val % 5)
    ∧ (win0_2.index t (0 : Fin 2) = t.val % 5 ∧ win0_2.index t (1 : Fin 2) = 0)
    ∧ (win0_3.index t (0 : Fin 2) = t.val / 5 ∧ win0_3.index t (1 : Fin 2) = 0)
    ∧ (win0_10.index t (0 : Fin 2) = t.val / 5 ∧ win0_10.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row p of row tile t / 5, and column κ of column tile t % 5, of a 10240-long axis. -/
abbrev rowOf (t : Fin cfg0.N) (p : Fin 1024) : Fin 10240 := ⟨1024 * (t.val / 5) + p.val, by have := tlt t; omega⟩
abbrev colOf (t : Fin cfg0.N) (κ : Fin 2048) : Fin 10240 := ⟨2048 * (t.val % 5) + κ.val, by have := tlt t; omega⟩

/-- Window 0 (the first adjacency array): block (t / 5, t % 5) of 1024 x 2048. -/
theorem blk0 (c : Dev nD) (t : Fin cfg0.N) (p : Fin 1024) (κ : Fin 2048) :
    iblk0 V c 0 t (ix2 p κ) = V c main_v40 (ix2 (rowOf t p) (colOf t κ)) := by
  obtain ⟨⟨e0, e1⟩, -⟩ := index_facts t
  show V c main_v40 (((cfg0.win 0).blk t).view.emb (ix2 p κ)) = V c main_v40 _
  refine congrArg (V c main_v40) (funext fun a => Fin.ext ?_)
  match a with
  | ⟨0, _⟩ => show win0_0.index t (0 : Fin 2) * 1024 + 1 * p.val = 1024 * (t.val / 5) + p.val; rw [e0]; omega
  | ⟨1, _⟩ => show win0_0.index t (1 : Fin 2) * 2048 + 1 * κ.val = 2048 * (t.val % 5) + κ.val; rw [e1]; omega

/-- Window 1 (the second adjacency array): block (t / 5, t % 5) of 1024 x 2048. -/
theorem blk1 (c : Dev nD) (t : Fin cfg0.N) (p : Fin 1024) (κ : Fin 2048) :
    iblk0 V c 1 t (ix2 p κ) = V c main_v41 (ix2 (rowOf t p) (colOf t κ)) := by
  obtain ⟨e0, e1⟩ := (index_facts t).2.1
  show V c main_v41 (((cfg0.win 1).blk t).view.emb (ix2 p κ)) = V c main_v41 _
  refine congrArg (V c main_v41) (funext fun a => Fin.ext ?_)
  match a with
  | ⟨0, _⟩ => show win0_1.index t (0 : Fin 2) * 1024 + 1 * p.val = 1024 * (t.val / 5) + p.val; rw [e0]; omega
  | ⟨1, _⟩ => show win0_1.index t (1 : Fin 2) * 2048 + 1 * κ.val = 2048 * (t.val % 5) + κ.val; rw [e1]; omega

/-- Window 2 (the padded features, the rows the column tile multiplies): block (t % 5, 0) of 2048 x 128. -/
theorem blk2 (c : Dev nD) (t : Fin cfg0.N) (κ : Fin 2048) (d : Fin 128) :
    iblk0 V c 2 t (ix2 κ d) = V c main_v45 (ix2 (colOf t κ) d) := by
  obtain ⟨e0, e1⟩ := (index_facts t).2.2.1
  show V c main_v45 (((cfg0.win 2).blk t).view.emb (ix2 κ d)) = V c main_v45 _
  refine congrArg (V c main_v45) (funext fun a => Fin.ext ?_)
  match a with
  | ⟨0, _⟩ => show win0_2.index t (0 : Fin 2) * 2048 + 1 * κ.val = 2048 * (t.val % 5) + κ.val; rw [e0]; omega
  | ⟨1, _⟩ => show win0_2.index t (1 : Fin 2) * 128 + 1 * d.val = d.val; rw [e1]; omega

/-- Window 3 (the padded features again, the row tile's own rows): block (t / 5, 0) of 1024 x 128. -/
theorem blk3 (c : Dev nD) (t : Fin cfg0.N) (p : Fin 1024) (d : Fin 128) :
    iblk0 V c 3 t (ix2 p d) = V c main_v45 (ix2 (rowOf t p) d) := by
  obtain ⟨e0, e1⟩ := (index_facts t).2.2.2.1
  show V c main_v45 (((cfg0.win 3).blk t).view.emb (ix2 p d)) = V c main_v45 _
  refine congrArg (V c main_v45) (funext fun a => Fin.ext ?_)
  match a with
  | ⟨0, _⟩ => show win0_3.index t (0 : Fin 2) * 1024 + 1 * p.val = 1024 * (t.val / 5) + p.val; rw [e0]; omega
  | ⟨1, _⟩ => show win0_3.index t (1 : Fin 2) * 128 + 1 * d.val = d.val; rw [e1]; omega

/-- Window 4 (the first type's transposed weights): the whole array at every point. -/
theorem blk4 (c : Dev nD) (t : Fin cfg0.N) (d : Fin 128) (j : Fin 128) :
    iblk0 V c 4 t (ix2 d j) = V c main_v47 (ix2 d j) := by
  obtain ⟨e0, e1⟩ := (index_facts t).2.2.2.2.2.1
  show V c main_v47 (((cfg0.win 4).blk t).view.emb (ix2 d j)) = V c main_v47 _
  refine congrArg (V c main_v47) (funext fun a => Fin.ext ?_)
  match a with
  | ⟨0, _⟩ => show win0_4.index t (0 : Fin 2) * 128 + 1 * d.val = d.val; rw [e0]; omega
  | ⟨1, _⟩ => show win0_4.index t (1 : Fin 2) * 128 + 1 * j.val = j.val; rw [e1]; omega

/-- Window 5 (the second type's transposed weights): the whole array at every point. -/
theorem blk5 (c : Dev nD) (t : Fin cfg0.N) (d : Fin 128) (j : Fin 128) :
    iblk0 V c 5 t (ix2 d j) = V c main_v49 (ix2 d j) := by
  obtain ⟨e0, e1⟩ := (index_facts t).2.2.2.2.2.2.1
  show V c main_v49 (((cfg0.win 5).blk t).view.emb (ix2 d j)) = V c main_v49 _
  refine congrArg (V c main_v49) (funext fun a => Fin.ext ?_)
  match a with
  | ⟨0, _⟩ => show win0_5.index t (0 : Fin 2) * 128 + 1 * d.val = d.val; rw [e0]; omega
  | ⟨1, _⟩ => show win0_5.index t (1 : Fin 2) * 128 + 1 * j.val = j.val; rw [e1]; omega

/-- Window 6 (the self map's transposed weights): the whole array at every point. -/
theorem blk6 (c : Dev nD) (t : Fin cfg0.N) (d : Fin 128) (j : Fin 128) :
    iblk0 V c 6 t (ix2 d j) = V c main_v51 (ix2 d j) := by
  obtain ⟨e0, e1⟩ := (index_facts t).2.2.2.2.2.2.2.1
  show V c main_v51 (((cfg0.win 6).blk t).view.emb (ix2 d j)) = V c main_v51 _
  refine congrArg (V c main_v51) (funext fun a => Fin.ext ?_)
  match a with
  | ⟨0, _⟩ => show win0_6.index t (0 : Fin 2) * 128 + 1 * d.val = d.val; rw [e0]; omega
  | ⟨1, _⟩ => show win0_6.index t (1 : Fin 2) * 128 + 1 * j.val = j.val; rw [e1]; omega

/-- Window 7 (the first type's bias as a row): the whole array at every point. -/
theorem blk7 (c : Dev nD) (t : Fin cfg0.N) (d : Fin 1) (j : Fin 128) :
    iblk0 V c 7 t (ix2 d j) = V c main_v52 (ix2 d j) := by
  obtain ⟨e0, e1⟩ := (index_facts t).2.2.2.2.2.2.2.2.1
  show V c main_v52 (((cfg0.win 7).blk t).view.emb (ix2 d j)) = V c main_v52 _
  refine congrArg (V c main_v52) (funext fun a => Fin.ext ?_)
  match a with
  | ⟨0, _⟩ => show win0_7.index t (0 : Fin 2) * 1 + 1 * d.val = d.val; rw [e0]; omega
  | ⟨1, _⟩ => show win0_7.index t (1 : Fin 2) * 128 + 1 * j.val = j.val; rw [e1]; omega

/-- Window 8 (the second type's bias as a row): the whole array at every point. -/
theorem blk8 (c : Dev nD) (t : Fin cfg0.N) (d : Fin 1) (j : Fin 128) :
    iblk0 V c 8 t (ix2 d j) = V c main_v53 (ix2 d j) := by
  obtain ⟨e0, e1⟩ := (index_facts t).2.2.2.2.2.2.2.2.2.1
  show V c main_v53 (((cfg0.win 8).blk t).view.emb (ix2 d j)) = V c main_v53 _
  refine congrArg (V c main_v53) (funext fun a => Fin.ext ?_)
  match a with
  | ⟨0, _⟩ => show win0_8.index t (0 : Fin 2) * 1 + 1 * d.val = d.val; rw [e0]; omega
  | ⟨1, _⟩ => show win0_8.index t (1 : Fin 2) * 128 + 1 * j.val = j.val; rw [e1]; omega

/-- Window 9 (the self map's bias as a row): the whole array at every point. -/
theorem blk9 (c : Dev nD) (t : Fin cfg0.N) (d : Fin 1) (j : Fin 128) :
    iblk0 V c 9 t (ix2 d j) = V c main_v54 (ix2 d j) := by
  obtain ⟨e0, e1⟩ := (index_facts t).2.2.2.2.2.2.2.2.2.2
  show V c main_v54 (((cfg0.win 9).blk t).view.emb (ix2 d j)) = V c main_v54 _
  refine congrArg (V c main_v54) (funext fun a => Fin.ext ?_)
  match a with
  | ⟨0, _⟩ => show win0_9.index t (0 : Fin 2) * 1 + 1 * d.val = d.val; rw [e0]; omega
  | ⟨1, _⟩ => show win0_9.index t (1 : Fin 2) * 128 + 1 * j.val = j.val; rw [e1]; omega

/-! ## The output window -/

/-- Where element (p, j) of the output's block at point t sits in the output array: row 1024 * (t / 5) + p. -/
theorem emb10 (t : Fin cfg0.N) (p : Fin 1024) (j : Fin 128) :
    ((cfg0.win 10).blk t).view.emb (ix2 p j) = ix2 (rowOf t p) j := by
  obtain ⟨e0, e1⟩ := (index_facts t).2.2.2.2.1
  funext a
  apply Fin.ext
  match a with
  | ⟨0, _⟩ => show win0_10.index t (0 : Fin 2) * 1024 + 1 * p.val = 1024 * (t.val / 5) + p.val; rw [e0]; omega
  | ⟨1, _⟩ => show win0_10.index t (1 : Fin 2) * 128 + 1 * j.val = j.val; rw [e1]; omega

/-- A whole-array function read through the output's block at point t. -/
theorem read10 {α : Type} (G : S10240x128.Idx → α) (t : Fin cfg0.N) (p : Fin 1024) (j : Fin 128) :
    G (((cfg0.win 10).blk t).view.emb (ix2 p j)) = G (ix2 (rowOf t p) j) :=
  congrArg G (emb10 t p j)

/-- An index of the output array is in point t's block iff each coordinate is in the block's range on its axis. -/
theorem mem_blk10 (t : Fin cfg0.N) (i : S10240x128.Idx) :
    i ∈ ((cfg0.win 10).blk t).view.set ↔ ∀ a : Fin 2, win0_10.index t a * S1024x128.size a ≤ (i a).val ∧ (i a).val < win0_10.index t a * S1024x128.size a + S1024x128.size a := by
  show i ∈ ((View.whole main_v55).slice (win0_10.rect t)).set ↔ _
  rw [View.set_slice_whole, Rect.mem_set_unit]
  exact Iff.rfl

/-- In closed form: the block of point t is the 1024 rows of row tile t / 5. -/
theorem mem_blk10_rows (t : Fin cfg0.N) (i : S10240x128.Idx) :
    i ∈ ((cfg0.win 10).blk t).view.set ↔ 1024 * (t.val / 5) ≤ (i 0).val ∧ (i 0).val < 1024 * (t.val / 5) + 1024 := by
  obtain ⟨e0, e1⟩ := (index_facts t).2.2.2.2.1
  rw [mem_blk10]
  have h1 : (i 1).val < 128 := (i 1).isLt
  constructor
  · intro h
    have b0 : win0_10.index t (0 : Fin 2) * 1024 ≤ (i 0).val ∧ (i 0).val < win0_10.index t (0 : Fin 2) * 1024 + 1024 := h 0
    omega
  · intro h a
    match a with
    | ⟨0, _⟩ => show win0_10.index t (0 : Fin 2) * 1024 ≤ (i 0).val ∧ (i 0).val < win0_10.index t (0 : Fin 2) * 1024 + 1024; omega
    | ⟨1, _⟩ => show win0_10.index t (1 : Fin 2) * 128 ≤ (i 1).val ∧ (i 1).val < win0_10.index t (1 : Fin 2) * 128 + 128; omega

/-- The point that writes back row r of the output: the last column tile of row tile r / 1024. -/
abbrev pointOf (r : Fin 10240) : Fin cfg0.N := ⟨5 * (r.val / 1024) + 4, Nat.lt_of_lt_of_eq (by omega) (N_0 : cfg0.N = 50).symm⟩

/-- THE COVER: every index of the output array lies in the block of a point that writes back. -/
theorem cover10 (i : S10240x128.Idx) :
    ∃ t : Fin cfg0.N, (cfg0.win 10).flush t = true ∧ i ∈ ((cfg0.win 10).blk t).view.set := by
  have h0 : (i 0).val < 10240 := (i 0).isLt
  refine ⟨pointOf (i 0), (flush0_10 _).mpr ?_, (mem_blk10_rows _ i).mpr ?_⟩
  · show (5 * ((i 0).val / 1024) + 4) % 5 = 4
    omega
  · show 1024 * ((5 * ((i 0).val / 1024) + 4) / 5) ≤ (i 0).val ∧ (i 0).val < 1024 * ((5 * ((i 0).val / 1024) + 4) / 5) + 1024
    omega

end Cert.KernelIdeal.Val

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KI.Pay.lean ====
/-
  The three values the kernel body stores, read at one entry (p, j) of the 1024 × 128 block, over the extended reals.

  * the value stored at the first column tile is the zero block;
  * the value every grid point stores into the running block is the block read before it plus the two products
    A_d · (X W_d + b_d) and A_c · (X W_c + b_c) of the point's adjacency tiles with the affine images of the
    point's 2048 feature rows (narrowing those images to the shorter float type changes nothing over the extended reals);
  * the value stored at the last column tile is the positive part of the running block plus the affine image of the
    row's own features under the self weights.

  Each product is a plain rows × contraction by contraction × columns product into the zero block, so at an entry it is
  the sum over the contracted coordinate of the products of the operands' entries; a one-row bias broadcast over the
  rows reads its one row.
-/
import proofs.«424744_j9517647528114_2_alg».proof.Proof.Gen.KernelIdeal.Skeleton
import proofs.«424744_j9517647528114_2_alg».proof.Proof.LibPlainDot
import Idealize.ShloMosaic.Lib.ValueLayout

noncomputable section

namespace Cert.KernelIdeal.Val

open Idealize.ShloMosaic Idealize.ShloMosaic.ValueIdx Cert.KernelIdeal

/-! ## The three products at an entry -/

/-- [2048 × 128] · [128 × 128] into zero, at (κ, j): the sum over the 128 contracted coordinates. -/
theorem matmul_rows_apply (A : FVec Ideal S2048x128 .bf16) (B : FVec Ideal S128x128 .bf16) (κ : Fin 2048) (j : Fin 128) :
    matmul dot_S2048x128_S128x128_S2048x128_1_0_0_1_n_n none A B (constant (F := Ideal) S2048x128 .f32 0x00000000#32) (ix2 κ j)
      = ∑ d : Fin 128, A (ix2 κ d) * B (ix2 d j) :=
  Cert.Lib.PlainDot.matmul_plain_zero_apply none A B κ j

/-- [1024 × 2048] · [2048 × 128] into zero, at (p, j): the sum over the 2048 contracted coordinates. -/
theorem matmul_tile_apply (A : FVec Ideal S1024x2048 .bf16) (B : FVec Ideal S2048x128 .bf16) (p : Fin 1024) (j : Fin 128) :
    matmul dot_S1024x2048_S2048x128_S1024x128_1_0_0_1_n_n none A B (constant (F := Ideal) S1024x128 .f32 0x00000000#32) (ix2 p j)
      = ∑ κ : Fin 2048, A (ix2 p κ) * B (ix2 κ j) :=
  Cert.Lib.PlainDot.matmul_plain_zero_apply none A B p j

/-- [1024 × 128] · [128 × 128] into zero, at (p, j): the sum over the 128 contracted coordinates. -/
theorem matmul_self_apply (A : FVec Ideal S1024x128 .bf16) (B : FVec Ideal S128x128 .bf16) (p : Fin 1024) (j : Fin 128) :
    matmul dot_S1024x128_S128x128_S1024x128_1_0_0_1_n_n none A B (constant (F := Ideal) S1024x128 .f32 0x00000000#32) (ix2 p j)
      = ∑ d : Fin 128, A (ix2 p d) * B (ix2 d j) :=
  Cert.Lib.PlainDot.matmul_plain_zero_apply none A B p j

/-! ## The stored values at an entry -/

/-- The block stored at the first column tile is zero everywhere. -/
theorem pay2_apply (p : Fin 1024) (j : Fin 128) : (Gen.k0_pay2 (F := Ideal)) (ix2 p j) = 0 := by
  unfold Gen.k0_pay2
  rw [shapeCast_self]
  exact Ideal.ofBits_zero_f32

/-- The running block after a grid point: what was there plus the two adjacency tiles' products with the affine images
    of the point's feature rows. -/
theorem pay3_apply (v3 : Vec Ideal S2048x128 .bf16) (v5 : Vec Ideal S128x128 .bf16) (v8 : Vec Ideal S1x128 .f32)
    (v12 : Vec Ideal S128x128 .bf16) (v15 : Vec Ideal S1x128 .f32) (v21 v24 : Vec Ideal S1024x2048 .bf16)
    (v28 : Vec Ideal S1024x128 .f32) (p : Fin 1024) (j : Fin 128) :
    Gen.k0_pay3 v3 v5 v8 v12 v15 v21 v24 v28 (ix2 p j)
      = v28 (ix2 p j) + ((∑ κ : Fin 2048, v21 (ix2 p κ) * ((∑ d : Fin 128, v3 (ix2 κ d) * v5 (ix2 d j)) + v8 (ix2 (0 : Fin 1) j)))
          + (∑ κ : Fin 2048, v24 (ix2 p κ) * ((∑ d : Fin 128, v3 (ix2 κ d) * v12 (ix2 d j)) + v15 (ix2 (0 : Fin 1) j)))) := by
  unfold Gen.k0_pay3
  simp only [shapeCast_self]
  rw [addf_apply, addf_apply, matmul_tile_apply, matmul_tile_apply]
  refine congrArg (v28 (ix2 p j) + ·) (congrArg₂ (· + ·) (Finset.sum_congr rfl fun κ _ => ?_) (Finset.sum_congr rfl fun κ _ => ?_))
  · rw [truncf_apply, addf_apply, matmul_rows_apply, broadcastTo_1b_ab_apply]
  · rw [truncf_apply, addf_apply, matmul_rows_apply, broadcastTo_1b_ab_apply]

/-- The output block at the last column tile: the positive part of the running block plus the row's own affine image. -/
theorem pay1_apply (v36 : Vec Ideal S1024x128 .bf16) (v38 : Vec Ideal S128x128 .bf16) (v41 : Vec Ideal S1x128 .f32)
    (v45 : Vec Ideal S1024x128 .f32) (p : Fin 1024) (j : Fin 128) :
    Gen.k0_pay1 v36 v38 v41 v45 (ix2 p j)
      = max (v45 (ix2 p j) + ((∑ d : Fin 128, v36 (ix2 p d) * v38 (ix2 d j)) + v41 (ix2 (0 : Fin 1) j))) 0 := by
  unfold Gen.k0_pay1
  rw [shapeCast_self, shapeCast_self, shapeCast_self, maximumf_apply, addf_apply, addf_apply, matmul_self_apply,
    broadcastTo_1b_ab_apply, broadcast_apply]
  exact congrArg (max _) Ideal.ofBits_zero_f32

end Cert.KernelIdeal.Val

end
-- ==== Proof.KI.Acc.lean ====
/-
  The running block of the kernel region over the grid, as a value.

  The grid's point t is row tile t / 5 and column tile t % 5. The body's stores are each of a whole buffer, so what
  the running block (the accumulator) and the output block hold after the body is the value of the last store into
  each, over the blocks the point reads; those blocks are tiles of the arrays the region is entered at. By induction
  on the point, after point t the running block holds, at (p, j), the sum of the column tiles 0 … t % 5 of row
  1024 (t / 5) + p — the padded arrangement's running sum —, and at the last column tile the output block holds the
  padded result of that row.
-/
import proofs.«424744_j9517647528114_2_alg».proof.Proof.KI.Body
import proofs.«424744_j9517647528114_2_alg».proof.Proof.KI.Pieces
import proofs.«424744_j9517647528114_2_alg».proof.Proof.KI.Blocks
import proofs.«424744_j9517647528114_2_alg».proof.Proof.KI.Pay
import proofs.«424744_j9517647528114_2_alg».proof.Proof.Spec
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem Idealize.ShloMosaic.Tactic

/-! ## One store against the padded arrangement, over abstract operands -/

section Step

variable (Ad Ac : Fin 10240 → Fin 10240 → EReal) (Xq : Fin 10240 → Fin 128 → EReal)
  (WdT : Fin 128 → Fin 128 → EReal) (bd1 : Fin 128 → EReal) (WcT : Fin 128 → Fin 128 → EReal) (bc1 : Fin 128 → EReal)
  (WsT : Fin 128 → Fin 128 → EReal) (bs1 : Fin 128 → EReal)

/-- The running sum does not depend on how its tile number is written. -/
theorem acc_congr {n n' : ℕ} (e : n = n') (h : n < 5) (h' : n' < 5) :
    Spec.acc Ad Ac Xq WdT bd1 WcT bc1 n h = Spec.acc Ad Ac Xq WdT bd1 WcT bc1 n' h' := by
  subst e; rfl

/-- At tile 0 the running sum is the tile's contribution over zero. -/
theorem acc_zero (k : Fin 5) (hk : k.val = 0) (r : Fin 10240) (j : Fin 128) :
    Spec.acc Ad Ac Xq WdT bd1 WcT bc1 k.val k.isLt r j = 0 + Spec.contrib Ad Ac Xq WdT bd1 WcT bc1 k r j := by
  obtain ⟨k, hlt⟩ := k
  dsimp only at hk
  subst hk
  rfl

/-- At a later tile it is the sum up to the tile before plus the tile's contribution. -/
theorem acc_succ (k : Fin 5) (m : ℕ) (hm : m + 1 = k.val) (r : Fin 10240) (j : Fin 128) :
    Spec.acc Ad Ac Xq WdT bd1 WcT bc1 k.val k.isLt r j
      = Spec.acc Ad Ac Xq WdT bd1 WcT bc1 m (by have := k.isLt; omega) r j + Spec.contrib Ad Ac Xq WdT bd1 WcT bc1 k r j := by
  obtain ⟨k, hlt⟩ := k
  dsimp only at hm
  subst hm
  rfl

/-- One grid point's store into the running block, when its operands are tiles of the two adjacency arrays (rows
    `r p`, column tile `k`), row tile `k` of the features, the weights and the bias rows: what was there plus column
    tile `k`'s contribution. -/
theorem pay3_contrib (k : Fin 5) (r : Fin 1024 → Fin 10240)
    (v3 : Vec Ideal S2048x128 .bf16) (v5 : Vec Ideal S128x128 .bf16) (v8 : Vec Ideal S1x128 .f32)
    (v12 : Vec Ideal S128x128 .bf16) (v15 : Vec Ideal S1x128 .f32) (v21 v24 : Vec Ideal S1024x2048 .bf16)
    (v28 : Vec Ideal S1024x128 .f32)
    (h3 : ∀ (κ : Fin 2048) (d : Fin 128), v3 (ix2 κ d) = Xq (Spec.tile k κ) d)
    (h5 : ∀ d j : Fin 128, v5 (ix2 d j) = WdT d j) (h8 : ∀ j : Fin 128, v8 (ix2 (0 : Fin 1) j) = bd1 j)
    (h12 : ∀ d j : Fin 128, v12 (ix2 d j) = WcT d j) (h15 : ∀ j : Fin 128, v15 (ix2 (0 : Fin 1) j) = bc1 j)
    (h21 : ∀ (p : Fin 1024) (κ : Fin 2048), v21 (ix2 p κ) = Ad (r p) (Spec.tile k κ))
    (h24 : ∀ (p : Fin 1024) (κ : Fin 2048), v24 (ix2 p κ) = Ac (r p) (Spec.tile k κ))
    (p : Fin 1024) (j : Fin 128) :
    k0_pay3 v3 v5 v8 v12 v15 v21 v24 v28 (ix2 p j)
      = v28 (ix2 p j) + Spec.contrib Ad Ac Xq WdT bd1 WcT bc1 k (r p) j := by
  rw [pay3_apply]
  unfold Spec.contrib Spec.yq
  simp only [h3, h5, h8, h12, h15, h21, h24]

/-- The last column tile's store into the output block, when its operands are the rows `r p` of the features, the
    self weights and their bias row: the positive part of the running block plus the rows' own affine image. -/
theorem pay1_self (r : Fin 1024 → Fin 10240)
    (v36 : Vec Ideal S1024x128 .bf16) (v38 : Vec Ideal S128x128 .bf16) (v41 : Vec Ideal S1x128 .f32)
    (v45 : Vec Ideal S1024x128 .f32)
    (h36 : ∀ (p : Fin 1024) (d : Fin 128), v36 (ix2 p d) = Xq (r p) d)
    (h38 : ∀ d j : Fin 128, v38 (ix2 d j) = WsT d j) (h41 : ∀ j : Fin 128, v41 (ix2 (0 : Fin 1) j) = bs1 j)
    (p : Fin 1024) (j : Fin 128) :
    k0_pay1 v36 v38 v41 v45 (ix2 p j) = max (v45 (ix2 p j) + Spec.yq Xq WsT bs1 (r p) j) 0 := by
  rw [pay1_apply]
  unfold Spec.yq
  simp only [h36, h38, h41]

end Step

/-! ## The region's buffers after each point -/

section Inv

variable (V : (c : Dev nD) → (b : Ref sig .tc) → Buf (Elt Ideal) ((c : Thread nD τ).loc b))

/-- The padded arrangement's operands, read off the arrays the region is entered at: the two adjacency arrays, the
    padded features, the transposed weights and the bias rows. -/
abbrev opAd (c : Dev nD) : Fin 10240 → Fin 10240 → EReal := fun r s => V c main_v40 (ix2 r s)
abbrev opAc (c : Dev nD) : Fin 10240 → Fin 10240 → EReal := fun r s => V c main_v41 (ix2 r s)
abbrev opX (c : Dev nD) : Fin 10240 → Fin 128 → EReal := fun r d => V c main_v45 (ix2 r d)
abbrev opWd (c : Dev nD) : Fin 128 → Fin 128 → EReal := fun d j => V c main_v47 (ix2 d j)
abbrev opbd (c : Dev nD) : Fin 128 → EReal := fun j => V c main_v52 (ix2 (0 : Fin 1) j)
abbrev opWc (c : Dev nD) : Fin 128 → Fin 128 → EReal := fun d j => V c main_v49 (ix2 d j)
abbrev opbc (c : Dev nD) : Fin 128 → EReal := fun j => V c main_v53 (ix2 (0 : Fin 1) j)
abbrev opWs (c : Dev nD) : Fin 128 → Fin 128 → EReal := fun d j => V c main_v51 (ix2 d j)
abbrev opbs (c : Dev nD) : Fin 128 → EReal := fun j => V c main_v54 (ix2 (0 : Fin 1) j)

/-- The ten input blocks of point `t`, at their literal shapes. -/
abbrev b0 (c : Dev nD) (t : Fin cfg0.N) : Vec Ideal S1024x2048 .bf16 := iblk0 V c 0 t
abbrev b1 (c : Dev nD) (t : Fin cfg0.N) : Vec Ideal S1024x2048 .bf16 := iblk0 V c 1 t
abbrev b2 (c : Dev nD) (t : Fin cfg0.N) : Vec Ideal S2048x128 .bf16 := iblk0 V c 2 t
abbrev b3 (c : Dev nD) (t : Fin cfg0.N) : Vec Ideal S1024x128 .bf16 := iblk0 V c 3 t
abbrev b4 (c : Dev nD) (t : Fin cfg0.N) : Vec Ideal S128x128 .bf16 := iblk0 V c 4 t
abbrev b5 (c : Dev nD) (t : Fin cfg0.N) : Vec Ideal S128x128 .bf16 := iblk0 V c 5 t
abbrev b6 (c : Dev nD) (t : Fin cfg0.N) : Vec Ideal S128x128 .bf16 := iblk0 V c 6 t
abbrev b7 (c : Dev nD) (t : Fin cfg0.N) : Vec Ideal S1x128 .f32 := iblk0 V c 7 t
abbrev b8 (c : Dev nD) (t : Fin cfg0.N) : Vec Ideal S1x128 .f32 := iblk0 V c 8 t
abbrev b9 (c : Dev nD) (t : Fin cfg0.N) : Vec Ideal S1x128 .f32 := iblk0 V c 9 t

/-- The column tile of point `t`. -/
abbrev kt (t : Fin cfg0.N) : Fin 5 := ⟨t.val % 5, Nat.mod_lt _ (by decide)⟩

/-- A point's store into the running block adds its column tile's contribution to the rows of its row tile. -/
theorem step_eq (c : Dev nD) (t : Fin cfg0.N) (xs : Vec Ideal S1024x128 .f32) (p : Fin 1024) (j : Fin 128) :
    k0_pay3 (b2 V c t) (b4 V c t) (b7 V c t) (b5 V c t) (b8 V c t) (b0 V c t) (b1 V c t) xs (ix2 p j)
      = xs (ix2 p j) + Spec.contrib (opAd V c) (opAc V c) (opX V c) (opWd V c) (opbd V c) (opWc V c) (opbc V c) (kt t) (rowOf t p) j :=
  pay3_contrib (opAd V c) (opAc V c) (opX V c) (opWd V c) (opbd V c) (opWc V c) (opbc V c) (kt t) (rowOf t) _ _ _ _ _ _ _ xs
    (fun κ d => blk2 V c t κ d) (fun d j => blk4 V c t d j) (fun j => blk7 V c t 0 j)
    (fun d j => blk5 V c t d j) (fun j => blk8 V c t 0 j)
    (fun p κ => blk0 V c t p κ) (fun p κ => blk1 V c t p κ) p j

/-- The last column tile's store into the output block finishes the rows of its row tile. -/
theorem fin_eq (c : Dev nD) (t : Fin cfg0.N) (xs : Vec Ideal S1024x128 .f32) (p : Fin 1024) (j : Fin 128) :
    k0_pay1 (b3 V c t) (b6 V c t) (b9 V c t) xs (ix2 p j)
      = max (xs (ix2 p j) + Spec.yq (opX V c) (opWs V c) (opbs V c) (rowOf t p) j) 0 :=
  pay1_self (opX V c) (opWs V c) (opbs V c) (rowOf t) _ _ _ xs
    (fun p d => blk3 V c t p d) (fun d j => blk6 V c t d j) (fun j => blk9 V c t 0 j) p j

/-- The running block after a point of the first column tile. -/
theorem scratch_A (c : Dev nD) (t : Fin cfg0.N) (h0 : t.val % 5 = 0) :
    (outsAt0 V c t.val t.isLt).2 = k0_pay3 (b2 V c t) (b4 V c t) (b7 V c t) (b5 V c t) (b8 V c t) (b0 V c t) (b1 V c t) (k0_pay2 (F := Ideal)) := by
  rw [outsAt0_A V c t h0 (by omega)]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => (by omega : ¬t.val % 5 = 4) ((hcond0_1 t).mp h)) (b0 V c t) (b1 V c t) (b2 V c t) (b3 V c t) (b4 V c t) (b5 V c t) (b6 V c t) (b7 V c t) (b8 V c t) (b9 V c t)

/-- The running block after a point of a later column tile, over what the point before left. -/
theorem scratch_S (c : Dev nD) (t : Fin cfg0.N) (h0 : ¬t.val % 5 = 0) :
    (outsAt0 V c t.val t.isLt).2
      = k0_pay3 (b2 V c t) (b4 V c t) (b7 V c t) (b5 V c t) (b8 V c t) (b0 V c t) (b1 V c t) (outsAt0 V c (t.val - 1) (Nat.lt_of_le_of_lt (Nat.sub_le _ _) t.isLt)).2 := by
  by_cases h4 : t.val % 5 = 4
  · rw [outsAt0_C V c t h0 h4]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h4) (b0 V c t) (b1 V c t) (b2 V c t) (b3 V c t) (b4 V c t) (b5 V c t) (b6 V c t) (b7 V c t) (b8 V c t) (b9 V c t) (outsAt0 V c (t.val - 1) (Nat.lt_of_le_of_lt (Nat.sub_le _ _) t.isLt)).2
  · rw [outsAt0_B V c t h0 h4]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h4 ((hcond0_1 t).mp h)) (b0 V c t) (b1 V c t) (b2 V c t) (b3 V c t) (b4 V c t) (b5 V c t) (b6 V c t) (b7 V c t) (b8 V c t) (b9 V c t) (outsAt0 V c (t.val - 1) (Nat.lt_of_le_of_lt (Nat.sub_le _ _) t.isLt)).2

/-- The output block after a point of the last column tile, over what the point before left in the running block. -/
theorem out_C (c : Dev nD) (t : Fin cfg0.N) (h4 : t.val % 5 = 4) :
    (outsAt0 V c t.val t.isLt).1
      = k0_pay1 (b3 V c t) (b6 V c t) (b9 V c t)
          (k0_pay3 (b2 V c t) (b4 V c t) (b7 V c t) (b5 V c t) (b8 V c t) (b0 V c t) (b1 V c t) (outsAt0 V c (t.val - 1) (Nat.lt_of_le_of_lt (Nat.sub_le _ _) t.isLt)).2) := by
  rw [outsAt0_C V c t (by omega) h4]
  dsimp only
  exact out0_C_10_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => (by omega : ¬t.val % 5 = 0) ((hcond0_0 t).mp h)) ((hcond0_1 t).mpr h4) (b0 V c t) (b1 V c t) (b2 V c t) (b3 V c t) (b4 V c t) (b5 V c t) (b6 V c t) (b7 V c t) (b8 V c t) (b9 V c t) (outsAt0 V c (t.val - 1) (Nat.lt_of_le_of_lt (Nat.sub_le _ _) t.isLt)).2

/-- THE RUNNING BLOCK after point `n`: at (p, j) the padded arrangement's running sum over the column tiles
    0 … n % 5, at row p of row tile n / 5. By induction on the point. -/
theorem acc_inv (c : Dev nD) : ∀ (n : ℕ) (hn : n < cfg0.N) (p : Fin 1024) (j : Fin 128),
    (outsAt0 V c n hn).2 (ix2 p j)
      = Spec.acc (opAd V c) (opAc V c) (opX V c) (opWd V c) (opbd V c) (opWc V c) (opbc V c) (n % 5) (Nat.mod_lt _ (by decide)) (rowOf ⟨n, hn⟩ p) j := by
  intro n
  induction n with
  | zero =>
    intro hn p j
    rw [scratch_A V c ⟨0, hn⟩ rfl, step_eq, pay2_apply]
    exact (acc_zero (opAd V c) (opAc V c) (opX V c) (opWd V c) (opbd V c) (opWc V c) (opbc V c) (kt ⟨0, hn⟩) rfl _ _).symm
  | succ n ih =>
    intro hn p j
    by_cases h0 : (n + 1) % 5 = 0
    · rw [scratch_A V c ⟨n + 1, hn⟩ h0, step_eq, pay2_apply]
      exact (acc_zero (opAd V c) (opAc V c) (opX V c) (opWd V c) (opbd V c) (opWc V c) (opbc V c) (kt ⟨n + 1, hn⟩) h0 _ _).symm
    · rw [scratch_S V c ⟨n + 1, hn⟩ h0, step_eq]
      show (outsAt0 V c n (Nat.lt_of_succ_lt hn)).2 (ix2 p j) + _ = _
      rw [ih (Nat.lt_of_succ_lt hn) p j]
      have hr : rowOf ⟨n, Nat.lt_of_succ_lt hn⟩ p = rowOf ⟨n + 1, hn⟩ p :=
        Fin.ext (by show 1024 * (n / 5) + p.val = 1024 * ((n + 1) / 5) + p.val; omega)
      rw [hr]
      exact (acc_succ (opAd V c) (opAc V c) (opX V c) (opWd V c) (opbd V c) (opWc V c) (opbc V c) (kt ⟨n + 1, hn⟩) (n % 5) (by show n % 5 + 1 = (n + 1) % 5; omega) _ _).symm

/-- THE OUTPUT BLOCK after a point of the last column tile: at (p, j) the padded result at row p of the point's row
    tile. -/
theorem out_inv (c : Dev nD) (t : Fin cfg0.N) (h4 : t.val % 5 = 4) (p : Fin 1024) (j : Fin 128) :
    (outsAt0 V c t.val t.isLt).1 (ix2 p j)
      = Spec.KG (opAd V c) (opAc V c) (opX V c) (opWd V c) (opbd V c) (opWc V c) (opbc V c) (opWs V c) (opbs V c) (rowOf t p) j := by
  rw [out_C V c t h4, ← scratch_S V c t (by omega), fin_eq, acc_inv V c t.val t.isLt p j]
  unfold Spec.KG
  rw [acc_congr (opAd V c) (opAc V c) (opX V c) (opWd V c) (opbd V c) (opWc V c) (opbc V c) h4 (Nat.mod_lt _ (by decide)) (by decide)]

end Inv

end Cert.KernelIdeal.Val

end
-- ==== Proof.KI.Final.lean ====
/-
  The output array of the kernel region, as a value.

  After a point of the last column tile the output block holds the padded result of the 1024 rows of the point's row
  tile; that point writes the block back to rows 1024 (t / 5) … 1024 (t / 5) + 1023 of the output array, and the ten
  such points tile the array's 10240 rows. So the array ends holding, at (r, j), the padded arrangement's result at
  row r, column j, over the arrays the region is entered at.
-/
import proofs.«424744_j9517647528114_2_alg».proof.Proof.KI.Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-! ## The output array after the region -/

section Final

variable (V : (c : Dev nD) → (b : Ref sig .tc) → Buf (Elt Ideal) ((c : Thread nD τ).loc b))

/-- The padded result as contents of the 10240 × 128 output array. -/
def outG (c : Dev nD) : S10240x128.Idx → EReal := fun i =>
  Spec.KG (opAd V c) (opAc V c) (opX V c) (opWd V c) (opbd V c) (opWc V c) (opbc V c) (opWs V c) (opbs V c) ⟨(i 0).val, idx2_lt0 i⟩ ⟨(i 1).val, idx2_lt1 i⟩

theorem outG_apply (c : Dev nD) (r : Fin 10240) (j : Fin 128) :
    outG V c (ix2 r j) = Spec.KG (opAd V c) (opAc V c) (opX V c) (opWd V c) (opbd V c) (opWc V c) (opbc V c) (opWs V c) (opbs V c) r j := rfl

/-- What a point of the last column tile writes back is its block of the padded result: rows 1024 (t / 5) … of it. -/
theorem flushed10_eq (c : Dev nD) (t : Fin cfg0.N) (hf : (cfg0.win 10).flush t = true) :
    (dat0 V c).flushed 10 t = ((cfg0.win 10).blk t).view.read (Elt Ideal) (outG V c) := by
  have h4 : t.val % 5 = 4 := (flush0_10 t).mp hf
  show (cfg0.win 10).cut (grid0.coords t) ((dat0 V c).after 10 t) = _
  rw [after0_10]
  refine funext fun (y : S1024x128.Idx) => ?_
  obtain ⟨p, j, rfl⟩ : ∃ (p : Fin 1024) (j : Fin 128), y = ix2 p j := ⟨y 0, y 1, eq_ix2 y⟩
  show (outsAt0 V c t.val t.isLt).1 (ix2 p j) = outG V c (((cfg0.win 10).blk t).view.emb (ix2 p j))
  rw [read10 (outG V c) t p j, out_inv V c t h4 p j]
  rfl

/-- The ten write-backs tile the output array, so it ends holding the padded result. -/
theorem final_eq (c : Dev nD) : (dat0 V c).arrAt 10 cfg0.N = outG V c :=
  (dat0 V c).arrAt_eq_of_cover 10 (outG V c) (flushed10_eq V c) cover10

/-- THE REGION'S OUTPUT ARRAY at row `r`, column `j`: the padded result at the arrays the region is entered at. -/
theorem final_apply (c : Dev nD) (r : Fin 10240) (j : Fin 128) :
    ((dat0 V c).arrAt 10 cfg0.N : S10240x128.Idx → EReal) (ix2 r j)
      = Cert.Spec.KG (fun r s => V c main_v40 (ix2 r s)) (fun r s => V c main_v41 (ix2 r s)) (fun r d => V c main_v45 (ix2 r d))
          (fun d j => V c main_v47 (ix2 d j)) (fun j => V c main_v52 (ix2 (0 : Fin 1) j))
          (fun d j => V c main_v49 (ix2 d j)) (fun j => V c main_v53 (ix2 (0 : Fin 1) j))
          (fun d j => V c main_v51 (ix2 d j)) (fun j => V c main_v54 (ix2 (0 : Fin 1) j)) r j :=
  (congrFun (final_eq V c) (ix2 r j)).trans rfl

end Final

end Cert.KernelIdeal.Val

end
-- ==== Proof.Algebraic.lean ====
/-
  The kernel and the reference compute the same array.

  At the ideal instance both programs, launched from memories that agree on the nine arguments, run to the end and
  leave the arguments as launched; the kernel's result array and the reference's are both the layer written edge by
  edge (\`Cert.Spec.G\`) at those arguments:

  * the kernel's result is the first 10000 rows of the pipelined region's output array; that array is, entry by
    entry, the padded arrangement \`Cert.Spec.KG\` of the ten operand arrays the region is entered with; those operands
    are the two adjacency counts, the zero-padded features, the transposed weights and the biases as single rows;
    under the decoded precondition (every float a real, every source word a node, every destination word
    non-negative) the arrangement's rows below 10000 are the layer (\`Cert.KernelValue.out_eq\`);
  * the reference's result is the gather / affine maps / selection / segment sum of the same arguments, which is the
    layer as well (\`Cert.ReferenceIdeal.RefValue.ref_eq\`).
-/
import proofs.«424744_j9517647528114_2_alg».proof.Defs
import proofs.«424744_j9517647528114_2_alg».proof.Proof.Gen.KernelIdeal
import proofs.«424744_j9517647528114_2_alg».proof.Proof.Gen.ReferenceIdeal
import proofs.«424744_j9517647528114_2_alg».proof.Proof.Gen.ReferenceIdeal.Run
import proofs.«424744_j9517647528114_2_alg».proof.Proof.Gen.Pre_finite_inputs
import proofs.«424744_j9517647528114_2_alg».proof.Proof.Pre
import proofs.«424744_j9517647528114_2_alg».proof.Proof.KernelValue
import proofs.«424744_j9517647528114_2_alg».proof.Proof.Ref.Value
import proofs.«424744_j9517647528114_2_alg».proof.Proof.KI.Frame
import proofs.«424744_j9517647528114_2_alg».proof.Proof.KI.Head
import proofs.«424744_j9517647528114_2_alg».proof.Proof.KI.HeadRest
import proofs.«424744_j9517647528114_2_alg».proof.Proof.KI.Final
import Idealize.ShloMosaic.Lib.Pipeline.Frame

noncomputable section

namespace Cert.Proof.Alg

open Idealize.ShloMosaic Idealize.ShloMosaic.TcCoe Idealize.ShloMosaic.ValueIdx Idealize.SL Idealize.SL.Sem

section Kernel

open Cert.KernelIdeal Cert.KernelIdeal.Gen Cert.KernelIdeal.Hand

/-- An unscoped TensorCore reference is among those the last thread state holds. -/
theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

variable (m : (ℓ : Loc nD τ sig) → Buf (Elt Ideal) ℓ)

/-- The layer, edge by edge, at the arguments core \`c\` is launched with: node \`idx 0\`, column \`idx 1\`. -/
def layer (c : Dev nD) : S10000x128.Idx → EReal := fun idx =>
  Cert.Spec.G (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (idx 0) (idx 1)

/-- The kernel's result array ends at the layer: the kept rows of the region's output array, which is the padded
    arrangement of the operands the host stretches build, which are the adjacency counts, the padded features, the
    transposed weights and the bias rows of the arguments. -/
theorem kernel_value (hpre : Cert.Pre_KernelIdeal m) (c : Dev nD) :
    W7 m (fun c => dat0 (V5 m) c) c (Proc.devRef .tc main_v56) = layer m c := by
  rw [W7v_main_v56]
  exact Cert.KernelValue.out_eq _ _ _ _ _ _ _ _ _ ((dat0 (V5 m) c).arrAt 10 cfg0.N)
    (V5 m c main_v40) (V5 m c main_v41) (V5 m c main_v45) (V5 m c main_v47) (V5 m c main_v49) (V5 m c main_v51)
    (V5 m c main_v52) (V5 m c main_v53) (V5 m c main_v54)
    (Cert.KernelIdeal.Val.final_apply (V5 m) c)
    (Cert.KernelIdeal.HeadVal.head_v40_raw m c) (Cert.KernelIdeal.HeadVal.head_v41_raw m c) (Cert.KernelIdeal.HeadVal.head_v45 m c)
    (Cert.KernelIdeal.HeadVal.head_v47 m c) (Cert.KernelIdeal.HeadVal.head_v49 m c) (Cert.KernelIdeal.HeadVal.head_v51 m c)
    (Cert.KernelIdeal.HeadVal.head_v52 m c) (Cert.KernelIdeal.HeadVal.head_v53 m c) (Cert.KernelIdeal.HeadVal.head_v54 m c)
    (Cert.PreFacts.decode _ _ _ _ _ _ _ _ _ (hpre c)) slices_S10240x128_S10000x128_0_0

/-- THE KERNEL'S RUN with its value: the result array ends at the layer and the nine arguments as launched. -/
theorem kernel_run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v56) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (uc_mem main_v56 (by decide))).trans (kernel_value m hpre c),
     (h c _ (uc_mem main_arg0 (by decide))).trans (W7v_main_arg0 m c),
     (h c _ (uc_mem main_arg1 (by decide))).trans (W7v_main_arg1 m c),
     (h c _ (uc_mem main_arg2 (by decide))).trans (W7v_main_arg2 m c),
     (h c _ (uc_mem main_arg3 (by decide))).trans (W7v_main_arg3 m c),
     (h c _ (uc_mem main_arg4 (by decide))).trans (W7v_main_arg4 m c),
     (h c _ (uc_mem main_arg5 (by decide))).trans (W7v_main_arg5 m c),
     (h c _ (uc_mem main_arg6 (by decide))).trans (W7v_main_arg6 m c),
     (h c _ (uc_mem main_arg7 (by decide))).trans (W7v_main_arg7 m c),
     (h c _ (uc_mem main_arg8 (by decide))).trans (W7v_main_arg8 m c)⟩)
    (run_val m ρ)

end Kernel

/-- \`Cert.algebraic_KernelIdeal_ReferenceIdeal\`: at the ideal instance, from memories agreeing on the arguments, both
    programs run; the kernel's result array and the reference's both end at the layer edge by edge (the decoded
    precondition makes the padded arrangement and the reference's gather / segment sum the same sums), and the
    arguments end as launched. -/
theorem algebraic : Cert.algebraic_KernelIdeal_ReferenceIdeal := by
  intro m ρ m' ρ' hpre hagree
  refine ⟨fun c => layer m c, kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact Cert.ReferenceIdeal.RefValue.ref_eq _ _ _ _ _ _ _ _ _ (Cert.PreFacts.decode _ _ _ _ _ _ _ _ _ (hpre c)).src

end Cert.Proof.Alg

end
-- ==== Proof.lean ====
/-
  A graph layer with two edge types: every edge carries the affine image of its source node's features under the
  weights of its type, every node sums the messages arriving at it, adds its own affine image under the self weights
  and takes the positive part.

  The kernel computes the layer through two adjacency arrays of a padded node count (how many edges of each type join
  a pair of nodes), multiplied tile by tile with the nodes' affine images and accumulated over the column tiles; the
  reference computes it edge by edge. Under the precondition (finite float inputs; every end-point word non-negative,
  every source word a node) the two arrays are equal index by index over the extended reals: grouping the edges that
  arrive at a node by their source turns the sum over edges into the product with the adjacency counts, the padding
  rows and columns contribute nothing, and every entry is a real number, so the regrouping is real arithmetic.

  The claims: each of the three programs runs to the end, faults nowhere and leaves its arguments as launched; the
  ideal pass rewrote no operation; at the ideal instance the kernel's result and the reference's are one array.
-/
import proofs.«424744_j9517647528114_2_alg».proof.Defs
import proofs.«424744_j9517647528114_2_alg».proof.Proof.Gen.Kernel
import proofs.«424744_j9517647528114_2_alg».proof.Proof.Gen.KernelIdeal
import proofs.«424744_j9517647528114_2_alg».proof.Proof.Gen.ReferenceIdeal
import proofs.«424744_j9517647528114_2_alg».proof.Proof.Gen.ReferenceIdeal.Run
import proofs.«424744_j9517647528114_2_alg».proof.Proof.Gen.Pre_finite_inputs
import proofs.«424744_j9517647528114_2_alg».proof.Proof.K.Frame
import proofs.«424744_j9517647528114_2_alg».proof.Proof.KI.Frame
import proofs.«424744_j9517647528114_2_alg».proof.Proof.Algebraic

noncomputable section

namespace Cert.Proof

open Idealize.ShloMosaic Idealize.SL.Sem

/-- The word-level program runs and leaves its arguments as launched. -/
theorem frame_Kernel : Cert.frame_Kernel := fun m ρ _ => Cert.Kernel.Hand.frame_main (F := Bits) m ρ

/-- The program read at the ideal instance runs and leaves its arguments as launched. -/
theorem frame_KernelIdeal : Cert.frame_KernelIdeal := fun m ρ _ => Cert.KernelIdeal.Hand.frame_main (F := Ideal) m ρ

/-- The reference runs and leaves its arguments as launched: its run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, Cert.Proof.Alg.algebraic⟩

end Cert.Proof

end
